-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![8192, 2048]⟩ ⟨2, ![16384, 2048]⟩ (Layout.meshBlock [2, 2, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![16384, 1024]⟩ ⟨2, ![16384, 2048]⟩ (Layout.meshBlock [2, 2, 4] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  main_v3
-- ==== Pre_finite_inputs_ReferenceIdeal.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Kernel.lean ====
abbrev S8192x2048 : Shape := ⟨2, ![8192, 2048]⟩
abbrev S16384x1024 : Shape := ⟨2, ![16384, 1024]⟩
abbrev S8192x1024 : Shape := ⟨2, ![8192, 1024]⟩
abbrev S2x1024x1024 : Shape := ⟨3, ![2, 1024, 1024]⟩
abbrev S2 : Shape := ⟨1, ![2]⟩
abbrev S8 : Shape := ⟨1, ![8]⟩
abbrev S_ : Shape := ⟨0, ![]⟩
abbrev S1 : Shape := ⟨1, ![1]⟩
abbrev S1024x1024 : Shape := ⟨2, ![1024, 1024]⟩
abbrev S1x1024x1024 : Shape := ⟨3, ![1, 1024, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8192x2048, .f32⟩
  | .hbm, ⟨1, _⟩ => ⟨S16384x1024, .f32⟩
  | .local _ .vmem, ⟨0, _⟩ => ⟨S8192x1024, .f32⟩
  | .local _ .vmem, ⟨1, _⟩ => ⟨S2x1024x1024, .f32⟩
  | _, _ => ⟨S8192x2048, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_4 : BitVec 32 := 8#32
  let v11 : BitVec 32 := Scalar.muli v2 c8_i32_4
  let v12 : BitVec 32 := Scalar.addi c0_i32 v11
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_5 : BitVec 32 := 4#32
  let v13 : BitVec 32 := Scalar.muli v9 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 2 → Nat :=
  let c0_i32_11 : BitVec 32 := 0#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32 : BitVec 32 := 1024#32
  let v17 : BitVec 32 := Scalar.muli v9 c1024_i32
  ![0, v17.toNat]
def k0_off2 (d0 : Dev nD) : Fin 2 → Nat :=
  let c1024_i32_16 : BitVec 32 := 1024#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_12 : BitVec 32 := 1024#32
  let v22 : BitVec 32 := Scalar.muli v9 c1024_i32_12
  ![1024, v22.toNat]
def k0_off3 (d0 : Dev nD) : Fin 2 → Nat :=
  let c2048_i32_20 : BitVec 32 := 2048#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_17 : BitVec 32 := 1024#32
  let v27 : BitVec 32 := Scalar.muli v9 c1024_i32_17
  ![2048, v27.toNat]
def k0_off4 (d0 : Dev nD) : Fin 2 → Nat :=
  let c3072_i32_23 : BitVec 32 := 3072#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_21 : BitVec 32 := 1024#32
  let v32 : BitVec 32 := Scalar.muli v9 c1024_i32_21
  ![3072, v32.toNat]
def k0_off5 (d0 : Dev nD) : Fin 2 → Nat :=
  let c4096_i32_27 : BitVec 32 := 4096#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_24 : BitVec 32 := 1024#32
  let v37 : BitVec 32 := Scalar.muli v9 c1024_i32_24
  ![4096, v37.toNat]
def k0_off6 (d0 : Dev nD) : Fin 2 → Nat :=
  let c5120_i32_30 : BitVec 32 := 5120#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_28 : BitVec 32 := 1024#32
  let v42 : BitVec 32 := Scalar.muli v9 c1024_i32_28
  ![5120, v42.toNat]
def k0_off7 (d0 : Dev nD) : Fin 2 → Nat :=
  let c6144_i32_33 : BitVec 32 := 6144#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_31 : BitVec 32 := 1024#32
  let v47 : BitVec 32 := Scalar.muli v9 c1024_i32_31
  ![6144, v47.toNat]
def k0_off8 (d0 : Dev nD) : Fin 2 → Nat :=
  let c7168_i32_36 : BitVec 32 := 7168#32
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c1024_i32_34 : BitVec 32 := 1024#32
  let v52 : BitVec 32 := Scalar.muli v9 c1024_i32_34
  ![7168, v52.toNat]
def k0_off9 (d0 : Dev nD) (c0_i32_41 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c8192_i32 : BitVec 32 := 8192#32
  let v61 : BitVec 32 := Scalar.muli v5 c8192_i32
  let v62 : BitVec 32 := Scalar.addi v61 c0_i32_41
  let c0_i32_48 : BitVec 32 := 0#32
  ![v62.toNat, 0]
def k0_dev2 (d0 : Dev nD) : Nat :=
  let c0_i32_45 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_44 : BitVec 32 := 8#32
  let v63 : BitVec 32 := Scalar.muli v2 c8_i32_44
  let v64 : BitVec 32 := Scalar.addi c0_i32_45 v63
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_46 : BitVec 32 := 4#32
  let v65 : BitVec 32 := Scalar.muli v9 c4_i32_46
  let v66 : BitVec 32 := Scalar.addi v64 v65
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_47 : BitVec 32 := 1#32
  let v67 : BitVec 32 := Scalar.muli v8 c1_i32_47
  let v68 : BitVec 32 := Scalar.addi v66 v67
  v68.toNat
def k0_dev3 (d0 : Dev nD) : Nat :=
  let c0_i32_60 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_59 : BitVec 32 := 8#32
  let v81 : BitVec 32 := Scalar.muli v2 c8_i32_59
  let v82 : BitVec 32 := Scalar.addi c0_i32_60 v81
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_61 : BitVec 32 := 4#32
  let v83 : BitVec 32 := Scalar.muli v9 c4_i32_61
  let v84 : BitVec 32 := Scalar.addi v82 v83
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v85 : BitVec 32 := Scalar.muli v8 c1_i32_62
  let v86 : BitVec 32 := Scalar.addi v84 v85
  v86.toNat
def k0_dev4 (d0 : Dev nD) : Nat :=
  let c0_i32_75 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_74 : BitVec 32 := 8#32
  let v99 : BitVec 32 := Scalar.muli v2 c8_i32_74
  let v100 : BitVec 32 := Scalar.addi c0_i32_75 v99
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_76 : BitVec 32 := 4#32
  let v101 : BitVec 32 := Scalar.muli v9 c4_i32_76
  let v102 : BitVec 32 := Scalar.addi v100 v101
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v103 : BitVec 32 := Scalar.muli v8 c1_i32_77
  let v104 : BitVec 32 := Scalar.addi v102 v103
  v104.toNat
def k0_dev5 (d0 : Dev nD) : Nat :=
  let c0_i32_90 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_89 : BitVec 32 := 8#32
  let v117 : BitVec 32 := Scalar.muli v2 c8_i32_89
  let v118 : BitVec 32 := Scalar.addi c0_i32_90 v117
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_91 : BitVec 32 := 4#32
  let v119 : BitVec 32 := Scalar.muli v9 c4_i32_91
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_92 : BitVec 32 := 1#32
  let v121 : BitVec 32 := Scalar.muli v8 c1_i32_92
  let v122 : BitVec 32 := Scalar.addi v120 v121
  v122.toNat
def k0_dev6 (d0 : Dev nD) : Nat :=
  let c0_i32_105 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_104 : BitVec 32 := 8#32
  let v135 : BitVec 32 := Scalar.muli v2 c8_i32_104
  let v136 : BitVec 32 := Scalar.addi c0_i32_105 v135
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_106 : BitVec 32 := 4#32
  let v137 : BitVec 32 := Scalar.muli v9 c4_i32_106
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_107 : BitVec 32 := 1#32
  let v139 : BitVec 32 := Scalar.muli v8 c1_i32_107
  let v140 : BitVec 32 := Scalar.addi v138 v139
  v140.toNat
def k0_dev7 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v153 : BitVec 32 := Scalar.muli v2 c8_i32_119
  let v154 : BitVec 32 := Scalar.addi c0_i32_120 v153
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_121 : BitVec 32 := 4#32
  let v155 : BitVec 32 := Scalar.muli v9 c4_i32_121
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_122 : BitVec 32 := 1#32
  let v157 : BitVec 32 := Scalar.muli v8 c1_i32_122
  let v158 : BitVec 32 := Scalar.addi v156 v157
  v158.toNat
def k0_dev8 (d0 : Dev nD) : Nat :=
  let c0_i32_135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_134 : BitVec 32 := 8#32
  let v171 : BitVec 32 := Scalar.muli v2 c8_i32_134
  let v172 : BitVec 32 := Scalar.addi c0_i32_135 v171
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_136 : BitVec 32 := 4#32
  let v173 : BitVec 32 := Scalar.muli v9 c4_i32_136
  let v174 : BitVec 32 := Scalar.addi v172 v173
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_137 : BitVec 32 := 1#32
  let v175 : BitVec 32 := Scalar.muli v8 c1_i32_137
  let v176 : BitVec 32 := Scalar.addi v174 v175
  v176.toNat
def k0_dev9 (d0 : Dev nD) : Nat :=
  let c0_i32_150 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_149 : BitVec 32 := 8#32
  let v189 : BitVec 32 := Scalar.muli v2 c8_i32_149
  let v190 : BitVec 32 := Scalar.addi c0_i32_150 v189
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_151 : BitVec 32 := 4#32
  let v191 : BitVec 32 := Scalar.muli v9 c4_i32_151
  let v192 : BitVec 32 := Scalar.addi v190 v191
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_152 : BitVec 32 := 1#32
  let v193 : BitVec 32 := Scalar.muli v8 c1_i32_152
  let v194 : BitVec 32 := Scalar.addi v192 v193
  v194.toNat
def k0_off10 (d0 : Dev nD) : Fin 2 → Nat :=
  let c0_i32_161 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_156 : BitVec 32 := 1024#32
  let v201 : BitVec 32 := Scalar.muli v5 c1024_i32_156
  ![0, v201.toNat]
def k0_off11 (d0 : Dev nD) : Fin 2 → Nat :=
  let c1024_i32_179 : BitVec 32 := 1024#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_174 : BitVec 32 := 1024#32
  let v219 : BitVec 32 := Scalar.muli v5 c1024_i32_174
  ![1024, v219.toNat]
def k0_off12 (d0 : Dev nD) : Fin 2 → Nat :=
  let c2048_i32_202 : BitVec 32 := 2048#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_197 : BitVec 32 := 1024#32
  let v242 : BitVec 32 := Scalar.muli v5 c1024_i32_197
  ![2048, v242.toNat]
def k0_off13 (d0 : Dev nD) : Fin 2 → Nat :=
  let c3072_i32_225 : BitVec 32 := 3072#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_220 : BitVec 32 := 1024#32
  let v265 : BitVec 32 := Scalar.muli v5 c1024_i32_220
  ![3072, v265.toNat]
def k0_off14 (d0 : Dev nD) : Fin 2 → Nat :=
  let c4096_i32_248 : BitVec 32 := 4096#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_243 : BitVec 32 := 1024#32
  let v288 : BitVec 32 := Scalar.muli v5 c1024_i32_243
  ![4096, v288.toNat]
def k0_off15 (d0 : Dev nD) : Fin 2 → Nat :=
  let c5120_i32_271 : BitVec 32 := 5120#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_266 : BitVec 32 := 1024#32
  let v311 : BitVec 32 := Scalar.muli v5 c1024_i32_266
  ![5120, v311.toNat]
def k0_off16 (d0 : Dev nD) : Fin 2 → Nat :=
  let c6144_i32_294 : BitVec 32 := 6144#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_289 : BitVec 32 := 1024#32
  let v334 : BitVec 32 := Scalar.muli v5 c1024_i32_289
  ![6144, v334.toNat]
def k0_off17 (d0 : Dev nD) : Fin 2 → Nat :=
  let c7168_i32_317 : BitVec 32 := 7168#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c1024_i32_312 : BitVec 32 := 1024#32
  let v357 : BitVec 32 := Scalar.muli v5 c1024_i32_312
  ![7168, v357.toNat]

class Facts₀ : Prop where
  hamt_1 : (1#32 : BitVec 32).msb = false
  inb_S8_S1_0 : ∀ a, (![0] : Fin 1 → Nat) a + S1.size a ≤ S8.size a
  squeezes_S1_S_ : S1.Squeezes S_
  inb_S8192x1024_S1024x1024_0_0 : ∀ a, (![0, 0] : Fin 2 → Nat) a + S1024x1024.size a ≤ S8192x1024.size a
  inb_S8_S1_1 : ∀ a, (![1] : Fin 1 → Nat) a + S1.size a ≤ S8.size a
  inb_S8192x1024_S1024x1024_1024_0 : ∀ a, (![1024, 0] : Fin 2 → Nat) a + S1024x1024.size a ≤ S8192x1024.size a
  inb_S8_S1_2 : ∀ a, (![2] : Fin 1 → Nat) a + S1.size a ≤ S8.size a
  inb_S8192x1024_S1024x1024_2048_0 : ∀ a, (![2048, 0] : Fin 2 → Nat) a + S1024x1024.size a ≤ S8192x1024.size a
  inb_S8_S1_3 : ∀ a, (![3] : Fin 1 → Nat) a + S1.size a ≤ S8.size a
  inb_S8192x1024_S1024x1024_3072_0 : ∀ a, (![3072, 0] : Fin 2 → Nat) a + S1024x1024.size a ≤ S8192x1024.size a
  inb_S8_S1_4 : ∀ a, (![4] : Fin 1 → Nat) a + S1.size a ≤ S8.size a
  inb_S8192x1024_S1024x1024_4096_0 : ∀ a, (![4096, 0] : Fin 2 → Nat) a + S1024x1024.size a ≤ S8192x1024.size a
  inb_S8_S1_5 : ∀ a, (![5] : Fin 1 → Nat) a + S1.size a ≤ S8.size a
  inb_S8192x1024_S1024x1024_5120_0 : ∀ a, (![5120, 0] : Fin 2 → Nat) a + S1024x1024.size a ≤ S8192x1024.size a
  inb_S8_S1_6 : ∀ a, (![6] : Fin 1 → Nat) a + S1.size a ≤ S8.size a
  inb_S8192x1024_S1024x1024_6144_0 : ∀ a, (![6144, 0] : Fin 2 → Nat) a + S1024x1024.size a ≤ S8192x1024.size a
  inb_S8_S1_7 : ∀ a, (![7] : Fin 1 → Nat) a + S1.size a ≤ S8.size a
  inb_S8192x1024_S1024x1024_7168_0 : ∀ a, (![7168, 0] : Fin 2 → Nat) a + S1024x1024.size a ≤ S8192x1024.size a
  inb_S2_S1_0 : ∀ a, (![0] : Fin 1 → Nat) a + S1.size a ≤ S2.size a
  inb_S2x1024x1024_S1x1024x1024_0_0_0 : ∀ a, (![0, 0, 0] : Fin 3 → Nat) a + S1x1024x1024.size a ≤ S2x1024x1024.size a
  squeezes_S1x1024x1024_S1024x1024 : S1x1024x1024.Squeezes S1024x1024
  inb_S2_S1_1 : ∀ a, (![1] : Fin 1 → Nat) a + S1.size a ≤ S2.size a
  inb_S2x1024x1024_S1x1024x1024_1_0_0 : ∀ a, (![1, 0, 0] : Fin 3 → Nat) a + S1x1024x1024.size a ≤ S2x1024x1024.size a
  hcc0_scratch2 : 0 + S2.numel ≤ 28
  hcc0_scratch3 : 2 + S2.numel ≤ 28
  hcc0_scratch4 : 4 + S8.numel ≤ 28
  hcc0_scratch5 : 12 + S8.numel ≤ 28
  hcc0_scratch6 : 20 + S8.numel ≤ 28
  k0_dev1_lt : ∀ d0 : Dev nD, (k0_dev1 d0) < nD
  k0_off1_inb : ∀ d0 : Dev nD, ∀ a, (k0_off1 d0) a + S1024x1024.size a ≤ S8192x2048.size a
  k0_off2_inb : ∀ d0 : Dev nD, ∀ a, (k0_off2 d0) a + S1024x1024.size a ≤ S8192x2048.size a
  k0_off3_inb : ∀ d0 : Dev nD, ∀ a, (k0_off3 d0) a + S1024x1024.size a ≤ S8192x2048.size a
  k0_off4_inb : ∀ d0 : Dev nD, ∀ a, (k0_off4 d0) a + S1024x1024.size a ≤ S8192x2048.size a
  k0_off5_inb : ∀ d0 : Dev nD, ∀ a, (k0_off5 d0) a + S1024x1024.size a ≤ S8192x2048.size a
  k0_off6_inb : ∀ d0 : Dev nD, ∀ a, (k0_off6 d0) a + S1024x1024.size a ≤ S8192x2048.size a
  k0_off7_inb : ∀ d0 : Dev nD, ∀ a, (k0_off7 d0) a + S1024x1024.size a ≤ S8192x2048.size a
  k0_off8_inb : ∀ d0 : Dev nD, ∀ a, (k0_off8 d0) a + S1024x1024.size a ≤ S8192x2048.size a
  k0_off9_inb : ∀ d0 : Dev nD, ∀ (r : Fin 8), ∀ a, (k0_off9 d0 (BitVec.ofNat 32 (1024 * r.val))) a + S1024x1024.size a ≤ S16384x1024.size a
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_off10_inb : ∀ d0 : Dev nD, ∀ a, (k0_off10 d0) a + S1024x1024.size a ≤ S8192x2048.size a
  k0_off11_inb : ∀ d0 : Dev nD, ∀ a, (k0_off11 d0) a + S1024x1024.size a ≤ S8192x2048.size a
  k0_off12_inb : ∀ d0 : Dev nD, ∀ a, (k0_off12 d0) a + S1024x1024.size a ≤ S8192x2048.size a
  k0_off13_inb : ∀ d0 : Dev nD, ∀ a, (k0_off13 d0) a + S1024x1024.size a ≤ S8192x2048.size a
  k0_off14_inb : ∀ d0 : Dev nD, ∀ a, (k0_off14 d0) a + S1024x1024.size a ≤ S8192x2048.size a
  k0_off15_inb : ∀ d0 : Dev nD, ∀ a, (k0_off15 d0) a + S1024x1024.size a ≤ S8192x2048.size a
  k0_off16_inb : ∀ d0 : Dev nD, ∀ a, (k0_off16 d0) a + S1024x1024.size a ≤ S8192x2048.size a
  k0_off17_inb : ∀ d0 : Dev nD, ∀ a, (k0_off17 d0) a + S1024x1024.size a ≤ S8192x2048.size a

variable [Facts₀]

abbrev cc0_scratch2 : DmaSems sig S2 := SemArray.consecutive 0 S2 hcc0_scratch2
abbrev cc0_scratch3 : DmaSems sig S2 := SemArray.consecutive 2 S2 hcc0_scratch3
abbrev cc0_scratch4 : DmaSems sig S8 := SemArray.consecutive 4 S8 hcc0_scratch4
abbrev cc0_scratch5 : DmaSems sig S8 := SemArray.consecutive 12 S8 hcc0_scratch5
abbrev cc0_scratch6 : DmaSems sig S8 := SemArray.consecutive 20 S8 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S16384x2048 : Shape := ⟨2, ![16384, 2048]⟩

abbrev nBuf : Space → Nat
  | .hbm => 1
  | .vmem => 0
  | .smem => 0
  | _ => 0

abbrev bufTy : (tb : Table) → Fin (tcTables nBuf tb) → BufTy
  | .hbm, ⟨0, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.KernelIdeal.Exchange.lean ====
/-
  The exchange on the mesh's `y` axis, as mathematics.

  Sixteen devices sit on a 2 × 2 × 4 mesh; device `c` has `y` coordinate `(c / 4) % 2` and its PEER is the device
  at the other `y` coordinate and the same `x` and `z`. Each device holds an 8192 × 2048 block `x` (its half of
  the rows of the whole 16384 × 2048 array) and must end holding a 16384 × 1024 block (its half of the COLUMNS of the
  whole array). So the rows `[8192 y, 8192 y + 8192)` of its result are its own block's columns
  `[1024 y, 1024 y + 1024)`, and the other 8192 rows are the same columns of its peer's block. The kernel moves both
  in eight chunks of 1024 rows: its own columns through a two-slot buffer, its peer's half of ITS block through a
  staging buffer and eight remote copies into the peer's result.

  This file names the chunks (the slices of the four buffers the copies go through, each spelt through the printed
  offset functions so that a printed slice is an instance by unfolding) and states the result as ONE function of the
  two devices' blocks.
-/
import proofs.«900643_g7700000000000644_dist_a2a_v7x_xyz2x2x4_y_m8192_n1024_f32_1_alg».proof.Proof.Gen.KernelIdeal
import Idealize.ShloMosaic.Lib.Pipeline.Kit

noncomputable section

namespace Cert.KernelIdeal.Xchg

open Cert.KernelIdeal Cert.KernelIdeal.Gen
open Idealize.ShloMosaic Idealize.ShloMosaic.TcCoe Idealize.SL.Sem

variable {F : FTy → Type} [FloatOps F]

/-! ## The `y` coordinate and the peer -/

/-- The device's coordinate on the mesh's `y` axis. -/
def yOf (c : Dev nD) : Nat := (c.val / 4) % 2

/-- The device at the other `y` coordinate, same `x` and `z`. -/
def peer (c : Dev nD) : Dev nD :=
  ⟨(8 * (c.val / 8) + (c.val % 4) + 4) - 4 * ((c.val / 4) % 2), by have := c.isLt; revert this; generalize c.val = v; decide +revert⟩

theorem peer_peer (c : Dev nD) : peer (peer c) = c := by revert c; decide
theorem peer_ne (c : Dev nD) : peer c ≠ c := by revert c; decide
theorem yOf_lt (c : Dev nD) : yOf c < 2 := Nat.mod_lt _ (by decide)
theorem yOf_peer (c : Dev nD) : yOf (peer c) = 1 - yOf c := by revert c; decide

/-- The swap of the two `y` coordinates, as a permutation of the devices. -/
def swap : Dev nD ≃ Dev nD := ⟨peer, peer, peer_peer, peer_peer⟩

/-- Every device the kernel addresses — the barrier signal's and the eight remote copies' — is the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

/-! ## The chunks

Chunk `k` (of eight) is 1024 rows. Four families of 1024 × 1024 slices:
* `xFar c k`: rows `[1024 k, 1024 k + 1024)` of the device's block, the PEER's columns — what goes to the peer;
* `xOwn c k`: the same rows, the device's own columns — what stays;
* `stg k`: the same rows of the staging buffer;
* `res c k`: rows `[8192 (yOf c) + 1024 k, …)` of a result array — on device `c` itself where chunk `k` of its own
  columns goes, on `peer c` where chunk `k` of the far columns lands. -/

/-- The offsets of the far-columns chunks, as the kernel computes them. -/
def farOff (c : Dev nD) : Fin 8 → (Fin 2 → Nat)
  | ⟨0, _⟩ => k0_off1 c | ⟨1, _⟩ => k0_off2 c | ⟨2, _⟩ => k0_off3 c | ⟨3, _⟩ => k0_off4 c
  | ⟨4, _⟩ => k0_off5 c | ⟨5, _⟩ => k0_off6 c | ⟨6, _⟩ => k0_off7 c | ⟨7, _⟩ => k0_off8 c
  | ⟨_ + 8, h⟩ => absurd h (by omega)
theorem farOff_inb (c : Dev nD) : ∀ (k : Fin 8) a, farOff c k a + S1024x1024.size a ≤ S8192x2048.size a
  | ⟨0, _⟩ => k0_off1_inb c | ⟨1, _⟩ => k0_off2_inb c | ⟨2, _⟩ => k0_off3_inb c | ⟨3, _⟩ => k0_off4_inb c
  | ⟨4, _⟩ => k0_off5_inb c | ⟨5, _⟩ => k0_off6_inb c | ⟨6, _⟩ => k0_off7_inb c | ⟨7, _⟩ => k0_off8_inb c
  | ⟨_ + 8, h⟩ => absurd h (by omega)
theorem farOff_eq (c : Dev nD) : ∀ k : Fin 8, farOff c k = ![1024 * k.val, 1024 - 1024 * yOf c]
  | ⟨0, _⟩ => k0_off1_eq c | ⟨1, _⟩ => k0_off2_eq c | ⟨2, _⟩ => k0_off3_eq c | ⟨3, _⟩ => k0_off4_eq c
  | ⟨4, _⟩ => k0_off5_eq c | ⟨5, _⟩ => k0_off6_eq c | ⟨6, _⟩ => k0_off7_eq c | ⟨7, _⟩ => k0_off8_eq c
  | ⟨_ + 8, h⟩ => absurd h (by omega)

/-- The offsets of the own-columns chunks, as the kernel computes them. -/
def ownOff (c : Dev nD) : Fin 8 → (Fin 2 → Nat)
  | ⟨0, _⟩ => k0_off10 c | ⟨1, _⟩ => k0_off11 c | ⟨2, _⟩ => k0_off12 c | ⟨3, _⟩ => k0_off13 c
  | ⟨4, _⟩ => k0_off14 c | ⟨5, _⟩ => k0_off15 c | ⟨6, _⟩ => k0_off16 c | ⟨7, _⟩ => k0_off17 c
  | ⟨_ + 8, h⟩ => absurd h (by omega)
theorem ownOff_inb (c : Dev nD) : ∀ (k : Fin 8) a, ownOff c k a + S1024x1024.size a ≤ S8192x2048.size a
  | ⟨0, _⟩ => k0_off10_inb c | ⟨1, _⟩ => k0_off11_inb c | ⟨2, _⟩ => k0_off12_inb c | ⟨3, _⟩ => k0_off13_inb c
  | ⟨4, _⟩ => k0_off14_inb c | ⟨5, _⟩ => k0_off15_inb c | ⟨6, _⟩ => k0_off16_inb c | ⟨7, _⟩ => k0_off17_inb c
  | ⟨_ + 8, h⟩ => absurd h (by omega)
theorem ownOff_eq (c : Dev nD) : ∀ k : Fin 8, ownOff c k = ![1024 * k.val, 1024 * yOf c]
  | ⟨0, _⟩ => k0_off10_eq c | ⟨1, _⟩ => k0_off11_eq c | ⟨2, _⟩ => k0_off12_eq c | ⟨3, _⟩ => k0_off13_eq c
  | ⟨4, _⟩ => k0_off14_eq c | ⟨5, _⟩ => k0_off15_eq c | ⟨6, _⟩ => k0_off16_eq c | ⟨7, _⟩ => k0_off17_eq c
  | ⟨_ + 8, h⟩ => absurd h (by omega)

/-- The offsets of the result's chunks, as the kernel computes them: rows `8192 (yOf c) + 1024 k`. -/
def resOff (c : Dev nD) (k : Fin 8) : Fin 2 → Nat := k0_off9 c (BitVec.ofNat 32 (1024 * k.val))
theorem resOff_inb (c : Dev nD) (k : Fin 8) : ∀ a, resOff c k a + S1024x1024.size a ≤ S16384x1024.size a := k0_off9_inb c k
theorem resOff_eq (c : Dev nD) (k : Fin 8) : resOff c k = ![8192 * yOf c + 1024 * k.val, 0] := k0_off9_eq c k

/-- The staging buffer's chunk offsets. -/
def stgOff (k : Fin 8) : Fin 2 → Nat := ![1024 * k.val, 0]
theorem stgOff_inb : ∀ (k : Fin 8) a, stgOff k a + S1024x1024.size a ≤ S8192x1024.size a := by decide

abbrev xFar (c : Dev nD) (k : Fin 8) : Memref sig .tc .hbm S1024x1024 .f32 :=
  (Memref.whole main_arg0).slice (Rect.unit (s := S8192x2048) (farOff c k) S1024x1024.size (farOff_inb c k)) (fun _ => rfl)
abbrev xOwn (c : Dev nD) (k : Fin 8) : Memref sig .tc .hbm S1024x1024 .f32 :=
  (Memref.whole main_arg0).slice (Rect.unit (s := S8192x2048) (ownOff c k) S1024x1024.size (ownOff_inb c k)) (fun _ => rfl)
abbrev stg (k : Fin 8) : Memref sig .tc .vmem S1024x1024 .f32 :=
  (Memref.whole cc0_scratch0).slice (Rect.unit (s := S8192x1024) (stgOff k) S1024x1024.size (stgOff_inb k)) (fun _ => rfl)
abbrev res (c : Dev nD) (k : Fin 8) : Memref sig .tc .hbm S1024x1024 .f32 :=
  (Memref.whole main_v1).slice (Rect.unit (s := S16384x1024) (resOff c k) S1024x1024.size (resOff_inb c k)) (fun _ => rfl)

/-- The two slots of the local buffer. -/
def slotOff (s : Fin 2) : Fin 3 → Nat := ![s.val, 0, 0]
theorem slotOff_inb : ∀ (s : Fin 2) a, slotOff s a + S1x1024x1024.size a ≤ S2x1024x1024.size a := by decide
abbrev slot (s : Fin 2) : Memref sig .tc .vmem S1024x1024 .f32 :=
  ((Memref.whole cc0_scratch1).slice (Rect.unit (s := S2x1024x1024) (slotOff s) S1x1024x1024.size (slotOff_inb s)) (fun _ => rfl)).squeeze S1024x1024
    squeezes_S1x1024x1024_S1024x1024

/-! ## The result -/

/-- An index of the device's 8192 × 2048 block. -/
def ixX (r j : Nat) (hr : r < 8192) (hj : j < 2048) : S8192x2048.Idx := fun a =>
  match a with
  | ⟨0, _⟩ => ⟨r, hr⟩
  | ⟨1, _⟩ => ⟨j, hj⟩

/-- What device `c`'s result array must hold, as a function of its own block `xc` and its peer's `xp`: at row `r`,
    column `j`, column `1024 (yOf c) + j` of row `r % 8192` — of its own block when `r` lies in its own half of the
    rows, of the peer's otherwise. -/
def exchanged (c : Dev nD) (xc xp : S8192x2048.Idx → Elt F .f32) : S16384x1024.Idx → Elt F .f32 := fun i =>
  have hr : (i 0).val % 8192 < 8192 := Nat.mod_lt _ (by decide)
  have hj : 1024 * yOf c + (i 1).val < 2048 := by
    have h1 := (i 1).isLt; have h2 := yOf_lt c
    have : S16384x1024.size 1 = 1024 := rfl
    omega
  if (i 0).val / 8192 = yOf c then xc (ixX ((i 0).val % 8192) (1024 * yOf c + (i 1).val) hr hj)
  else xp (ixX ((i 0).val % 8192) (1024 * yOf c + (i 1).val) hr hj)

end Cert.KernelIdeal.Xchg

end
-- ==== Proof.Blocks.lean ====
/-
  The exchanged array is a block of the whole array's columns.

  The whole array is 16384 × 2048. Device `c` (mesh 2 × 2 × 4, coordinate `y = (c / 4) % 2` on the middle axis) holds
  rows `[8192 y, 8192 y + 8192)`; its peer holds the other half of the rows. Row `r`, column `j` of the exchanged
  array is column `1024 y + j` of row `r % 8192` of the block whose row coordinate is `r / 8192`, which is entry
  `(r, 1024 y + j)` of the whole array: block `y` of its columns.
-/
import proofs.«900643_g7700000000000644_dist_a2a_v7x_xyz2x2x4_y_m8192_n1024_f32_1_alg».proof.Proof.KernelIdeal.Exchange
import proofs.«900643_g7700000000000644_dist_a2a_v7x_xyz2x2x4_y_m8192_n1024_f32_1_alg».proof.Defs
import Idealize.ShloMosaic.Lib.Layout

noncomputable section

namespace Cert.KernelIdeal.Xchg

open Cert.KernelIdeal
open Idealize.ShloMosaic Idealize.SL.Sem

/-- The row-block coordinate of device `c` is its `y` coordinate; -/
theorem rowBlock_val (c : Dev nD) : ((Layout.meshBlock [2, 2, 4] ![[1], []] c) 0).val = yOf c := by
  revert c; decide

/-- its column-block coordinate in the row cut is `0`; -/
theorem rowBlock_val₁ (c : Dev nD) : ((Layout.meshBlock [2, 2, 4] ![[1], []] c) 1).val = 0 := by
  revert c; decide

/-- in the column cut the coordinates are `0` and `y`. -/
theorem colBlock_val₀ (c : Dev nD) : ((Layout.meshBlock [2, 2, 4] ![[], [1]] c) 0).val = 0 := by
  revert c; decide

theorem colBlock_val (c : Dev nD) : ((Layout.meshBlock [2, 2, 4] ![[], [1]] c) 1).val = yOf c := by
  revert c; decide

theorem exchanged_eq_block (X : Buf (Elt Ideal) (((0 : Dev Cert.ReferenceIdeal.nD).tc : Thread Cert.ReferenceIdeal.nD Cert.ReferenceIdeal.τ).loc Cert.ReferenceIdeal.main_arg0)) (c : Dev nD) :
    exchanged (F := Ideal) c
        (Layout.blockN ⟨2, ![8192, 2048]⟩ ⟨2, ![16384, 2048]⟩ (Layout.meshBlock [2, 2, 4] ![[1], []] c) X)
        (Layout.blockN ⟨2, ![8192, 2048]⟩ ⟨2, ![16384, 2048]⟩ (Layout.meshBlock [2, 2, 4] ![[1], []] (peer c)) X)
      = Layout.blockN ⟨2, ![16384, 1024]⟩ ⟨2, ![16384, 2048]⟩ (Layout.meshBlock [2, 2, 4] ![[], [1]] c) X := by
  funext i
  unfold exchanged
  simp only [Layout.blockN_apply]
  have hi0 := (i 0).isLt
  have hi1 := (i 1).isLt
  have hy := yOf_lt c
  have hyp := yOf_peer c
  have hs0 : S16384x1024.size 0 = 16384 := rfl
  have hs1 : S16384x1024.size 1 = 1024 := rfl
  split
  · rename_i h
    congr 1
    funext b
    apply Fin.ext
    rw [Layout.TilesN.idx_val, Layout.TilesN.idx_val]
    match b with
    | ⟨0, _⟩ =>
      show ((Layout.meshBlock [2, 2, 4] ![[1], []] c) 0).val * 8192 + (i 0).val % 8192
          = ((Layout.meshBlock [2, 2, 4] ![[], [1]] c) 0).val * 16384 + (i 0).val
      rw [rowBlock_val, colBlock_val₀]
      omega
    | ⟨1, _⟩ =>
      show ((Layout.meshBlock [2, 2, 4] ![[1], []] c) 1).val * 2048 + (1024 * yOf c + (i 1).val)
          = ((Layout.meshBlock [2, 2, 4] ![[], [1]] c) 1).val * 1024 + (i 1).val
      rw [rowBlock_val₁, colBlock_val]
      omega
  · rename_i h
    congr 1
    funext b
    apply Fin.ext
    rw [Layout.TilesN.idx_val, Layout.TilesN.idx_val]
    match b with
    | ⟨0, _⟩ =>
      show ((Layout.meshBlock [2, 2, 4] ![[1], []] (peer c)) 0).val * 8192 + (i 0).val % 8192
          = ((Layout.meshBlock [2, 2, 4] ![[], [1]] c) 0).val * 16384 + (i 0).val
      rw [rowBlock_val, colBlock_val₀]
      omega
    | ⟨1, _⟩ =>
      show ((Layout.meshBlock [2, 2, 4] ![[1], []] (peer c)) 1).val * 2048 + (1024 * yOf c + (i 1).val)
          = ((Layout.meshBlock [2, 2, 4] ![[], [1]] c) 1).val * 1024 + (i 1).val
      rw [rowBlock_val₁, colBlock_val]
      omega

end Cert.KernelIdeal.Xchg

end
-- ==== Proof.RefRun.lean ====
/-
  The reference's run. Its @main performs no operation and returns its argument: every weakly fair execution
  terminates at once, and every TensorCore buffer ends holding what it held at launch.
-/
import proofs.«900643_g7700000000000644_dist_a2a_v7x_xyz2x2x4_y_m8192_n1024_f32_1_alg».proof.Defs
import proofs.«900643_g7700000000000644_dist_a2a_v7x_xyz2x2x4_y_m8192_n1024_f32_1_alg».proof.Proof.Gen.ReferenceIdeal
import Idealize.ShloMosaic.Lib.StableHlo.Run

noncomputable section

namespace Cert.ReferenceIdeal.Ret

open Cert.ReferenceIdeal Cert.ReferenceIdeal.Gen Idealize.ShloMosaic Idealize.ShloMosaic.TcCoe Idealize.SL.Sem Idealize.ShloMosaic.StableHlo

variable {F : FTy → Type} [FloatOps F]

/-- @main is the empty line of operations. -/
theorem main_eq (c : Dev nD) : main (F := F) c = seq [] := rfl
theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every TensorCore
    buffer of every device ends at its launch contents. -/
theorem run (m' : (ℓ : Loc nD τ sig) → Buf (Elt F) ℓ) (g' : Dev nD → PrngReg) :
    θ_run (defs (F := F)) (onTc (τ := τ) (main (F := F))) ⟨m', fun _ => 0, g'⟩ fun r =>
      ∀ (d : Dev nD) (b : Ref sig .tc), r.2.mem ((d.tc : Thread nD τ).loc b) = m' ((d.tc : Thread nD τ).loc b) :=
  (θ_run defs _ _).mono (fun _ h d b => (h d b).trans rfl)
    (run_seq scopedRefs_eq scopedSems_eq defs main (fun _ => []) main_eq (fun _ => trivial) m' g'
      (fun _ _ h => nomatch h))

end Cert.ReferenceIdeal.Ret

end
-- ==== Proof.Assemble.lean ====
/-
  The five claims, from the two kernel runs.

  Given that the idealized kernel runs from any memory and leaves each device holding the exchanged array of its own
  block and its peer's, its argument unchanged, and given the printed kernel's frame:
  the idealized kernel's frame is that run with the value dropped; the reference performs no operation, so it runs
  and changes nothing; the idealization rewrote nothing; and where each device's argument is its block of the rows
  of a whole array `X`, the exchanged array is its block of the columns of `X`, which is what the reference returns.
-/
import proofs.«900643_g7700000000000644_dist_a2a_v7x_xyz2x2x4_y_m8192_n1024_f32_1_alg».proof.Defs
import proofs.«900643_g7700000000000644_dist_a2a_v7x_xyz2x2x4_y_m8192_n1024_f32_1_alg».proof.Proof.Blocks
import proofs.«900643_g7700000000000644_dist_a2a_v7x_xyz2x2x4_y_m8192_n1024_f32_1_alg».proof.Proof.RefRun
import proofs.«900643_g7700000000000644_dist_a2a_v7x_xyz2x2x4_y_m8192_n1024_f32_1_alg».proof.Proof.Gen.Kernel
import proofs.«900643_g7700000000000644_dist_a2a_v7x_xyz2x2x4_y_m8192_n1024_f32_1_alg».proof.Proof.Gen.KernelIdeal
import proofs.«900643_g7700000000000644_dist_a2a_v7x_xyz2x2x4_y_m8192_n1024_f32_1_alg».proof.Proof.Gen.ReferenceIdeal
import proofs.«900643_g7700000000000644_dist_a2a_v7x_xyz2x2x4_y_m8192_n1024_f32_1_alg».proof.Proof.Gen.Pre_finite_inputs_Kernel
import proofs.«900643_g7700000000000644_dist_a2a_v7x_xyz2x2x4_y_m8192_n1024_f32_1_alg».proof.Proof.Gen.Pre_finite_inputs_ReferenceIdeal

noncomputable section

namespace Cert.Proof.Assemble

open Idealize.ShloMosaic Idealize.SL.Sem

/-- What the idealized kernel's run is assumed to give: from any memory, every device ends holding the exchanged
    array of its own block and its peer's, and its argument unchanged. -/
abbrev RunI : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v1)
          = Cert.KernelIdeal.Xchg.exchanged c (m ((c.tc : Thread Cert.KernelIdeal.nD Cert.KernelIdeal.τ).loc Cert.KernelIdeal.main_arg0))
              (m (((Cert.KernelIdeal.Xchg.peer c).tc : Thread Cert.KernelIdeal.nD Cert.KernelIdeal.τ).loc Cert.KernelIdeal.main_arg0))
      ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))

/-- The idealized kernel's frame: its run, the value dropped. -/
theorem frame_pi (hrunI : RunI) : Cert.frame_KernelIdeal := fun m g _ =>
  (θ_run (Cert.KernelIdeal.defs (F := Ideal)) _ _).mono (fun _ h c => (h c).2) (hrunI m g)

/-- The reference's frame: it performs no operation. -/
theorem frame_ri : Cert.frame_ReferenceIdeal := fun m g _ =>
  (θ_run (Cert.ReferenceIdeal.defs (F := Ideal)) _ _).mono (fun _ h c => h c Cert.ReferenceIdeal.main_arg0)
    (Cert.ReferenceIdeal.Ret.run (F := Ideal) m g)

/-- The idealization rewrote no operation. -/
theorem preserves : Cert.preserves_Kernel_KernelIdeal := trivial

/-- Where each device's argument is its block of the rows of the reference's array `X`, the kernel leaves it holding
    its block of the columns of `X`, and the reference returns `X`. -/
theorem algebraic (hrunI : RunI) : Cert.algebraic_KernelIdeal_ReferenceIdeal := by
  intro m g m' g' _ hblk
  refine ⟨m' (((0 : Dev Cert.ReferenceIdeal.nD).tc : Thread Cert.ReferenceIdeal.nD Cert.ReferenceIdeal.τ).loc Cert.ReferenceIdeal.main_arg0), ?_, ?_⟩
  · refine (θ_run (Cert.KernelIdeal.defs (F := Ideal)) _ _).mono (fun _ h c => ⟨(h c).1.trans ?_, (h c).2⟩) (hrunI m g)
    rw [hblk c, hblk (Cert.KernelIdeal.Xchg.peer c)]
    exact Cert.KernelIdeal.Xchg.exchanged_eq_block _ c
  · exact (θ_run (Cert.ReferenceIdeal.defs (F := Ideal)) _ _).mono
      (fun _ h => ⟨h 0 Cert.ReferenceIdeal.main_arg0, h 0 Cert.ReferenceIdeal.main_arg0⟩)
      (Cert.ReferenceIdeal.Ret.run (F := Ideal) m' g')

/-- Everything the certificate claims, from the idealized kernel's run and the printed kernel's frame. -/
theorem claim (hrunI : RunI) (hframeB : Cert.frame_Kernel) : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, hframeB, frame_pi hrunI, frame_ri, preserves, algebraic hrunI⟩

end Cert.Proof.Assemble

end
-- ==== Proof.KernelIdeal.Protocol.lean ====
/-
  The protocol of the exchange: which semaphore is waited by whom, paid by whom, with how much, and what each payment
  hands over.

  Per device `c`, with `p = peer c`, seventeen cells other devices or the DMA engine pay:
  * its BARRIER semaphore (the runtime's, one unit): paid by `p`'s entry signal. With it `p` hands `c` the eight
    chunks of `p`'s result array that `c`'s remote copies will write — the half of the rows `p` never writes itself;
  * its eight SEND semaphores: chunk `k`'s is paid when the engine has read staging chunk `k`, which comes back;
  * its eight RECEIVE semaphores: chunk `k`'s is paid by `p`'s remote copy `k` landing in `c`'s result array, which
    hands `c` that chunk of its result holding what the result must hold there.
  One round each, one duty a round. A device owes, from launch, one barrier unit and eight chunks' credit to its
  peer; it waits on its barrier (level 1) while it owes only receive credit (level 2), and on everything else owing
  nothing that lies at or below, so no wait can be part of a cycle.
-/
import proofs.«900643_g7700000000000644_dist_a2a_v7x_xyz2x2x4_y_m8192_n1024_f32_1_alg».proof.Proof.KernelIdeal.Exchange
import proofs.«900643_g7700000000000644_dist_a2a_v7x_xyz2x2x4_y_m8192_n1024_f32_1_alg».proof.Proof.Gen.KernelIdeal.Skeleton
import proofs.«900643_g7700000000000644_dist_a2a_v7x_xyz2x2x4_y_m8192_n1024_f32_1_alg».proof.Proof.Gen.KernelIdeal.Launch
import proofs.«900643_g7700000000000644_dist_a2a_v7x_xyz2x2x4_y_m8192_n1024_f32_1_alg».proof.Proof.Gen.KernelIdeal.Points
import proofs.«900643_g7700000000000644_dist_a2a_v7x_xyz2x2x4_y_m8192_n1024_f32_1_alg».proof.Proof.Gen.KernelIdeal.Frame
import Idealize.ShloMosaic.Lib.Pipeline.Launch
import Idealize.ShloMosaic.Lib.Pipeline.Kit
import Idealize.ShloMosaic.Lib.Transfers
import Idealize.ShloMosaic.Lib.Tactic

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own copy, the local transfers' counters -/

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) :=
  (Emb.inl : Emb (UR sig nD τ) (UR sig nD τ × Counters)).trans embR

variable (m : (ℓ : Loc nD τ sig) → Buf (Elt F) ℓ) (ρ : Dev nD → PrngReg)

/-! ## The semaphores and the cells -/

def chOff (k : Fin 8) : Fin 1 → Nat := ![k.val]
theorem chOff_inb : ∀ (k : Fin 8) a, chOff k a + S1.size a ≤ S8.size a := by decide
def slOff (s : Fin 2) : Fin 1 → Nat := ![s.val]
theorem slOff_inb : ∀ (s : Fin 2) a, slOff s a + S1.size a ≤ S2.size a := by decide

/-- The DMA semaphores of the local copies: into a slot, out of a slot, into staging chunk `k`. -/
abbrev inS (s : Fin 2) : DmaSems sig S_ := (cc0_scratch2.slice (Rect.unit (s := S2) (slOff s) S1.size (slOff_inb s))).squeeze S_ squeezes_S1_S_
abbrev outS (s : Fin 2) : DmaSems sig S_ := (cc0_scratch3.slice (Rect.unit (s := S2) (slOff s) S1.size (slOff_inb s))).squeeze S_ squeezes_S1_S_
abbrev packS (k : Fin 8) : DmaSems sig S_ := (cc0_scratch4.slice (Rect.unit (s := S8) (chOff k) S1.size (chOff_inb k))).squeeze S_ squeezes_S1_S_
/-- The send and receive semaphores of remote copy `k`. -/
abbrev sendS (k : Fin 8) : DmaSems sig S_ := (cc0_scratch5.slice (Rect.unit (s := S8) (chOff k) S1.size (chOff_inb k))).squeeze S_ squeezes_S1_S_
abbrev recvS (k : Fin 8) : DmaSems sig S_ := (cc0_scratch6.slice (Rect.unit (s := S8) (chOff k) S1.size (chOff_inb k))).squeeze S_ squeezes_S1_S_
/-- The runtime's barrier semaphore of the kernel's collective id. -/
abbrev barS : Sem sig := (SemArray.scalar (sig.barrier 0 rfl) : Sems sig S_).sem

theorem sendS_val (k : Fin 8) : (sendS k).sem.val = 12 + k.val := by fin_cases k <;> rfl
theorem recvS_val (k : Fin 8) : (recvS k).sem.val = 20 + k.val := by fin_cases k <;> rfl

abbrev barCell (c : Dev nD) : GSem nD τ sig := ((c : Thread nD τ), .reg barS)
abbrev sendCell (c : Dev nD) (k : Fin 8) : GSem nD τ sig := ((c : Thread nD τ), .dma (sendS k).sem)
abbrev recvCell (c : Dev nD) (k : Fin 8) : GSem nD τ sig := ((c : Thread nD τ), .dma (recvS k).sem)

/-- A chunk's credit: what one 1024 × 1024 f32 copy pays. -/
abbrev N : ℕ := (stg 0).view.dmaCredit
theorem N_pos : 0 < N := View.dmaCredit_pos _ (by decide)

/-! ## Contents -/

/-- Device `c`'s block of the input, as launched. -/
abbrev xAt (c : Dev nD) : Buf (Elt F) ((c : Thread nD τ).loc main_arg0) := m ((c : Thread nD τ).loc main_arg0)

/-- What device `c`'s result array must end holding. -/
def want (c : Dev nD) : Buf (Elt F) ((c : Thread nD τ).loc main_v1) := exchanged c (xAt m c) (xAt m (peer c))

/-- Chunk `k` of a result array on device `d`, as device `c` addresses it (`d = c`: its own columns; `d = peer c`: what it sends). -/
def resPts (c d : Dev nD) (k : Fin 8) (f : Buf (Elt F) ((res c k).view.loc (d : Thread nD τ))) : sProp 𝕄 :=
  (res c k).view.loc (d : Thread nD τ) ↦[(res c k).view.set]{fullShare} f
/-- Staging chunk `k`. -/
def stgPts (c : Dev nD) (k : Fin 8) (f : Buf (Elt F) ((stg k).view.loc (c : Thread nD τ))) : sProp 𝕄 :=
  (stg k).view.loc (c : Thread nD τ) ↦[(stg k).view.set]{fullShare} f

instance resPts_storable (c d : Dev nD) (k : Fin 8) (f) : BI.Storable (upEmb : UEmb _ 𝕄) (resPts (F := F) c d k f) := by unfold resPts; infer_instance
instance stgPts_storable (c : Dev nD) (k : Fin 8) (f) : BI.Storable (upEmb : UEmb _ 𝕄) (stgPts (F := F) c k f) := by unfold stgPts; infer_instance

/-! ## The schedule -/

/-- The peer's entry signal hands `c` the eight chunks of the peer's result array that `c` will write. -/
def barPay (c : Dev nD) : sProp 𝕄 := bigSep Finset.univ fun k : Fin 8 => iprop(∃ f, resPts c (peer c) k f)
/-- The send semaphore's payment returns staging chunk `k`. -/
def sendPay (c : Dev nD) (k : Fin 8) : sProp 𝕄 := iprop(∃ f, stgPts c k f)
/-- The peer's remote copy `k` hands `c` that chunk of its own result, holding what the result must hold. -/
def recvPay (c : Dev nD) (k : Fin 8) : sProp 𝕄 := resPts (peer c) c k (want m c)

/-- The cells of the exchange, by their semaphore: the barrier, a send (DMA semaphores 12–19), a receive (20–27). -/
abbrev IsBar (g : GSem nD τ sig) : Prop := g.1.2 = .tc ∧ g.2 = .reg barS
abbrev IsSend (g : GSem nD τ sig) : Prop := g.1.2 = .tc ∧ ∃ q : DmaSem sig, g.2 = .dma q ∧ 12 ≤ q.val ∧ q.val < 20
abbrev IsRecv (g : GSem nD τ sig) : Prop := g.1.2 = .tc ∧ ∃ q : DmaSem sig, g.2 = .dma q ∧ 20 ≤ q.val ∧ q.val < 28

/-- The payload by the semaphore. -/
def payOf (c : Dev nD) : SemLoc sig → sProp 𝕄
  | .reg s => if s = barS then barPay c else iprop(emp)
  | .dma q =>
    if h : 12 ≤ q.val ∧ q.val < 20 then sendPay c ⟨q.val - 12, by omega⟩
    else if h : 20 ≤ q.val ∧ q.val < 28 then recvPay m c ⟨q.val - 20, by omega⟩
    else iprop(emp)

instance : DecidablePred IsSend := fun g => by
  unfold IsSend
  refine @instDecidableAnd _ _ _ ?_
  cases g.2 with
  | reg s => exact isFalse (by rintro ⟨q, h, _⟩; cases h)
  | dma q =>
    by_cases h : 12 ≤ q.val ∧ q.val < 20
    · exact isTrue ⟨q, rfl, h⟩
    · exact isFalse (by rintro ⟨q', hq, h'⟩; cases hq; exact h h')
instance : DecidablePred IsRecv := fun g => by
  unfold IsRecv
  refine @instDecidableAnd _ _ _ ?_
  cases g.2 with
  | reg s => exact isFalse (by rintro ⟨q, h, _⟩; cases h)
  | dma q =>
    by_cases h : 20 ≤ q.val ∧ q.val < 28
    · exact isTrue ⟨q, rfl, h⟩
    · exact isFalse (by rintro ⟨q', hq, h'⟩; cases hq; exact h h')

/-- One round, round 0; every cell one duty: a barrier cell one unit, a send or receive cell one chunk's credit. -/
def sched : Rounds.Schedule (GSem nD τ sig) Unit 𝕄 where
  duties g r := if r = 0 ∧ (IsBar g ∨ IsSend g ∨ IsRecv g) then {()} else ∅
  amount g _ _ := if g.2 = .reg barS then 1 else N
  payload g _ _ := payOf m g.1.1 g.2
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (payOf m g.1.1 g.2)
  unfold payOf barPay sendPay recvPay
  (repeat' split) <;> infer_instance

section Sched
variable (c : Dev nD) (k : Fin 8)

theorem send_ne_bar : (SemLoc.dma (sendS k).sem : SemLoc sig) ≠ .reg barS := fun h => by cases h
theorem recv_ne_bar : (SemLoc.dma (recvS k).sem : SemLoc sig) ≠ .reg barS := fun h => by cases h
theorem isSend_send : IsSend (sendCell c k) := ⟨rfl, (sendS k).sem, rfl, by rw [sendS_val]; omega, by rw [sendS_val]; have := k.isLt; omega⟩
theorem isRecv_recv : IsRecv (recvCell c k) := ⟨rfl, (recvS k).sem, rfl, by rw [recvS_val]; omega, by rw [recvS_val]; have := k.isLt; omega⟩

omit [FloatOps F] in
theorem duties_bar : (sched (F := F) m).duties (barCell c) 0 = {()} := by dsimp only [sched]; exact if_pos ⟨rfl, .inl ⟨rfl, rfl⟩⟩
omit [FloatOps F] in
theorem duties_send : (sched (F := F) m).duties (sendCell c k) 0 = {()} := by dsimp only [sched]; exact if_pos ⟨rfl, .inr (.inl (isSend_send c k))⟩
omit [FloatOps F] in
theorem duties_recv : (sched (F := F) m).duties (recvCell c k) 0 = {()} := by dsimp only [sched]; exact if_pos ⟨rfl, .inr (.inr (isRecv_recv c k))⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (u : Unit) : (sched (F := F) m).amount (barCell c) 0 u = 1 := by dsimp only [sched]; exact if_pos rfl
omit [FloatOps F] in
theorem amount_send (u : Unit) : (sched (F := F) m).amount (sendCell c k) 0 u = N := by dsimp only [sched]; exact if_neg (send_ne_bar k)
omit [FloatOps F] in
theorem amount_recv (u : Unit) : (sched (F := F) m).amount (recvCell c k) 0 u = N := by dsimp only [sched]; exact if_neg (recv_ne_bar k)

omit [FloatOps F] in
theorem expect_bar : (sched (F := F) m).expect (barCell c) 0 = 1 := by
  unfold Schedule.expect Schedule.amountOf; rw [duties_bar, Finset.sum_singleton, amount_bar]
omit [FloatOps F] in
theorem expect_send : (sched (F := F) m).expect (sendCell c k) 0 = N := by
  unfold Schedule.expect Schedule.amountOf; rw [duties_send, Finset.sum_singleton, amount_send]
omit [FloatOps F] in
theorem expect_recv : (sched (F := F) m).expect (recvCell c k) 0 = N := by
  unfold Schedule.expect Schedule.amountOf; rw [duties_recv, Finset.sum_singleton, amount_recv]

omit [FloatOps F] in
theorem payload_bar (u : Unit) : (sched (F := F) m).payload (barCell c) 0 u = barPay c := by
  dsimp only [sched, payOf]; exact if_pos rfl
omit [FloatOps F] in
theorem payload_send (u : Unit) : (sched (F := F) m).payload (sendCell c k) 0 u = sendPay c k := by
  have hv := sendS_val k
  dsimp only [sched, payOf]
  rw [dif_pos ⟨by omega, by have := k.isLt; omega⟩]
  congr 1; exact Fin.ext (by simp only [hv]; omega)
omit [FloatOps F] in
theorem payload_recv (u : Unit) : (sched (F := F) m).payload (recvCell c k) 0 u = recvPay m c k := by
  have hv := recvS_val k
  dsimp only [sched, payOf]
  rw [dif_neg (by omega), dif_pos ⟨by omega, by have := k.isLt; omega⟩]
  congr 1; exact Fin.ext (by simp only [hv]; omega)

omit [FloatOps F] in
theorem rest_bar : bigSep ((sched (F := F) m).duties (barCell c) 0 \ ∅) (fun u => (sched (F := F) m).payload (barCell c) 0 u) = barPay c := by
  rw [Finset.sdiff_empty, duties_bar, bigSep_singleton, payload_bar]
omit [FloatOps F] in
theorem rest_send : bigSep ((sched (F := F) m).duties (sendCell c k) 0 \ ∅) (fun u => (sched (F := F) m).payload (sendCell c k) 0 u) = sendPay c k := by
  rw [Finset.sdiff_empty, duties_send, bigSep_singleton, payload_send]
omit [FloatOps F] in
theorem rest_recv : bigSep ((sched (F := F) m).duties (recvCell c k) 0 \ ∅) (fun u => (sched (F := F) m).payload (recvCell c k) 0 u) = recvPay m c k := by
  rw [Finset.sdiff_empty, duties_recv, bigSep_singleton, payload_recv]

end Sched

/-! ## What each device owes at launch; the levels -/

/-- The eight chunks' credit a device owes its peer's receive cells, chunk `j` upward: what is left to send once
    chunks below `j` have gone. -/
def owedFrom (c : Dev nD) : ℕ → CellTallies nD τ sig Unit
  | j => if h : j < 8 then owedFrom c (j + 1) + tallyAt (recvCell (peer c) ⟨j, h⟩) () N else 0
termination_by j => 8 - j

/-- At launch: all eight chunks' credit, and one unit to the peer's barrier cell (signalled first, so summed last). -/
def O₀ (c : Dev nD) : CellTallies nD τ sig Unit := owedFrom c 0 + tallyAt (barCell (peer c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if IsRecv g then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.KernelIdeal.Xchg

end
-- ==== Proof.KernelIdeal.State.lean ====
/-
  What a device holds before and after its one run of the kernel body.

  Before: the records of every cell of the exchange (their invariants and that round 0 of each is reached: persistent,
  so every device has them all), its positions at round 0 of its own seventeen cells, the seventeen duty tokens it
  pays with (its peer's barrier duty, its peer's eight receive duties, its own eight send duties), the credit for
  what its peer owes its cells, the level facts, its twelve local DMA semaphores at zero, and its buffers: its block
  of the input, its result array at whatever it held, the staging and slot buffers at some contents.
  After: the input as it was, the result holding the exchanged array, the scratch buffers at some contents, and all
  twenty-eight of its DMA semaphores back at zero.
-/
import proofs.«900643_g7700000000000644_dist_a2a_v7x_xyz2x2x4_y_m8192_n1024_f32_1_alg».proof.Proof.KernelIdeal.Protocol

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by index: 0 the barrier, 1–8 the send cells, 9–16 the receive cells -/

abbrev csem (j : Fin 17) : SemLoc sig :=
  if h0 : j.val = 0 then .reg barS
  else if h8 : j.val ≤ 8 then .dma (sendS ⟨j.val - 1, by omega⟩).sem
  else .dma (recvS ⟨j.val - 9, by have := j.isLt; omega⟩).sem
abbrev kcell (ck : Dev nD × Fin 17) : GSem nD τ sig := ((ck.1 : Thread nD τ), csem ck.2)
def sIx (k : Fin 8) : Fin 17 := ⟨k.val + 1, by have := k.isLt; omega⟩
def rIx (k : Fin 8) : Fin 17 := ⟨k.val + 9, by have := k.isLt; omega⟩
theorem kcell_bar (c : Dev nD) : kcell (c, 0) = barCell c := rfl
theorem kcell_send (c : Dev nD) (k : Fin 8) : kcell (c, sIx k) = sendCell c k := by fin_cases k <;> rfl
theorem kcell_recv (c : Dev nD) (k : Fin 8) : kcell (c, rIx k) = recvCell c k := by fin_cases k <;> rfl

/-! ## The ghost state -/

/-- Every cell's invariant, at the names `K` the launch allocated them at, and that round 0 of every cell is reached. -/
def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)

instance records_persistent (K : Dev nD × Fin 17 → ℕ) : BI.Persistent (records m K) := by unfold records; infer_instance

/-- The device's positions: round 0 of each of its own cells, nothing consumed. -/
def positions (c : Dev nD) : sProp 𝕄 :=
  iprop(atPos ER (barCell c) 0 ∅ 0 ∗ (bigSep Finset.univ fun k : Fin 8 => atPos ER (sendCell c k) 0 ∅ 0)
    ∗ (bigSep Finset.univ fun k : Fin 8 => atPos ER (recvCell c k) 0 ∅ 0))
/-- The tokens of the duties the device pays: its peer's barrier duty, its peer's receive duties, its own send duties. -/
def payToks (c : Dev nD) : sProp 𝕄 :=
  iprop(dutyTok ER (barCell (peer c)) 0 () ∗ (bigSep Finset.univ fun k : Fin 8 => dutyTok ER (recvCell (peer c) k) 0 ())
    ∗ (bigSep Finset.univ fun k : Fin 8 => dutyTok ER (sendCell c k) 0 ()))
/-- The credit for what its peer owes the device's cells. -/
def creds (c : Dev nD) : sProp 𝕄 :=
  iprop(cred (tallyAt (barCell c) () 1) ∗ bigSep Finset.univ fun k : Fin 8 => cred (tallyAt (recvCell c k) () N))
/-- The local copies' twelve DMA semaphores, at zero. -/
def localSems (c : Dev nD) : sProp 𝕄 :=
  iprop((bigSep Finset.univ fun k : Fin 8 => semVal ((c : Thread nD τ), .dma (packS k).sem) 0)
    ∗ (bigSep Finset.univ fun s : Fin 2 => semVal ((c : Thread nD τ), .dma (inS s).sem) 0)
    ∗ (bigSep Finset.univ fun s : Fin 2 => semVal ((c : Thread nD τ), .dma (outS s).sem) 0))
/-- The remote copies' sixteen DMA semaphores, at zero. -/
def xferSems (c : Dev nD) : sProp 𝕄 :=
  iprop((bigSep Finset.univ fun k : Fin 8 => semVal (sendCell c k) 0) ∗ (bigSep Finset.univ fun k : Fin 8 => semVal (recvCell c k) 0))

def ghost (K : Dev nD × Fin 17 → ℕ) (c : Dev nD) : sProp 𝕄 := iprop(records m K ∗ positions c ∗ payToks c)

/-- What the device's body starts from, besides its buffers. -/
def start (c : Dev nD) : sProp 𝕄 := iprop((∃ K, ghost m K c) ∗ creds c ∗ levAts L lv ∗ localSems c)

/-- The scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body: the start, the input block, the result array as launched, the scratch buffers. -/
def Φ₀ (c : Dev nD) : sProp 𝕄 :=
  iprop(start m c ∗ (((c : Thread nD τ).loc main_arg0) ↦{fullShare} xAt m c)
    ∗ (((c : Thread nD τ).loc main_v1) ↦{fullShare} m ((c : Thread nD τ).loc main_v1)) ∗ scratch c)
/-- After it: the input block unchanged, the result array exchanged, the scratch buffers, every DMA semaphore at zero. -/
def Φ₁ (c : Dev nD) : sProp 𝕄 :=
  iprop((((c : Thread nD τ).loc main_arg0) ↦{fullShare} xAt m c) ∗ (((c : Thread nD τ).loc main_v1) ↦{fullShare} want m c)
    ∗ scratch c ∗ localSems c ∗ xferSems c)

/-! ## The pipeline's proof data: no window, one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- The body as the pipeline calls it at the point. -/
abbrev theBody : Prog (TpuEff nD τ sig (Elt F) Λ₀ .tc) PUnit :=
  cc0_body (Memref.whole main_arg0) (Memref.isWhole_whole _) (Memref.whole main_v1) (Memref.isWhole_whole _)
    (Memref.whole cc0_scratch0) (Memref.isWhole_whole _) (Memref.whole cc0_scratch1) (Memref.isWhole_whole _)
    cc0_scratch2 cc0_scratch3 cc0_scratch4 cc0_scratch5 cc0_scratch6

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

/-- What the body must be shown to do, on every device: from `bodyPre` to `bodyPost`. -/
def SoundBody : Prop :=
  ∀ (c : Dev nD) (Kt : PUnit → sProp 𝕄),
    iprop(bodyPre m c ∗ (bodyPost m c -∗ Kt ⟨⟩)) ⊢ wp frame (wpE (defs₀ (F := F)) 𝒱₀ c none) Set.univ (theBody (F := F)) Kt

end Cert.KernelIdeal.Xchg

end
-- ==== Proof.KernelIdeal.Ledger.lean ====
/-
  What a device still owes as it goes, and why its waits are allowed.

  A device sends its eight chunks in order, so after chunk `j - 1` it owes its peer's receive cells `j … 7` one
  chunk's credit each (`owedFrom c j`). Every such debt sits at a receive cell, level 2; the device's barrier cell is
  at level 1 and every DMA semaphore it waits on while it still owes (the staging copies') at level 0: each wait is
  below everything owed, which is what the deadlock argument asks.
-/
import proofs.«900643_g7700000000000644_dist_a2a_v7x_xyz2x2x4_y_m8192_n1024_f32_1_alg».proof.Proof.KernelIdeal.State

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin2 (Φ : Fin 2 → sProp 𝕄) : bigSep Finset.univ Φ = iprop(Φ 0 ∗ Φ 1) :=
  bigSep_univ_eq_bigSepL [0, 1] (by decide) (by decide) Φ

theorem owedFrom_step (c : Dev nD) (j : ℕ) (h : j < 8) :
    owedFrom c j = owedFrom c (j + 1) + tallyAt (recvCell (peer c) ⟨j, h⟩) () N := by
  rw [owedFrom]; exact dif_pos h
theorem owedFrom_done (c : Dev nD) : owedFrom c 8 = 0 := by
  rw [owedFrom]; exact dif_neg (by omega)

/-- Whatever is still owed is owed to one of the peer's receive cells. -/
theorem owedFrom_pos (c : Dev nD) : ∀ (n j : ℕ), 8 - j = n → ∀ {g : GSem nD τ sig} {u : Unit}, 0 < owedFrom c j g u →
    ∃ k : Fin 8, g = recvCell (peer c) k
  | 0, j, hj, g, u, h => by
    rw [owedFrom, dif_neg (by omega)] at h
    exact absurd h (Nat.lt_irrefl 0)
  | n + 1, j, hj, g, u, h => by
    have hj8 : j < 8 := by omega
    rw [owedFrom_step c j hj8, Pi.add_apply, Finsupp.add_apply, tallyAt_apply] at h
    by_cases hg : g = recvCell (peer c) ⟨j, hj8⟩ ∧ u = ()
    · exact ⟨_, hg.1⟩
    · rw [if_neg hg, Nat.add_zero] at h
      exact owedFrom_pos c n (j + 1) (by omega) h

theorem lv_recv (d : Dev nD) (k : Fin 8) : lv (recvCell d k) () = 2 := by
  dsimp only [lv]; rw [if_neg (recv_ne_bar k), if_pos (isRecv_recv d k)]

omit [FloatOps F] in
/-- A wait on a cell that is no receive cell, while owing only receive credit. -/
theorem mayWait_owing (c : Dev nD) (sm : SemLoc sig) (hsm : ¬ IsRecv ((c : Thread nD τ), sm)) (j : ℕ) :
    (levAts L lv : sProp 𝕄) ⊢ MayWait (c : Thread nD τ) sm () (owedFrom c j) :=
  MayOwe.of_cut (L := L) (lev := lv) 1
    (fun p hp => by rw [Finset.mem_singleton.mp hp, L_tc]; exact Finset.mem_singleton_self _)
    (fun g u hg => by obtain ⟨k, rfl⟩ := owedFrom_pos c _ _ rfl hg; rw [L_tc]; exact Finset.mem_singleton_self _)
    (fun p hp => by
      rw [Finset.mem_singleton.mp hp]; dsimp only [lv]
      by_cases h : sm = .reg barS
      · rw [if_pos h]
      · rw [if_neg h, if_neg hsm]; exact Nat.zero_le _)
    (fun g u hg => by obtain ⟨k, rfl⟩ := owedFrom_pos c _ _ rfl hg; rw [lv_recv]; decide)

omit [FloatOps F] in
/-- The barrier wait. -/
theorem mayWait_bar (c : Dev nD) (j : ℕ) :
    (levAts L lv : sProp 𝕄) ⊢ MayWait (c : Thread nD τ) (.reg barS) () (owedFrom c j) :=
  mayWait_owing c _ (by rintro ⟨-, q, h, -⟩; cases h) j

omit [FloatOps F] in
/-- A wait on a DMA semaphore below the receive semaphores (the local copies', the send semaphores'). -/
theorem mayWait_dma (c : Dev nD) (q : DmaSem sig) (hq : q.val < 20) (j : ℕ) :
    (levAts L lv : sProp 𝕄) ⊢ MayWait (c : Thread nD τ) (.dma q) () (owedFrom c j) :=
  mayWait_owing c _ (by rintro ⟨-, q', h, h20, -⟩; cases h; omega) j

end Cert.KernelIdeal.Xchg

end
-- ==== Proof.KernelIdeal.Send.lean ====
/-
  Remote copy `k`, as one step of a device's run.

  Device `c` copies staging chunk `k` — holding the peer's columns of chunk `k` of its block — into chunk `k` of its own
  half of the rows of the PEER's result array. The copy pays two duties: the send cell's (the staging chunk comes back
  when the engine has read it) and the peer's receive cell's (the peer gets that chunk of its result, holding what its
  result must hold there). What the device owes drops by that chunk's credit.
-/
import proofs.«900643_g7700000000000644_dist_a2a_v7x_xyz2x2x4_y_m8192_n1024_f32_1_alg».proof.Proof.KernelIdeal.Ledger

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The remote copy of chunk `k`, addressed to `n = peer c`: `Rounds.wp_send_pointsTo` at the exchange's cells. The staging
    chunk's contents `fs` are whatever the run left, known to READ as the far columns of chunk `k` (`hfs`); that what
    lands is what the peer's result must hold is `hland`. -/
theorem wp_send_chunk (c n : Dev nD) (hn : n = peer c) (k : Fin 8) (κ₁ κ₂ : ℕ)
    {hsc : ((res c k : Memref sig (Dev.tc n : Thread nD τ).2.kind .hbm S1024x1024 .f32)).view.ref.isScScratch = false}
    {hsrc : (stg k : Memref sig .tc .vmem S1024x1024 .f32).view.WordExact} {hdst : (res c k : Memref sig .tc .hbm S1024x1024 .f32).view.WordExact}
    {hsem : DmaTarget.Typed .vmem (.dma (recvS k).sem) (.remote (Dev.tc n : Thread nD τ) (res c k : Memref sig .tc .hbm S1024x1024 .f32) (.dma (sendS k).sem) hsc)}
    {α : Type} {Q : α → sProp 𝕄} {kk : PUnit → Prog (TpuEff nD τ sig (Elt F) Λ₀ .tc) α}
    (fs : Buf (Elt F) ((stg k).view.loc (c : Thread nD τ)))
    (hfs : (stg k).view.read (Elt F) fs = (xFar c k).view.read (Elt F) (xAt m c))
    (fd : Buf (Elt F) ((res c k).view.loc ((peer c : Dev nD) : Thread nD τ)))
    (hland : ((res c k).view.loc ((peer c : Dev nD) : Thread nD τ) ↦[(res c k).view.set]{fullShare}
        ((res c k).view.write (Elt F) fd ((xFar c k).view.read (Elt F) (xAt m c)) Finset.univ) : sProp 𝕄) ⊢ recvPay m (peer c) k)
    (W : Waits sig Unit) :
    iprop(cellInv ER (sched m) κ₁ (sendCell c k) ∗ cellInv ER (sched m) κ₂ (recvCell (peer c) k)
        ∗ ((stg k).view.loc (c : Thread nD τ) ↦[(stg k).view.set]{fullShare} fs)
        ∗ ((res c k).view.loc ((peer c : Dev nD) : Thread nD τ) ↦[(res c k).view.set]{fullShare} fd)
        ∗ owes (c : Thread nD τ) (owedFrom c k.val) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) (owedFrom c (k.val + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (stg k) (.remote (Dev.tc n : Thread nD τ) (res c k) (.dma (sendS k).sem) hsc) (.dma (recvS k).sem) hsrc hdst hsem) kk) Q) := by
  subst hn
  exact Rounds.wp_send_pointsTo 𝒱₀ ER (sched m) (c : Thread nD τ) none (κ₁ := κ₁) (κ₂ := κ₂)
    (r₁ := 0) (r₂ := 0) (d₁ := ()) (d₂ := ()) (fd := fd)
    (by rw [duties_send]; exact Finset.mem_singleton_self _) (by rw [duties_recv]; exact Finset.mem_singleton_self _)
    () () N rfl (amount_send m c k ()) (amount_recv m (peer c) k ()) (owedFrom c (k.val + 1)) (owedFrom_step c k.val k.isLt) (W := W)
    (by rw [payload_send]; unfold sendPay stgPts; iintro H; iexists fs; iexact H)
    (by rw [payload_recv, hfs]; exact hland)

end Cert.KernelIdeal.Xchg

end
-- ==== Proof.KernelIdeal.Chunks.lean ====
/-
  The chunks of the exchange, as regions of the buffers.

  A chunk written through a slice of a result array holds what the result must hold there, and each of the four
  buffers the copies go through is the disjoint union of its chunks.
-/
import proofs.«900643_g7700000000000644_dist_a2a_v7x_xyz2x2x4_y_m8192_n1024_f32_1_alg».proof.Proof.KernelIdeal.Protocol
import Idealize.ShloMosaic.Lib.Pipeline.Value

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Where a chunk's index sits -/

theorem res_emb_val (c : Dev nD) (k : Fin 8) (y : S1024x1024.Idx) (a : Fin 2) :
    (((res c k).view.emb y) a).val = resOff c k a + (y a).val := by
  show resOff c k a + 1 * (y a).val = _
  rw [Nat.one_mul]

theorem xFar_emb_val (c : Dev nD) (k : Fin 8) (y : S1024x1024.Idx) (a : Fin 2) :
    (((xFar c k).view.emb y) a).val = farOff c k a + (y a).val := by
  show farOff c k a + 1 * (y a).val = _
  rw [Nat.one_mul]

theorem xOwn_emb_val (c : Dev nD) (k : Fin 8) (y : S1024x1024.Idx) (a : Fin 2) :
    (((xOwn c k).view.emb y) a).val = ownOff c k a + (y a).val := by
  show ownOff c k a + 1 * (y a).val = _
  rw [Nat.one_mul]

/-- Two indices of a block with the same row and column are one. -/
theorem idxX_ext (i j : S8192x2048.Idx) (h0 : (i 0).val = (j 0).val) (h1 : (i 1).val = (j 1).val) : i = j := by
  funext a
  match a with
  | ⟨0, _⟩ => exact Fin.ext h0
  | ⟨1, _⟩ => exact Fin.ext h1

/-- The exchanged array at a row of the device's own half: its own block. -/
theorem exchanged_own (c : Dev nD) (xc xp : S8192x2048.Idx → Elt F .f32) (i : S16384x1024.Idx) (j : S8192x2048.Idx)
    (h : (i 0).val / 8192 = yOf c) (h0 : (j 0).val = (i 0).val % 8192) (h1 : (j 1).val = 1024 * yOf c + (i 1).val) :
    exchanged c xc xp i = xc j := by
  unfold exchanged
  simp only [if_pos h]
  exact congrArg xc (idxX_ext _ _ h0.symm h1.symm)

/-- At a row of the other half: the peer's block. -/
theorem exchanged_far (c : Dev nD) (xc xp : S8192x2048.Idx → Elt F .f32) (i : S16384x1024.Idx) (j : S8192x2048.Idx)
    (h : (i 0).val / 8192 ≠ yOf c) (h0 : (j 0).val = (i 0).val % 8192) (h1 : (j 1).val = 1024 * yOf c + (i 1).val) :
    exchanged c xc xp i = xp j := by
  unfold exchanged
  simp only [if_neg h]
  exact congrArg xp (idxX_ext _ _ h0.symm h1.symm)

/-- The launched block of a device named two ways. -/
theorem xAt_dev {d d' : Dev nD} (h : d = d') (i : S8192x2048.Idx) : xAt m d i = xAt m d' i := by subst h; rfl

/-! ## A chunk written through a slice of the result holds what the result must hold there -/

/-- Remote copy `k` of device `c` lands in the peer's result at rows `8192 (yOf c) + 1024 k ..`: the peer's columns of
    `c`'s block, which is what the peer's result holds at the rows of the half that is not its own. -/
theorem landed_agrees (c : Dev nD) (k : Fin 8) (fd : Buf (Elt F) ((res c k).view.loc ((peer c : Dev nD) : Thread nD τ))) :
    ∀ i ∈ (res c k).view.set, (res c k).view.write (Elt F) fd ((xFar c k).view.read (Elt F) (xAt m c)) Finset.univ i = want m (peer c) i := by
  intro i hi
  obtain ⟨y, rfl⟩ := View.exists_emb_of_mem_set _ hi
  rw [View.write_emb_of_mem _ _ (Finset.mem_univ y), View.read_apply, cast_eq, cast_eq]
  have h0 := res_emb_val c k y 0
  have h1 := res_emb_val c k y 1
  have g0 := xFar_emb_val c k y 0
  have g1 := xFar_emb_val c k y 1
  rw [resOff_eq] at h0 h1
  rw [farOff_eq] at g0 g1
  have e0 : (![8192 * yOf c + 1024 * k.val, 0] : Fin 2 → Nat) 0 = 8192 * yOf c + 1024 * k.val := rfl
  have e1 : (![8192 * yOf c + 1024 * k.val, 0] : Fin 2 → Nat) 1 = 0 := rfl
  have f0 : (![1024 * k.val, 1024 - 1024 * yOf c] : Fin 2 → Nat) 0 = 1024 * k.val := rfl
  have f1 : (![1024 * k.val, 1024 - 1024 * yOf c] : Fin 2 → Nat) 1 = 1024 - 1024 * yOf c := rfl
  rw [e0] at h0; rw [e1] at h1; rw [f0] at g0; rw [f1] at g1
  have hy := yOf_lt c
  have hyp := yOf_peer c
  have hk := k.isLt
  have hy0 : (y 0).val < 1024 := (y 0).isLt
  have hy1 : (y 1).val < 1024 := (y 1).isLt
  have hA : ((res c k).view.emb y 0).val / 8192 ≠ yOf (peer c) := by omega
  have hB : ((xFar c k).view.emb y 0).val = ((res c k).view.emb y 0).val % 8192 := by omega
  have hC : ((xFar c k).view.emb y 1).val = 1024 * yOf (peer c) + ((res c k).view.emb y 1).val := by omega
  exact (xAt_dev m (peer_peer c).symm _).trans
    (exchanged_far (peer c) _ _ ((res c k).view.emb y) ((xFar c k).view.emb y) hA hB hC).symm

/-- Chunk `k` of the device's own columns, written at rows `8192 (yOf c) + 1024 k ..` of its own result. -/
theorem kept_agrees (c : Dev nD) (k : Fin 8) (fd : Buf (Elt F) ((res c k).view.loc (c : Thread nD τ))) :
    ∀ i ∈ (res c k).view.set, (res c k).view.write (Elt F) fd ((xOwn c k).view.read (Elt F) (xAt m c)) Finset.univ i = want m c i := by
  intro i hi
  obtain ⟨y, rfl⟩ := View.exists_emb_of_mem_set _ hi
  rw [View.write_emb_of_mem _ _ (Finset.mem_univ y), View.read_apply, cast_eq, cast_eq]
  have h0 := res_emb_val c k y 0
  have h1 := res_emb_val c k y 1
  have g0 := xOwn_emb_val c k y 0
  have g1 := xOwn_emb_val c k y 1
  rw [resOff_eq] at h0 h1
  rw [ownOff_eq] at g0 g1
  have e0 : (![8192 * yOf c + 1024 * k.val, 0] : Fin 2 → Nat) 0 = 8192 * yOf c + 1024 * k.val := rfl
  have e1 : (![8192 * yOf c + 1024 * k.val, 0] : Fin 2 → Nat) 1 = 0 := rfl
  have f0 : (![1024 * k.val, 1024 * yOf c] : Fin 2 → Nat) 0 = 1024 * k.val := rfl
  have f1 : (![1024 * k.val, 1024 * yOf c] : Fin 2 → Nat) 1 = 1024 * yOf c := rfl
  rw [e0] at h0; rw [e1] at h1; rw [f0] at g0; rw [f1] at g1
  have hy := yOf_lt c
  have hk := k.isLt
  have hy0 : (y 0).val < 1024 := (y 0).isLt
  have hy1 : (y 1).val < 1024 := (y 1).isLt
  have hA : ((res c k).view.emb y 0).val / 8192 = yOf c := by omega
  have hB : ((xOwn c k).view.emb y 0).val = ((res c k).view.emb y 0).val % 8192 := by omega
  have hC : ((xOwn c k).view.emb y 1).val = 1024 * yOf c + ((res c k).view.emb y 1).val := by omega
  exact (exchanged_own c _ _ ((res c k).view.emb y) ((xOwn c k).view.emb y) hA hB hC).symm

/-- The landed chunk, as the peer's receive payment. -/
theorem landed_pts_at (c d : Dev nD) (hd : d = c) (k : Fin 8) (fd : Buf (Elt F) ((res c k).view.loc ((peer c : Dev nD) : Thread nD τ))) :
    ((res c k).view.loc ((peer c : Dev nD) : Thread nD τ) ↦[(res c k).view.set]{fullShare}
        ((res c k).view.write (Elt F) fd ((xFar c k).view.read (Elt F) (xAt m c)) Finset.univ) : sProp 𝕄)
      ⊢ resPts d (peer c) k (want m (peer c)) := by
  subst hd
  unfold resPts
  exact Entails.of_eq (BI.Region.is_congr (landed_agrees m d k fd))

theorem landed_pts (c : Dev nD) (k : Fin 8) (fd : Buf (Elt F) ((res c k).view.loc ((peer c : Dev nD) : Thread nD τ))) :
    ((res c k).view.loc ((peer c : Dev nD) : Thread nD τ) ↦[(res c k).view.set]{fullShare}
        ((res c k).view.write (Elt F) fd ((xFar c k).view.read (Elt F) (xAt m c)) Finset.univ) : sProp 𝕄)
      ⊢ recvPay m (peer c) k :=
  landed_pts_at m c (peer (peer c)) (peer_peer c) k fd

/-- The kept chunk holds what the device's own result must hold there. -/
theorem kept_pts (c : Dev nD) (k : Fin 8) (fd : Buf (Elt F) ((res c k).view.loc (c : Thread nD τ))) :
    ((res c k).view.loc (c : Thread nD τ) ↦[(res c k).view.set]{fullShare}
        ((res c k).view.write (Elt F) fd ((xOwn c k).view.read (Elt F) (xAt m c)) Finset.univ) : sProp 𝕄)
      ⊢ ((res c k).view.loc (c : Thread nD τ) ↦[(res c k).view.set]{fullShare} want m c) :=
  Entails.of_eq (BI.Region.is_congr (kept_agrees m c k fd))

/-! ## A buffer is the disjoint union of its chunks -/

section Cover
variable {ℓ : Loc nD τ sig} {T : Type} [Fintype T] [DecidableEq T]

/-- A buffer held whole is held chunk by chunk, over one family of pairwise disjoint chunks that cover it. -/
theorem pts_cover (K : T → Finset (Idx ℓ)) (f : Buf (Elt F) ℓ) (hcov : ∀ i, ∃ t, i ∈ K t)
    (hdis : ∀ t t', t ≠ t' → Disjoint (K t) (K t')) :
    (ℓ ↦{fullShare} f : sProp 𝕄) = bigSep Finset.univ fun t => ℓ ↦[K t]{fullShare} f := by
  rw [← pointsTo_biUnion Finset.univ K (fun t _ t' _ h => hdis t t' h)]
  congr 1
  ext i
  simp only [Finset.mem_univ, Finset.mem_biUnion, true_and, true_iff]
  exact hcov i

/-- The same over two families. -/
theorem pts_cover₂ (K₁ K₂ : T → Finset (Idx ℓ)) (f : Buf (Elt F) ℓ) (hcov : ∀ i, (∃ t, i ∈ K₁ t) ∨ ∃ t, i ∈ K₂ t)
    (hd₁ : ∀ t t', t ≠ t' → Disjoint (K₁ t) (K₁ t')) (hd₂ : ∀ t t', t ≠ t' → Disjoint (K₂ t) (K₂ t'))
    (hd : ∀ t t', Disjoint (K₁ t) (K₂ t')) :
    (ℓ ↦{fullShare} f : sProp 𝕄)
      = iprop((bigSep Finset.univ fun t => ℓ ↦[K₁ t]{fullShare} f) ∗ (bigSep Finset.univ fun t => ℓ ↦[K₂ t]{fullShare} f)) := by
  have hD : Disjoint (Finset.univ.biUnion K₁) (Finset.univ.biUnion K₂) :=
    (Finset.disjoint_biUnion_left _ _ _).mpr fun t _ => (Finset.disjoint_biUnion_right _ _ _).mpr fun t' _ => hd t t'
  have hU : (Finset.univ : Finset (Idx ℓ)) = Finset.univ.biUnion K₁ ∪ Finset.univ.biUnion K₂ := by
    ext i
    simp only [Finset.mem_univ, Finset.mem_union, Finset.mem_biUnion, true_and, true_iff]
    exact hcov i
  have hu := pointsTo_union (Val := Elt F) (Ix := Unit) (Name := ℕ) (U := UU) (Lvl := ℕ) (ℓ := ℓ) (q := fullShare) (f := f) hD
  rw [hU, BI.equiv_iff.mp ⟨hu.1, hu.2⟩, pointsTo_biUnion Finset.univ K₁ (fun t _ t' _ h => hd₁ t t' h),
    pointsTo_biUnion Finset.univ K₂ (fun t _ t' _ h => hd₂ t t' h)]

end Cover

/-! ### The result array: the device's own eight chunks and the eight its peer writes -/

theorem mem_res (c : Dev nD) (k : Fin 8) (i : S16384x1024.Idx) :
    i ∈ (res c k).view.set ↔ 8192 * yOf c + 1024 * k.val ≤ (i 0).val ∧ (i 0).val < 8192 * yOf c + 1024 * k.val + 1024 := by
  rw [View.set_slice_whole, Rect.mem_set_unit]
  have h1 : (i 1).val < 1024 := (i 1).isLt
  show (∀ a : Fin 2, resOff c k a ≤ (i a).val ∧ (i a).val < resOff c k a + (![1024, 1024] : Fin 2 → Nat) a) ↔ _
  rw [Fin.forall_fin_two, resOff_eq]
  show (8192 * yOf c + 1024 * k.val ≤ (i 0).val ∧ (i 0).val < 8192 * yOf c + 1024 * k.val + 1024)
    ∧ (0 ≤ (i 1).val ∧ (i 1).val < 0 + 1024) ↔ _
  omega

theorem res_cov (c : Dev nD) (i : Idx ((c : Thread nD τ).loc main_v1)) :
    (∃ t : Fin 8, i ∈ (res c t).view.set) ∨ ∃ t : Fin 8, i ∈ (res (peer c) t).view.set := by
  have h0 : (i 0).val < 16384 := (i 0).isLt
  have hy := yOf_lt c
  have hyp := yOf_peer c
  have hk : (i 0).val % 8192 / 1024 < 8 := by omega
  by_cases h : (i 0).val / 8192 = yOf c
  · have hm : 8192 * yOf c + 1024 * ((i 0).val % 8192 / 1024) ≤ (i 0).val
        ∧ (i 0).val < 8192 * yOf c + 1024 * ((i 0).val % 8192 / 1024) + 1024 := by omega
    exact .inl ⟨⟨_, hk⟩, (mem_res c ⟨_, hk⟩ i).mpr hm⟩
  · have hm : 8192 * yOf (peer c) + 1024 * ((i 0).val % 8192 / 1024) ≤ (i 0).val
        ∧ (i 0).val < 8192 * yOf (peer c) + 1024 * ((i 0).val % 8192 / 1024) + 1024 := by omega
    exact .inr ⟨⟨_, hk⟩, (mem_res (peer c) ⟨_, hk⟩ i).mpr hm⟩

theorem res_dis (c : Dev nD) (k k' : Fin 8) (h : k ≠ k') : Disjoint (res c k).view.set (res c k').view.set := by
  refine Finset.disjoint_left.mpr fun i h1 h2 => ?_
  have h1' := (mem_res c k i).mp h1
  have h2' := (mem_res c k' i).mp h2
  exact h (Fin.ext (by omega))

theorem res_dis_peer (c : Dev nD) (k k' : Fin 8) : Disjoint (res c k).view.set (res (peer c) k').view.set := by
  refine Finset.disjoint_left.mpr fun i h1 h2 => ?_
  have h1' := (mem_res c k i).mp h1
  have h2' := (mem_res (peer c) k' i).mp h2
  have hy := yOf_lt c
  have hyp := yOf_peer c
  have hk := k.isLt
  have hk' := k'.isLt
  omega

theorem res_eq (c : Dev nD) (f : Buf (Elt F) ((c : Thread nD τ).loc main_v1)) :
    ((c : Thread nD τ).loc main_v1 ↦{fullShare} f : sProp 𝕄)
      = iprop((bigSep Finset.univ fun k : Fin 8 => ((res c k).view.loc (c : Thread nD τ) ↦[(res c k).view.set]{fullShare} f))
          ∗ (bigSep Finset.univ fun k : Fin 8 => ((res (peer c) k).view.loc (c : Thread nD τ) ↦[(res (peer c) k).view.set]{fullShare} f))) :=
  pts_cover₂ (ℓ := (c : Thread nD τ).loc main_v1) (fun k : Fin 8 => (res c k).view.set) (fun k : Fin 8 => (res (peer c) k).view.set) f
    (res_cov c) (res_dis c) (res_dis (peer c)) (res_dis_peer c)

theorem res_split (c : Dev nD) (f : Buf (Elt F) ((c : Thread nD τ).loc main_v1)) :
    ((c : Thread nD τ).loc main_v1 ↦{fullShare} f : sProp 𝕄)
      ⊢ iprop((bigSep Finset.univ fun k : Fin 8 => ((res c k).view.loc (c : Thread nD τ) ↦[(res c k).view.set]{fullShare} f))
          ∗ (bigSep Finset.univ fun k : Fin 8 => ((res (peer c) k).view.loc (c : Thread nD τ) ↦[(res (peer c) k).view.set]{fullShare} f))) :=
  Entails.of_eq (res_eq c f)

theorem res_join (c : Dev nD) (f : Buf (Elt F) ((c : Thread nD τ).loc main_v1)) :
    iprop((bigSep Finset.univ fun k : Fin 8 => ((res c k).view.loc (c : Thread nD τ) ↦[(res c k).view.set]{fullShare} f))
          ∗ (bigSep Finset.univ fun k : Fin 8 => ((res (peer c) k).view.loc (c : Thread nD τ) ↦[(res (peer c) k).view.set]{fullShare} f)))
      ⊢ ((c : Thread nD τ).loc main_v1 ↦{fullShare} f : sProp 𝕄) :=
  Entails.of_eq (res_eq c f).symm

/-! ### The input block: eight chunks of the peer's columns and eight of the device's own -/

theorem mem_xFar (c : Dev nD) (k : Fin 8) (i : S8192x2048.Idx) :
    i ∈ (xFar c k).view.set ↔ (1024 * k.val ≤ (i 0).val ∧ (i 0).val < 1024 * k.val + 1024)
      ∧ (1024 - 1024 * yOf c ≤ (i 1).val ∧ (i 1).val < 1024 - 1024 * yOf c + 1024) := by
  rw [View.set_slice_whole, Rect.mem_set_unit]
  show (∀ a : Fin 2, farOff c k a ≤ (i a).val ∧ (i a).val < farOff c k a + (![1024, 1024] : Fin 2 → Nat) a) ↔ _
  rw [Fin.forall_fin_two, farOff_eq]
  exact Iff.rfl

theorem mem_xOwn (c : Dev nD) (k : Fin 8) (i : S8192x2048.Idx) :
    i ∈ (xOwn c k).view.set ↔ (1024 * k.val ≤ (i 0).val ∧ (i 0).val < 1024 * k.val + 1024)
      ∧ (1024 * yOf c ≤ (i 1).val ∧ (i 1).val < 1024 * yOf c + 1024) := by
  rw [View.set_slice_whole, Rect.mem_set_unit]
  show (∀ a : Fin 2, ownOff c k a ≤ (i a).val ∧ (i a).val < ownOff c k a + (![1024, 1024] : Fin 2 → Nat) a) ↔ _
  rw [Fin.forall_fin_two, ownOff_eq]
  exact Iff.rfl

theorem x_cov (c : Dev nD) (i : Idx ((c : Thread nD τ).loc main_arg0)) :
    (∃ t : Fin 8, i ∈ (xFar c t).view.set) ∨ ∃ t : Fin 8, i ∈ (xOwn c t).view.set := by
  have h0 : (i 0).val < 8192 := (i 0).isLt
  have h1 : (i 1).val < 2048 := (i 1).isLt
  have hy := yOf_lt c
  have hk : (i 0).val / 1024 < 8 := by omega
  have hr : 1024 * ((i 0).val / 1024) ≤ (i 0).val ∧ (i 0).val < 1024 * ((i 0).val / 1024) + 1024 := by omega
  by_cases h : (i 1).val / 1024 = yOf c
  · exact .inr ⟨⟨_, hk⟩, (mem_xOwn c ⟨_, hk⟩ i).mpr ⟨hr, by omega⟩⟩
  · exact .inl ⟨⟨_, hk⟩, (mem_xFar c ⟨_, hk⟩ i).mpr ⟨hr, by omega⟩⟩

theorem xFar_dis (c : Dev nD) (k k' : Fin 8) (h : k ≠ k') : Disjoint (xFar c k).view.set (xFar c k').view.set := by
  refine Finset.disjoint_left.mpr fun i h1 h2 => ?_
  have h1' := (mem_xFar c k i).mp h1
  have h2' := (mem_xFar c k' i).mp h2
  exact h (Fin.ext (by omega))

theorem xOwn_dis (c : Dev nD) (k k' : Fin 8) (h : k ≠ k') : Disjoint (xOwn c k).view.set (xOwn c k').view.set := by
  refine Finset.disjoint_left.mpr fun i h1 h2 => ?_
  have h1' := (mem_xOwn c k i).mp h1
  have h2' := (mem_xOwn c k' i).mp h2
  exact h (Fin.ext (by omega))

theorem x_dis (c : Dev nD) (k k' : Fin 8) : Disjoint (xFar c k).view.set (xOwn c k').view.set := by
  refine Finset.disjoint_left.mpr fun i h1 h2 => ?_
  have h1' := (mem_xFar c k i).mp h1
  have h2' := (mem_xOwn c k' i).mp h2
  have hy := yOf_lt c
  omega

theorem x_eq (c : Dev nD) (f : Buf (Elt F) ((c : Thread nD τ).loc main_arg0)) :
    ((c : Thread nD τ).loc main_arg0 ↦{fullShare} f : sProp 𝕄)
      = iprop((bigSep Finset.univ fun k : Fin 8 => ((xFar c k).view.loc (c : Thread nD τ) ↦[(xFar c k).view.set]{fullShare} f))
          ∗ (bigSep Finset.univ fun k : Fin 8 => ((xOwn c k).view.loc (c : Thread nD τ) ↦[(xOwn c k).view.set]{fullShare} f))) :=
  pts_cover₂ (ℓ := (c : Thread nD τ).loc main_arg0) (fun k : Fin 8 => (xFar c k).view.set) (fun k : Fin 8 => (xOwn c k).view.set) f
    (x_cov c) (xFar_dis c) (xOwn_dis c) (x_dis c)

theorem x_split (c : Dev nD) (f : Buf (Elt F) ((c : Thread nD τ).loc main_arg0)) :
    ((c : Thread nD τ).loc main_arg0 ↦{fullShare} f : sProp 𝕄)
      ⊢ iprop((bigSep Finset.univ fun k : Fin 8 => ((xFar c k).view.loc (c : Thread nD τ) ↦[(xFar c k).view.set]{fullShare} f))
          ∗ (bigSep Finset.univ fun k : Fin 8 => ((xOwn c k).view.loc (c : Thread nD τ) ↦[(xOwn c k).view.set]{fullShare} f))) :=
  Entails.of_eq (x_eq c f)

theorem x_join (c : Dev nD) (f : Buf (Elt F) ((c : Thread nD τ).loc main_arg0)) :
    iprop((bigSep Finset.univ fun k : Fin 8 => ((xFar c k).view.loc (c : Thread nD τ) ↦[(xFar c k).view.set]{fullShare} f))
          ∗ (bigSep Finset.univ fun k : Fin 8 => ((xOwn c k).view.loc (c : Thread nD τ) ↦[(xOwn c k).view.set]{fullShare} f)))
      ⊢ ((c : Thread nD τ).loc main_arg0 ↦{fullShare} f : sProp 𝕄) :=
  Entails.of_eq (x_eq c f).symm

/-! ### The staging buffer: eight chunks of 1024 rows -/

theorem mem_stg (k : Fin 8) (i : S8192x1024.Idx) :
    i ∈ (stg k).view.set ↔ 1024 * k.val ≤ (i 0).val ∧ (i 0).val < 1024 * k.val + 1024 := by
  rw [View.set_slice_whole, Rect.mem_set_unit]
  have h1 : (i 1).val < 1024 := (i 1).isLt
  show (∀ a : Fin 2, stgOff k a ≤ (i a).val ∧ (i a).val < stgOff k a + (![1024, 1024] : Fin 2 → Nat) a) ↔ _
  rw [Fin.forall_fin_two]
  show (1024 * k.val ≤ (i 0).val ∧ (i 0).val < 1024 * k.val + 1024) ∧ (0 ≤ (i 1).val ∧ (i 1).val < 0 + 1024) ↔ _
  omega

theorem stg_cov (c : Dev nD) (i : Idx ((c : Thread nD τ).loc cc0_scratch0)) : ∃ t : Fin 8, i ∈ (stg t).view.set := by
  have h0 : (i 0).val < 8192 := (i 0).isLt
  have hk : (i 0).val / 1024 < 8 := by omega
  have hm : 1024 * ((i 0).val / 1024) ≤ (i 0).val ∧ (i 0).val < 1024 * ((i 0).val / 1024) + 1024 := by omega
  exact ⟨⟨_, hk⟩, (mem_stg ⟨_, hk⟩ i).mpr hm⟩

theorem stg_dis (k k' : Fin 8) (h : k ≠ k') : Disjoint (stg k).view.set (stg k').view.set := by
  refine Finset.disjoint_left.mpr fun i h1 h2 => ?_
  have h1' := (mem_stg k i).mp h1
  have h2' := (mem_stg k' i).mp h2
  exact h (Fin.ext (by omega))

theorem stg_eq (c : Dev nD) (f : Buf (Elt F) ((c : Thread nD τ).loc cc0_scratch0)) :
    ((c : Thread nD τ).loc cc0_scratch0 ↦{fullShare} f : sProp 𝕄)
      = bigSep Finset.univ fun k : Fin 8 => ((stg k).view.loc (c : Thread nD τ) ↦[(stg k).view.set]{fullShare} f) :=
  pts_cover (ℓ := (c : Thread nD τ).loc cc0_scratch0) (fun k : Fin 8 => (stg k).view.set) f (stg_cov c) stg_dis

theorem stg_split (c : Dev nD) (f : Buf (Elt F) ((c : Thread nD τ).loc cc0_scratch0)) :
    ((c : Thread nD τ).loc cc0_scratch0 ↦{fullShare} f : sProp 𝕄)
      ⊢ bigSep Finset.univ fun k : Fin 8 => ((stg k).view.loc (c : Thread nD τ) ↦[(stg k).view.set]{fullShare} f) :=
  Entails.of_eq (stg_eq c f)

theorem stg_join (c : Dev nD) (f : Buf (Elt F) ((c : Thread nD τ).loc cc0_scratch0)) :
    (bigSep Finset.univ fun k : Fin 8 => ((stg k).view.loc (c : Thread nD τ) ↦[(stg k).view.set]{fullShare} f))
      ⊢ ((c : Thread nD τ).loc cc0_scratch0 ↦{fullShare} f : sProp 𝕄) :=
  Entails.of_eq (stg_eq c f).symm

/-! ### The local buffer: two slots -/

theorem mem_slot (s : Fin 2) (i : S2x1024x1024.Idx) : i ∈ (slot s).view.set ↔ (i 0).val = s.val := by
  rw [View.set_reshape, View.set_slice_whole, Rect.mem_set_unit]
  have h1 : (i 1).val < 1024 := (i 1).isLt
  have h2 : (i 2).val < 1024 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

theorem slot_eq (c : Dev nD) (f : Buf (Elt F) ((c : Thread nD τ).loc cc0_scratch1)) :
    ((c : Thread nD τ).loc cc0_scratch1 ↦{fullShare} f : sProp 𝕄)
      = iprop(((slot 0).view.loc (c : Thread nD τ) ↦[(slot 0).view.set]{fullShare} f)
          ∗ ((slot 1).view.loc (c : Thread nD τ) ↦[(slot 1).view.set]{fullShare} f)) := by
  have hD : Disjoint (slot 0).view.set (slot 1).view.set := by
    refine Finset.disjoint_left.mpr fun i h1 h2 => ?_
    have h1' := (mem_slot 0 i).mp h1
    have h2' := (mem_slot 1 i).mp h2
    have e0 : ((0 : Fin 2)).val = 0 := rfl
    have e1 : ((1 : Fin 2)).val = 1 := rfl
    omega
  have hU : (Finset.univ : Finset (Idx ((c : Thread nD τ).loc cc0_scratch1))) = (slot 0).view.set ∪ (slot 1).view.set := by
    ext i
    simp only [Finset.mem_univ, Finset.mem_union, true_iff]
    have h0 : (i 0).val < 2 := (i 0).isLt
    by_cases h : (i 0).val = 0
    · exact .inl ((mem_slot 0 i).mpr h)
    · exact .inr ((mem_slot 1 i).mpr (by show (i 0).val = 1; omega))
  have hu := pointsTo_union (Val := Elt F) (Ix := Unit) (Name := ℕ) (U := UU) (Lvl := ℕ) (ℓ := (c : Thread nD τ).loc cc0_scratch1)
    (q := fullShare) (f := f) hD
  rw [hU]
  exact BI.equiv_iff.mp ⟨hu.1, hu.2⟩

theorem slot_split (c : Dev nD) (f : Buf (Elt F) ((c : Thread nD τ).loc cc0_scratch1)) :
    ((c : Thread nD τ).loc cc0_scratch1 ↦{fullShare} f : sProp 𝕄)
      ⊢ iprop(((slot 0).view.loc (c : Thread nD τ) ↦[(slot 0).view.set]{fullShare} f)
          ∗ ((slot 1).view.loc (c : Thread nD τ) ↦[(slot 1).view.set]{fullShare} f)) :=
  Entails.of_eq (slot_eq c f)

theorem slot_join (c : Dev nD) (f : Buf (Elt F) ((c : Thread nD τ).loc cc0_scratch1)) :
    iprop(((slot 0).view.loc (c : Thread nD τ) ↦[(slot 0).view.set]{fullShare} f)
          ∗ ((slot 1).view.loc (c : Thread nD τ) ↦[(slot 1).view.set]{fullShare} f))
      ⊢ ((c : Thread nD τ).loc cc0_scratch1 ↦{fullShare} f : sProp 𝕄) :=
  Entails.of_eq (slot_eq c f).symm

/-! ## Joining chunks that hold different contents

Chunks held each at contents of its own join to the whole buffer at SOME contents: the chunks' contents glued,
each index taking the contents of the chunk it lies in. -/

section JoinEx
variable {ℓ : Loc nD τ sig} {T : Type} [DecidableEq T]

/-- A family of pairwise disjoint chunks, each held at some contents, is their union held at some contents. -/
theorem pts_join_ex (S : Finset T) (K : T → Finset (Idx ℓ)) (f₀ : Buf (Elt F) ℓ)
    (h : ∀ t ∈ S, ∀ t' ∈ S, t ≠ t' → Disjoint (K t) (K t')) :
    (bigSep S fun t => iprop(∃ f : Buf (Elt F) ℓ, ℓ ↦[K t]{fullShare} f) : sProp 𝕄)
      ⊢ iprop(∃ g : Buf (Elt F) ℓ, ℓ ↦[S.biUnion K]{fullShare} g) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{fullShare} f)
        ∗ bigSep S (fun t => iprop(∃ f : Buf (Elt F) ℓ, ℓ ↦[K t]{fullShare} f))) ⊢ _ from ?_)
    iintro ⟨Ht, HS⟩
    icases Ht with ⟨%f, Ht⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

/-- Over a covering family: the whole buffer at some contents. -/
theorem pts_join_ex_cover [Fintype T] (K : T → Finset (Idx ℓ)) (t₀ : T) (hcov : ∀ i, ∃ t, i ∈ K t)
    (hdis : ∀ t t', t ≠ t' → Disjoint (K t) (K t')) :
    (bigSep Finset.univ fun t => iprop(∃ f : Buf (Elt F) ℓ, ℓ ↦[K t]{fullShare} f) : sProp 𝕄)
      ⊢ iprop(∃ g : Buf (Elt F) ℓ, ℓ ↦{fullShare} g) := by
  have hU : Finset.univ.biUnion K = (Finset.univ : Finset (Idx ℓ)) := by
    ext i
    simp only [Finset.mem_univ, Finset.mem_biUnion, true_and, iff_true]
    exact hcov i
  by_cases hne : Nonempty (Buf (Elt F) ℓ)
  · obtain ⟨f₀⟩ := hne
    have := pts_join_ex (F := F) Finset.univ K f₀ (fun t _ t' _ h => hdis t t' h)
    rw [hU] at this
    exact this
  · rw [BI.bigSep_univ_split t₀]
    refine (show iprop((∃ f : Buf (Elt F) ℓ, ℓ ↦[K t₀]{fullShare} f)
        ∗ bigSep (Finset.univ.erase t₀) (fun t => iprop(∃ f : Buf (Elt F) ℓ, ℓ ↦[K t]{fullShare} f))) ⊢ _ from ?_)
    iintro ⟨H0, -⟩
    icases H0 with ⟨%f, H0⟩
    exact (hne ⟨f⟩).elim

end JoinEx

theorem stg_join_ex (c : Dev nD) :
    (bigSep Finset.univ fun k : Fin 8 => iprop(∃ f : Buf (Elt F) ((stg k).view.loc (c : Thread nD τ)),
        ((stg k).view.loc (c : Thread nD τ) ↦[(stg k).view.set]{fullShare} f)) : sProp 𝕄)
      ⊢ iprop(∃ f : Buf (Elt F) ((c : Thread nD τ).loc cc0_scratch0), ((c : Thread nD τ).loc cc0_scratch0) ↦{fullShare} f) :=
  pts_join_ex_cover (ℓ := (c : Thread nD τ).loc cc0_scratch0) (fun k : Fin 8 => (stg k).view.set) 0 (stg_cov c) stg_dis

theorem slot_join_ex (c : Dev nD) :
    (iprop((∃ f : Buf (Elt F) ((slot 0).view.loc (c : Thread nD τ)), ((slot 0).view.loc (c : Thread nD τ) ↦[(slot 0).view.set]{fullShare} f))
        ∗ (∃ f : Buf (Elt F) ((slot 1).view.loc (c : Thread nD τ)), ((slot 1).view.loc (c : Thread nD τ) ↦[(slot 1).view.set]{fullShare} f))) : sProp 𝕄)
      ⊢ iprop(∃ f : Buf (Elt F) ((c : Thread nD τ).loc cc0_scratch1), ((c : Thread nD τ).loc cc0_scratch1) ↦{fullShare} f) := by
  have hD : Disjoint (slot 0).view.set (slot 1).view.set := by
    refine Finset.disjoint_left.mpr fun i h1 h2 => ?_
    have h1' := (mem_slot 0 i).mp h1
    have h2' := (mem_slot 1 i).mp h2
    have e0 : ((0 : Fin 2)).val = 0 := rfl
    have e1 : ((1 : Fin 2)).val = 1 := rfl
    omega
  have hU : (slot 0).view.set ∪ (slot 1).view.set = (Finset.univ : Finset (Idx ((c : Thread nD τ).loc cc0_scratch1))) := by
    ext i
    simp only [Finset.mem_univ, Finset.mem_union, iff_true]
    have h0 : (i 0).val < 2 := (i 0).isLt
    by_cases h : (i 0).val = 0
    · exact .inl ((mem_slot 0 i).mpr h)
    · exact .inr ((mem_slot 1 i).mpr (by show (i 0).val = 1; omega))
  iintro ⟨H0, H1⟩
  icases H0 with ⟨%f0, H0⟩
  icases H1 with ⟨%f1, H1⟩
  iexists ((slot 1).view.set).piecewise f1 f0
  rw [← hU]
  iapply (pointsTo_join (ℓ := (c : Thread nD τ).loc cc0_scratch1) hD)
  isplitl [H0]; · iexact H0
  iexact H1

/-! ## A chunk by what it reads as -/

/-- Contents that read the same through a view are the same on the view's elements. -/
theorem pts_congr_read {sp : Space} {s : Shape} {e : EltTy} (c : Dev nD) (v : View sig .tc sp s e)
    (g g' : Buf (Elt F) (v.loc (c : Thread nD τ))) (h : v.read (Elt F) g = v.read (Elt F) g') (q : PosShare TreeShare) :
    (v.loc (c : Thread nD τ) ↦[v.set]{q} g : sProp 𝕄) = (v.loc (c : Thread nD τ) ↦[v.set]{q} g') := by
  refine BI.Region.is_congr fun i hi => ?_
  obtain ⟨y, rfl⟩ := View.exists_emb_of_mem_set v hi
  have hy := congrFun h y
  rw [View.read_apply, View.read_apply] at hy
  exact (cast_inj _).mp hy

/-- A chunk of the device's own result that reads as chunk `k` of its own columns holds what the result must hold
    there. -/
theorem kept_of_read (c : Dev nD) (k : Fin 8) (g : Buf (Elt F) ((res c k).view.loc (c : Thread nD τ)))
    (hg : (res c k).view.read (Elt F) g = (xOwn c k).view.read (Elt F) (xAt m c)) :
    ((res c k).view.loc (c : Thread nD τ) ↦[(res c k).view.set]{fullShare} g : sProp 𝕄)
      ⊢ ((res c k).view.loc (c : Thread nD τ) ↦[(res c k).view.set]{fullShare} want m c) := by
  have hw : (res c k).view.read (Elt F) g
      = (res c k).view.read (Elt F) ((res c k).view.write (Elt F) g ((xOwn c k).view.read (Elt F) (xAt m c)) Finset.univ) := by
    rw [hg]
    funext y
    exact (View.read_write_of_mem _ _ (Finset.mem_univ y)).symm
  rw [pts_congr_read c (res c k).view g _ hw fullShare]
  exact kept_pts m c k g

/-- The same for a landed chunk: contents of the peer's result that read as chunk `k` of the peer's columns of the
    device's block. -/
theorem landed_of_read (c : Dev nD) (k : Fin 8) (g : Buf (Elt F) ((res c k).view.loc ((peer c : Dev nD) : Thread nD τ)))
    (hg : (res c k).view.read (Elt F) g = (xFar c k).view.read (Elt F) (xAt m c)) :
    ((res c k).view.loc ((peer c : Dev nD) : Thread nD τ) ↦[(res c k).view.set]{fullShare} g : sProp 𝕄)
      ⊢ recvPay m (peer c) k := by
  have hw : (res c k).view.read (Elt F) g
      = (res c k).view.read (Elt F) ((res c k).view.write (Elt F) g ((xFar c k).view.read (Elt F) (xAt m c)) Finset.univ) := by
    rw [hg]
    funext y
    exact (View.read_write_of_mem _ _ (Finset.mem_univ y)).symm
  rw [pts_congr_read (peer c) (res c k).view g _ hw fullShare]
  exact landed_pts m c k g

end Cert.KernelIdeal.Xchg

end
-- ==== Proof.KernelIdeal.ReadBack.lean ====
/-
  Reading a chunk back.

  A staging chunk or a slot, after ONE copy has overwritten it whole, reads — through its own view — as exactly what the
  copy carried, whatever it held before.
-/
import proofs.«900643_g7700000000000644_dist_a2a_v7x_xyz2x2x4_y_m8192_n1024_f32_1_alg».proof.Proof.KernelIdeal.Ledger
import Idealize.ShloMosaic.Lib.Writes

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A view whose LAST write was whole reads as that write's piece, whatever was written before and held before. -/
theorem read_back_cons {κ : Kind} {sp : Space} {s : Shape} {e : EltTy} (v : View sig κ sp s e) (f : v.ty.Contents (Elt F))
    (P : (Rect.whole s).shape.Idx → Elt F e) (L : List (View.Piece (Elt F) s e)) :
    v.read (Elt F) (v.writes (Elt F) f (⟨Rect.whole s, P⟩ :: L)) = fun x => P x := by
  funext x
  have h := View.read_writes_cons_emb v f (Rect.whole s) P L x
  rw [Rect.emb_whole_apply] at h
  exact h

omit [FloatOps F] in
/-- A view overwritten whole by one piece reads as that piece. -/
theorem read_back {κ : Kind} {sp : Space} {s : Shape} {e : EltTy} (v : View sig κ sp s e) (f : v.ty.Contents (Elt F))
    (P : (Rect.whole s).shape.Idx → Elt F e) :
    v.read (Elt F) (v.writes (Elt F) f [⟨Rect.whole s, P⟩]) = fun x => P x := read_back_cons v f P []

end Cert.KernelIdeal.Xchg

end
-- ==== Proof.KernelIdeal.Body.lean ====
/-
  One device's run of the kernel body.

  From what the device holds at launch (`bodyPre`) to what it must hold at the end (`bodyPost`), in program order:
  * it signals its peer's barrier cell, handing over the eight chunks of its own result array that the peer will fill,
    and waits on its own barrier cell, which brings the peer's eight chunks;
  * it starts the eight staging copies (the peer's columns of each chunk of its block into the staging buffer);
  * chunk by chunk it waits for the staging copy and sends the staging chunk into the peer's result array
    (`wp_send_chunk`): what it owes drops from `owedFrom c k` to `owedFrom c (k + 1)`, down to nothing;
  * it copies its own columns chunk by chunk through the two slots into its own half of the rows of its result;
  * it waits on its eight send cells (the staging chunks come back) and its eight receive cells (the peer's chunks have
    landed in its result, each holding what the result must hold there: the cell's payload says so).
  Then the pieces are put back: the input block from its sixteen chunks, unchanged; the result from its sixteen
  chunks, each restated as the exchanged array on its rows — an own chunk reads as the own columns' chunk because it was
  copied whole from a slot that had just been filled whole with it —; the scratch buffers at some contents; every
  semaphore of the exchange closed and back at zero. The device's buffers are held chunk by chunk throughout, each
  chunk as the elements of the slice the program itself names.
-/
import proofs.«900643_g7700000000000644_dist_a2a_v7x_xyz2x2x4_y_m8192_n1024_f32_1_alg».proof.Proof.KernelIdeal.Send
import proofs.«900643_g7700000000000644_dist_a2a_v7x_xyz2x2x4_y_m8192_n1024_f32_1_alg».proof.Proof.KernelIdeal.Chunks
import proofs.«900643_g7700000000000644_dist_a2a_v7x_xyz2x2x4_y_m8192_n1024_f32_1_alg».proof.Proof.KernelIdeal.ReadBack

noncomputable section

namespace Cert.KernelIdeal.Xchg

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Opening the records -/

omit [FloatOps F] in
theorem inv_at' (K : Dev nD × Fin 17 → ℕ) (ck : Dev nD × Fin 17) :
    (bigSep Finset.univ fun ck : Dev nD × Fin 17 => (cellInv ER (sched m) (K ck) (kcell ck) : sProp 𝕄)) ⊢ cellInv ER (sched m) (K ck) (kcell ck) :=
  bigSep_elim (Finset.mem_univ ck)
omit [FloatOps F] in
theorem reached_at' (ck : Dev nD × Fin 17) :
    (bigSep Finset.univ fun ck : Dev nD × Fin 17 => (reached ER (kcell ck) 0 : sProp 𝕄)) ⊢ reached ER (kcell ck) 0 :=
  bigSep_elim (Finset.mem_univ ck)
omit [FloatOps F] in
theorem inv_at (K : Dev nD × Fin 17 → ℕ) (ck : Dev nD × Fin 17) : records m K ⊢ cellInv ER (sched m) (K ck) (kcell ck) := by
  unfold records; iintro ⟨#HI, -⟩
  iapply (inv_at' m K ck); iexact HI
omit [FloatOps F] in
theorem reached_at (K : Dev nD × Fin 17 → ℕ) (ck : Dev nD × Fin 17) : records m K ⊢ reached ER (kcell ck) 0 := by
  unfold records; iintro ⟨-, #HR⟩
  iapply (reached_at' (F := F) ck); iexact HR
omit [FloatOps F] in
theorem inv_bar (K : Dev nD × Fin 17 → ℕ) (d : Dev nD) : records m K ⊢ cellInv ER (sched m) (K (d, 0)) (barCell d) := inv_at m K (d, 0)
omit [FloatOps F] in
theorem inv_send (K : Dev nD × Fin 17 → ℕ) (d : Dev nD) (k : Fin 8) : records m K ⊢ cellInv ER (sched m) (K (d, sIx k)) (sendCell d k) := by
  rw [← kcell_send]; exact inv_at m K (d, sIx k)
omit [FloatOps F] in
theorem inv_recv (K : Dev nD × Fin 17 → ℕ) (d : Dev nD) (k : Fin 8) : records m K ⊢ cellInv ER (sched m) (K (d, rIx k)) (recvCell d k) := by
  rw [← kcell_recv]; exact inv_at m K (d, rIx k)
omit [FloatOps F] in
theorem rch_bar (K : Dev nD × Fin 17 → ℕ) (d : Dev nD) : records m K ⊢ reached ER (barCell d) 0 := reached_at m K (d, 0)
omit [FloatOps F] in
theorem rch_send (K : Dev nD × Fin 17 → ℕ) (d : Dev nD) (k : Fin 8) : records m K ⊢ reached ER (sendCell d k) 0 := by
  rw [← kcell_send]; exact reached_at m K (d, sIx k)
omit [FloatOps F] in
theorem rch_recv (K : Dev nD × Fin 17 → ℕ) (d : Dev nD) (k : Fin 8) : records m K ⊢ reached ER (recvCell d k) 0 := by
  rw [← kcell_recv]; exact reached_at m K (d, rIx k)

omit [FloatOps F] in
/-- What the wait on receive cell `k` hands back: that chunk of the result, holding what the result must hold. -/
theorem recv_back (c : Dev nD) (k : Fin 8) : ((sched (F := F) m).payload (recvCell c k) 0 () : sProp 𝕄)
    ⊢ ((res (peer c) k).view.loc (c : Thread nD τ) ↦[(res (peer c) k).view.set]{fullShare} want m c) :=
  Entails.of_eq (by rw [payload_recv]; rfl)
omit [FloatOps F] in
/-- What the wait on send cell `k` hands back: staging chunk `k`, at some contents. -/
theorem send_back (c : Dev nD) (k : Fin 8) : ((sched (F := F) m).payload (sendCell c k) 0 () : sProp 𝕄)
    ⊢ iprop(∃ f : Buf (Elt F) ((stg k).view.loc (c : Thread nD τ)), ((stg k).view.loc (c : Thread nD τ) ↦[(stg k).view.set]{fullShare} f)) :=
  Entails.of_eq (by rw [payload_send]; rfl)

attribute [local sl_canon] dev1_eq dev2_eq dev3_eq dev4_eq dev5_eq dev6_eq dev7_eq dev8_eq dev9_eq

omit [FloatOps F] in
theorem payload_bar_peer (c : Dev nD) (u : Unit) : (sched (F := F) m).payload (barCell (peer c)) 0 u
    = iprop((∃ f, (res (peer c) 0).view.loc (c : Thread nD τ) ↦[(res (peer c) 0).view.set]{fullShare} f) ∗ (∃ f, (res (peer c) 1).view.loc (c : Thread nD τ) ↦[(res (peer c) 1).view.set]{fullShare} f) ∗ (∃ f, (res (peer c) 2).view.loc (c : Thread nD τ) ↦[(res (peer c) 2).view.set]{fullShare} f) ∗ (∃ f, (res (peer c) 3).view.loc (c : Thread nD τ) ↦[(res (peer c) 3).view.set]{fullShare} f) ∗ (∃ f, (res (peer c) 4).view.loc (c : Thread nD τ) ↦[(res (peer c) 4).view.set]{fullShare} f) ∗ (∃ f, (res (peer c) 5).view.loc (c : Thread nD τ) ↦[(res (peer c) 5).view.set]{fullShare} f) ∗ (∃ f, (res (peer c) 6).view.loc (c : Thread nD τ) ↦[(res (peer c) 6).view.set]{fullShare} f) ∗ (∃ f, (res (peer c) 7).view.loc (c : Thread nD τ) ↦[(res (peer c) 7).view.set]{fullShare} f)) := by
  rw [payload_bar]; unfold barPay resPts; rw [bigSep_fin8, peer_peer]

attribute [local sl_rounds] duties_bar duties_send duties_recv amount_bar amount_send amount_recv payload_bar_peer expect_bar expect_send expect_recv

attribute [local irreducible] peer yOf k0_off1 k0_off2 k0_off3 k0_off4 k0_off5 k0_off6 k0_off7 k0_off8 k0_off9 k0_off10 k0_off11 k0_off12 k0_off13 k0_off14 k0_off15 k0_off16 k0_off17

set_option maxRecDepth 16384 in
set_option maxHeartbeats 4000000 in
theorem sound_body_at (c : Dev nD) (Kt : PUnit → sProp 𝕄) :
    iprop(bodyPre m c ∗ (bodyPost m c -∗ Kt ⟨⟩)) ⊢ wp frame (wpE (defs₀ (F := F)) 𝒱₀ c none) Set.univ (theBody (F := F)) Kt := by
  unfold bodyPre bodyPost Φ₀ start scratch
  iintro ⟨⟨⟨⟨⟨%K, Hg⟩, Hcred, #Hlev, Hloc⟩, Hx, Hv, ⟨%fS, Hstg⟩, ⟨%fL, Hslot⟩⟩, Ho⟩, Hk⟩
  unfold ghost
  icases Hg with ⟨#Hrec, Hpos, Htok⟩
  unfold Dat.owesAt Pipeline.owesWithin
  icases Ho with ⟨%W, %hW, HO⟩
  rw [show (dats m 0 c).owed t₀.castSucc = O₀ c from rfl]
  unfold O₀
  have hmwB := fun j => mayWait_bar (F := F) c j
  have hmwD := fun (q : DmaSem sig) (hq : q.val < 20) j => mayWait_dma (F := F) c q hq j
  ihave #Ib := (inv_bar m K c) $$ Hrec
  ihave #Ibp := (inv_bar m K (peer c)) $$ Hrec
  ihave #Rbp := (rch_bar m K (peer c)) $$ Hrec
  unfold positions payToks creds localSems
  icases Hpos with ⟨Ab, HposS, HposR⟩
  icases Htok with ⟨Tbp, HtokR, HtokS⟩
  icases Hcred with ⟨Cb, HcredR⟩
  icases Hloc with ⟨HzP, HzI, HzO⟩
  -- the result array by chunks: the eight the peer will fill go out with the entry signal
  ihave Hv' := (res_split c _) $$ Hv
  icases Hv' with ⟨HvOwn, HvFar⟩
  ihave HvFar' := (Entails.of_eq (bigSep_fin8 _)) $$ HvFar
  icases HvFar' with ⟨Rl0, Rl1, Rl2, Rl3, Rl4, Rl5, Rl6, Rl7⟩
  -- the input block by chunks; the far columns' chunks feed the staging copies
  ihave Hx' := (x_split c _) $$ Hx
  icases Hx' with ⟨HxFar, HxOwn⟩
  ihave HxFar' := (Entails.of_eq (bigSep_fin8 _)) $$ HxFar
  icases HxFar' with ⟨Xf0, Xf1, Xf2, Xf3, Xf4, Xf5, Xf6, Xf7⟩
  ihave Hstg' := (stg_split c _) $$ Hstg
  ihave Hstg'' := (Entails.of_eq (bigSep_fin8 _)) $$ Hstg'
  icases Hstg'' with ⟨Sg0, Sg1, Sg2, Sg3, Sg4, Sg5, Sg6, Sg7⟩
  ihave HzP' := (Entails.of_eq (bigSep_fin8 _)) $$ HzP
  icases HzP' with ⟨Zp0, Zp1, Zp2, Zp3, Zp4, Zp5, Zp6, Zp7⟩
  sl_exec_parts (disch := simp only [dev1_eq, dev2_eq, dev3_eq, dev4_eq, dev5_eq, dev6_eq, dev7_eq, dev8_eq, dev9_eq])

  -- the peer's eight chunks, from its entry signal
  ihave Hbp := (Entails.of_eq (payload_bar m c ())) $$ Ab_pay1
  unfold barPay
  ihave Hbp' := (Entails.of_eq (bigSep_fin8 _)) $$ Hbp
  unfold resPts
  icases Hbp' with ⟨⟨%fd0, Dp0⟩, ⟨%fd1, Dp1⟩, ⟨%fd2, Dp2⟩, ⟨%fd3, Dp3⟩, ⟨%fd4, Dp4⟩, ⟨%fd5, Dp5⟩, ⟨%fd6, Dp6⟩, ⟨%fd7, Dp7⟩⟩
  -- the send cells' and the peer's receive cells' records and tokens
  ihave #Is0 := (inv_send m K c 0) $$ Hrec
  ihave #Irp0 := (inv_recv m K (peer c) 0) $$ Hrec
  ihave #Rs0 := (rch_send m K c 0) $$ Hrec
  ihave #Rrp0 := (rch_recv m K (peer c) 0) $$ Hrec
  ihave #Is1 := (inv_send m K c 1) $$ Hrec
  ihave #Irp1 := (inv_recv m K (peer c) 1) $$ Hrec
  ihave #Rs1 := (rch_send m K c 1) $$ Hrec
  ihave #Rrp1 := (rch_recv m K (peer c) 1) $$ Hrec
  ihave #Is2 := (inv_send m K c 2) $$ Hrec
  ihave #Irp2 := (inv_recv m K (peer c) 2) $$ Hrec
  ihave #Rs2 := (rch_send m K c 2) $$ Hrec
  ihave #Rrp2 := (rch_recv m K (peer c) 2) $$ Hrec
  ihave #Is3 := (inv_send m K c 3) $$ Hrec
  ihave #Irp3 := (inv_recv m K (peer c) 3) $$ Hrec
  ihave #Rs3 := (rch_send m K c 3) $$ Hrec
  ihave #Rrp3 := (rch_recv m K (peer c) 3) $$ Hrec
  ihave #Is4 := (inv_send m K c 4) $$ Hrec
  ihave #Irp4 := (inv_recv m K (peer c) 4) $$ Hrec
  ihave #Rs4 := (rch_send m K c 4) $$ Hrec
  ihave #Rrp4 := (rch_recv m K (peer c) 4) $$ Hrec
  ihave #Is5 := (inv_send m K c 5) $$ Hrec
  ihave #Irp5 := (inv_recv m K (peer c) 5) $$ Hrec
  ihave #Rs5 := (rch_send m K c 5) $$ Hrec
  ihave #Rrp5 := (rch_recv m K (peer c) 5) $$ Hrec
  ihave #Is6 := (inv_send m K c 6) $$ Hrec
  ihave #Irp6 := (inv_recv m K (peer c) 6) $$ Hrec
  ihave #Rs6 := (rch_send m K c 6) $$ Hrec
  ihave #Rrp6 := (rch_recv m K (peer c) 6) $$ Hrec
  ihave #Is7 := (inv_send m K c 7) $$ Hrec
  ihave #Irp7 := (inv_recv m K (peer c) 7) $$ Hrec
  ihave #Rs7 := (rch_send m K c 7) $$ Hrec
  ihave #Rrp7 := (rch_recv m K (peer c) 7) $$ Hrec
  ihave HtokS' := (Entails.of_eq (bigSep_fin8 _)) $$ HtokS
  icases HtokS' with ⟨Ts0, Ts1, Ts2, Ts3, Ts4, Ts5, Ts6, Ts7⟩
  ihave HtokR' := (Entails.of_eq (bigSep_fin8 _)) $$ HtokR
  icases HtokR' with ⟨Trp0, Trp1, Trp2, Trp3, Trp4, Trp5, Trp6, Trp7⟩
  -- remote copy 0
  iapply (wp_send_chunk m c _ (dev2_eq c) 0 (K (c, sIx 0)) (K (peer c, rIx 0)) _ (read_back _ fS _) fd0 (landed_pts m c 0 fd0) _) $$ [Sg0 Dp0 HO Ts0 Trp0]
  · isplitr; · iexact Is0
    isplitr; · iexact Irp0
    isplitl [Sg0]; · iexact Sg0
    isplitl [Dp0]; · iexact Dp0
    isplitl [HO]; · iexact HO
    isplitl [Ts0]; · iexact Ts0
    isplitr; · iexact Rs0
    isplitl [Trp0]; · iexact Trp0
    iexact Rrp0
  iintro ⟨Cs0, HO⟩
  sl_exec_parts (disch := simp only [dev1_eq, dev2_eq, dev3_eq, dev4_eq, dev5_eq, dev6_eq, dev7_eq, dev8_eq, dev9_eq])
  -- remote copy 1
  iapply (wp_send_chunk m c _ rfl 1 (K (c, sIx 1)) (K (peer c, rIx 1)) _ (read_back _ fS _) fd1 (landed_pts m c 1 fd1) _) $$ [Sg1 Dp1 HO Ts1 Trp1]
  · isplitr; · iexact Is1
    isplitr; · iexact Irp1
    isplitl [Sg1]; · iexact Sg1
    isplitl [Dp1]; · iexact Dp1
    isplitl [HO]; · iexact HO
    isplitl [Ts1]; · iexact Ts1
    isplitr; · iexact Rs1
    isplitl [Trp1]; · iexact Trp1
    iexact Rrp1
  iintro ⟨Cs1, HO⟩
  sl_exec_parts (disch := simp only [dev1_eq, dev2_eq, dev3_eq, dev4_eq, dev5_eq, dev6_eq, dev7_eq, dev8_eq, dev9_eq])
  -- remote copy 2
  iapply (wp_send_chunk m c _ rfl 2 (K (c, sIx 2)) (K (peer c, rIx 2)) _ (read_back _ fS _) fd2 (landed_pts m c 2 fd2) _) $$ [Sg2 Dp2 HO Ts2 Trp2]
  · isplitr; · iexact Is2
    isplitr; · iexact Irp2
    isplitl [Sg2]; · iexact Sg2
    isplitl [Dp2]; · iexact Dp2
    isplitl [HO]; · iexact HO
    isplitl [Ts2]; · iexact Ts2
    isplitr; · iexact Rs2
    isplitl [Trp2]; · iexact Trp2
    iexact Rrp2
  iintro ⟨Cs2, HO⟩
  sl_exec_parts (disch := simp only [dev1_eq, dev2_eq, dev3_eq, dev4_eq, dev5_eq, dev6_eq, dev7_eq, dev8_eq, dev9_eq])
  -- remote copy 3
  iapply (wp_send_chunk m c _ rfl 3 (K (c, sIx 3)) (K (peer c, rIx 3)) _ (read_back _ fS _) fd3 (landed_pts m c 3 fd3) _) $$ [Sg3 Dp3 HO Ts3 Trp3]
  · isplitr; · iexact Is3
    isplitr; · iexact Irp3
    isplitl [Sg3]; · iexact Sg3
    isplitl [Dp3]; · iexact Dp3
    isplitl [HO]; · iexact HO
    isplitl [Ts3]; · iexact Ts3
    isplitr; · iexact Rs3
    isplitl [Trp3]; · iexact Trp3
    iexact Rrp3
  iintro ⟨Cs3, HO⟩
  sl_exec_parts (disch := simp only [dev1_eq, dev2_eq, dev3_eq, dev4_eq, dev5_eq, dev6_eq, dev7_eq, dev8_eq, dev9_eq])
  -- remote copy 4
  iapply (wp_send_chunk m c _ rfl 4 (K (c, sIx 4)) (K (peer c, rIx 4)) _ (read_back _ fS _) fd4 (landed_pts m c 4 fd4) _) $$ [Sg4 Dp4 HO Ts4 Trp4]
  · isplitr; · iexact Is4
    isplitr; · iexact Irp4
    isplitl [Sg4]; · iexact Sg4
    isplitl [Dp4]; · iexact Dp4
    isplitl [HO]; · iexact HO
    isplitl [Ts4]; · iexact Ts4
    isplitr; · iexact Rs4
    isplitl [Trp4]; · iexact Trp4
    iexact Rrp4
  iintro ⟨Cs4, HO⟩
  sl_exec_parts (disch := simp only [dev1_eq, dev2_eq, dev3_eq, dev4_eq, dev5_eq, dev6_eq, dev7_eq, dev8_eq, dev9_eq])
  -- remote copy 5
  iapply (wp_send_chunk m c _ rfl 5 (K (c, sIx 5)) (K (peer c, rIx 5)) _ (read_back _ fS _) fd5 (landed_pts m c 5 fd5) _) $$ [Sg5 Dp5 HO Ts5 Trp5]
  · isplitr; · iexact Is5
    isplitr; · iexact Irp5
    isplitl [Sg5]; · iexact Sg5
    isplitl [Dp5]; · iexact Dp5
    isplitl [HO]; · iexact HO
    isplitl [Ts5]; · iexact Ts5
    isplitr; · iexact Rs5
    isplitl [Trp5]; · iexact Trp5
    iexact Rrp5
  iintro ⟨Cs5, HO⟩
  sl_exec_parts (disch := simp only [dev1_eq, dev2_eq, dev3_eq, dev4_eq, dev5_eq, dev6_eq, dev7_eq, dev8_eq, dev9_eq])
  -- remote copy 6
  iapply (wp_send_chunk m c _ rfl 6 (K (c, sIx 6)) (K (peer c, rIx 6)) _ (read_back _ fS _) fd6 (landed_pts m c 6 fd6) _) $$ [Sg6 Dp6 HO Ts6 Trp6]
  · isplitr; · iexact Is6
    isplitr; · iexact Irp6
    isplitl [Sg6]; · iexact Sg6
    isplitl [Dp6]; · iexact Dp6
    isplitl [HO]; · iexact HO
    isplitl [Ts6]; · iexact Ts6
    isplitr; · iexact Rs6
    isplitl [Trp6]; · iexact Trp6
    iexact Rrp6
  iintro ⟨Cs6, HO⟩
  sl_exec_parts (disch := simp only [dev1_eq, dev2_eq, dev3_eq, dev4_eq, dev5_eq, dev6_eq, dev7_eq, dev8_eq, dev9_eq])
  -- remote copy 7
  iapply (wp_send_chunk m c _ rfl 7 (K (c, sIx 7)) (K (peer c, rIx 7)) _ (read_back _ fS _) fd7 (landed_pts m c 7 fd7) _) $$ [Sg7 Dp7 HO Ts7 Trp7]
  · isplitr; · iexact Is7
    isplitr; · iexact Irp7
    isplitl [Sg7]; · iexact Sg7
    isplitl [Dp7]; · iexact Dp7
    isplitl [HO]; · iexact HO
    isplitl [Ts7]; · iexact Ts7
    isplitr; · iexact Rs7
    isplitl [Trp7]; · iexact Trp7
    iexact Rrp7
  iintro ⟨Cs7, HO⟩

  -- every chunk has gone: nothing more is owed
  have hdone : ∀ W' : Waits sig Unit, (owes (c : Thread nD τ) (owedFrom c ((7 : Fin 8).val + 1)) W' : sProp 𝕄) ⊢ owes (c : Thread nD τ) 0 W' :=
    fun W' => Entails.of_eq (by rw [show owedFrom c ((7 : Fin 8).val + 1) = 0 from owedFrom_done c])
  ihave HO := (hdone _) $$ HO
  -- the own columns' chunks, the two slots, the own half of the result, the local semaphores
  ihave HxOwn' := (Entails.of_eq (bigSep_fin8 _)) $$ HxOwn
  icases HxOwn' with ⟨Xo0, Xo1, Xo2, Xo3, Xo4, Xo5, Xo6, Xo7⟩
  ihave Hslot' := (slot_split c _) $$ Hslot
  icases Hslot' with ⟨Sl0, Sl1⟩
  ihave HvOwn' := (Entails.of_eq (bigSep_fin8 _)) $$ HvOwn
  icases HvOwn' with ⟨Ro0, Ro1, Ro2, Ro3, Ro4, Ro5, Ro6, Ro7⟩
  ihave HzI' := (Entails.of_eq (bigSep_fin2 _)) $$ HzI
  icases HzI' with ⟨Zi0, Zi1⟩
  ihave HzO' := (Entails.of_eq (bigSep_fin2 _)) $$ HzO
  icases HzO' with ⟨Zo0, Zo1⟩
  -- the own receive cells' records, the positions and the credit for the last sixteen waits
  ihave #Ir0 := (inv_recv m K c 0) $$ Hrec
  ihave #Ir1 := (inv_recv m K c 1) $$ Hrec
  ihave #Ir2 := (inv_recv m K c 2) $$ Hrec
  ihave #Ir3 := (inv_recv m K c 3) $$ Hrec
  ihave #Ir4 := (inv_recv m K c 4) $$ Hrec
  ihave #Ir5 := (inv_recv m K c 5) $$ Hrec
  ihave #Ir6 := (inv_recv m K c 6) $$ Hrec
  ihave #Ir7 := (inv_recv m K c 7) $$ Hrec
  ihave HposS' := (Entails.of_eq (bigSep_fin8 _)) $$ HposS
  icases HposS' with ⟨As0, As1, As2, As3, As4, As5, As6, As7⟩
  ihave HposR' := (Entails.of_eq (bigSep_fin8 _)) $$ HposR
  icases HposR' with ⟨Ar0, Ar1, Ar2, Ar3, Ar4, Ar5, Ar6, Ar7⟩
  ihave HcredR' := (Entails.of_eq (bigSep_fin8 _)) $$ HcredR
  icases HcredR' with ⟨Cr0, Cr1, Cr2, Cr3, Cr4, Cr5, Cr6, Cr7⟩
  sl_exec_parts (disch := simp only [dev1_eq, dev2_eq, dev3_eq, dev4_eq, dev5_eq, dev6_eq, dev7_eq, dev8_eq, dev9_eq])
  -- the sixteen cells of the exchange have seen their one round: their counters are the device's again, at zero
  imod (Rounds.cell_close ER (sched m) (Set.mem_univ (K (c, sIx 0))) (fun h => h) (R := 0 + 1) (duties_later m (sendCell c 0))) $$ [As0] with Hzs0
  · isplitr; · iexact Is0
    iexact As0
  imod (Rounds.cell_close ER (sched m) (Set.mem_univ (K (c, rIx 0))) (fun h => h) (R := 0 + 1) (duties_later m (recvCell c 0))) $$ [Ar0] with Hzr0
  · isplitr; · iexact Ir0
    iexact Ar0
  imod (Rounds.cell_close ER (sched m) (Set.mem_univ (K (c, sIx 1))) (fun h => h) (R := 0 + 1) (duties_later m (sendCell c 1))) $$ [As1] with Hzs1
  · isplitr; · iexact Is1
    iexact As1
  imod (Rounds.cell_close ER (sched m) (Set.mem_univ (K (c, rIx 1))) (fun h => h) (R := 0 + 1) (duties_later m (recvCell c 1))) $$ [Ar1] with Hzr1
  · isplitr; · iexact Ir1
    iexact Ar1
  imod (Rounds.cell_close ER (sched m) (Set.mem_univ (K (c, sIx 2))) (fun h => h) (R := 0 + 1) (duties_later m (sendCell c 2))) $$ [As2] with Hzs2
  · isplitr; · iexact Is2
    iexact As2
  imod (Rounds.cell_close ER (sched m) (Set.mem_univ (K (c, rIx 2))) (fun h => h) (R := 0 + 1) (duties_later m (recvCell c 2))) $$ [Ar2] with Hzr2
  · isplitr; · iexact Ir2
    iexact Ar2
  imod (Rounds.cell_close ER (sched m) (Set.mem_univ (K (c, sIx 3))) (fun h => h) (R := 0 + 1) (duties_later m (sendCell c 3))) $$ [As3] with Hzs3
  · isplitr; · iexact Is3
    iexact As3
  imod (Rounds.cell_close ER (sched m) (Set.mem_univ (K (c, rIx 3))) (fun h => h) (R := 0 + 1) (duties_later m (recvCell c 3))) $$ [Ar3] with Hzr3
  · isplitr; · iexact Ir3
    iexact Ar3
  imod (Rounds.cell_close ER (sched m) (Set.mem_univ (K (c, sIx 4))) (fun h => h) (R := 0 + 1) (duties_later m (sendCell c 4))) $$ [As4] with Hzs4
  · isplitr; · iexact Is4
    iexact As4
  imod (Rounds.cell_close ER (sched m) (Set.mem_univ (K (c, rIx 4))) (fun h => h) (R := 0 + 1) (duties_later m (recvCell c 4))) $$ [Ar4] with Hzr4
  · isplitr; · iexact Ir4
    iexact Ar4
  imod (Rounds.cell_close ER (sched m) (Set.mem_univ (K (c, sIx 5))) (fun h => h) (R := 0 + 1) (duties_later m (sendCell c 5))) $$ [As5] with Hzs5
  · isplitr; · iexact Is5
    iexact As5
  imod (Rounds.cell_close ER (sched m) (Set.mem_univ (K (c, rIx 5))) (fun h => h) (R := 0 + 1) (duties_later m (recvCell c 5))) $$ [Ar5] with Hzr5
  · isplitr; · iexact Ir5
    iexact Ar5
  imod (Rounds.cell_close ER (sched m) (Set.mem_univ (K (c, sIx 6))) (fun h => h) (R := 0 + 1) (duties_later m (sendCell c 6))) $$ [As6] with Hzs6
  · isplitr; · iexact Is6
    iexact As6
  imod (Rounds.cell_close ER (sched m) (Set.mem_univ (K (c, rIx 6))) (fun h => h) (R := 0 + 1) (duties_later m (recvCell c 6))) $$ [Ar6] with Hzr6
  · isplitr; · iexact Ir6
    iexact Ar6
  imod (Rounds.cell_close ER (sched m) (Set.mem_univ (K (c, sIx 7))) (fun h => h) (R := 0 + 1) (duties_later m (sendCell c 7))) $$ [As7] with Hzs7
  · isplitr; · iexact Is7
    iexact As7
  imod (Rounds.cell_close ER (sched m) (Set.mem_univ (K (c, rIx 7))) (fun h => h) (R := 0 + 1) (duties_later m (recvCell c 7))) $$ [Ar7] with Hzr7
  · isplitr; · iexact Ir7
    iexact Ar7
  -- each own chunk of the result reads as the own columns' chunk: it was copied whole from a slot that had just been filled whole with it
  have hg0 : (res c 0).view.read (Elt F) ((res c 0).view.writes (Elt F) (m ((c : Thread nD τ).loc main_v1)) [⟨Rect.whole S1024x1024, sound_body_at.sl.dma0_9 m c fL⟩])
      = (xOwn c 0).view.read (Elt F) (xAt m c) :=
    (read_back _ _ _).trans (read_back_cons (slot 0).view fL _ _)
  have hg1 : (res c 1).view.read (Elt F) ((res c 1).view.writes (Elt F) (m ((c : Thread nD τ).loc main_v1)) [⟨Rect.whole S1024x1024, sound_body_at.sl.dma0_11 m c fL⟩])
      = (xOwn c 1).view.read (Elt F) (xAt m c) :=
    (read_back _ _ _).trans (read_back_cons (slot 1).view fL _ _)
  have hg2 : (res c 2).view.read (Elt F) ((res c 2).view.writes (Elt F) (m ((c : Thread nD τ).loc main_v1)) [⟨Rect.whole S1024x1024, sound_body_at.sl.dma0_13 m c fL⟩])
      = (xOwn c 2).view.read (Elt F) (xAt m c) :=
    (read_back _ _ _).trans (read_back_cons (slot 0).view fL _ _)
  have hg3 : (res c 3).view.read (Elt F) ((res c 3).view.writes (Elt F) (m ((c : Thread nD τ).loc main_v1)) [⟨Rect.whole S1024x1024, sound_body_at.sl.dma0_15 m c fL⟩])
      = (xOwn c 3).view.read (Elt F) (xAt m c) :=
    (read_back _ _ _).trans (read_back_cons (slot 1).view fL _ _)
  have hg4 : (res c 4).view.read (Elt F) ((res c 4).view.writes (Elt F) (m ((c : Thread nD τ).loc main_v1)) [⟨Rect.whole S1024x1024, sound_body_at.sl.dma0_17 m c fL⟩])
      = (xOwn c 4).view.read (Elt F) (xAt m c) :=
    (read_back _ _ _).trans (read_back_cons (slot 0).view fL _ _)
  have hg5 : (res c 5).view.read (Elt F) ((res c 5).view.writes (Elt F) (m ((c : Thread nD τ).loc main_v1)) [⟨Rect.whole S1024x1024, sound_body_at.sl.dma0_19 m c fL⟩])
      = (xOwn c 5).view.read (Elt F) (xAt m c) :=
    (read_back _ _ _).trans (read_back_cons (slot 1).view fL _ _)
  have hg6 : (res c 6).view.read (Elt F) ((res c 6).view.writes (Elt F) (m ((c : Thread nD τ).loc main_v1)) [⟨Rect.whole S1024x1024, sound_body_at.sl.dma0_21 m c fL⟩])
      = (xOwn c 6).view.read (Elt F) (xAt m c) :=
    (read_back _ _ _).trans (read_back_cons (slot 0).view fL _ _)
  have hg7 : (res c 7).view.read (Elt F) ((res c 7).view.writes (Elt F) (m ((c : Thread nD τ).loc main_v1)) [⟨Rect.whole S1024x1024, sound_body_at.sl.dma0_23 m c fL⟩])
      = (xOwn c 7).view.read (Elt F) (xAt m c) :=
    (read_back _ _ _).trans (read_back_cons (slot 1).view fL _ _)
  rw [wp_ret]; imodintro
  iapply Hk
  unfold Φ₁ scratch localSems xferSems
  isplitr [HO]
  · -- the input block, whole again and unchanged
    isplitl [Xf0 Xf1 Xf2 Xf3 Xf4 Xf5 Xf6 Xf7 Xo0 Xo1 Xo2 Xo3 Xo4 Xo5 Xo6 Xo7]
    · iapply (x_join c (xAt m c))
      isplitl [Xf0 Xf1 Xf2 Xf3 Xf4 Xf5 Xf6 Xf7]
      · iapply (Entails.of_eq (bigSep_fin8 (fun k : Fin 8 => ((xFar c k).view.loc (c : Thread nD τ) ↦[(xFar c k).view.set]{fullShare} xAt m c : sProp 𝕄))).symm)
        isplitl [Xf0]; · iexact Xf0
        isplitl [Xf1]; · iexact Xf1
        isplitl [Xf2]; · iexact Xf2
        isplitl [Xf3]; · iexact Xf3
        isplitl [Xf4]; · iexact Xf4
        isplitl [Xf5]; · iexact Xf5
        isplitl [Xf6]; · iexact Xf6
        iexact Xf7
      · iapply (Entails.of_eq (bigSep_fin8 (fun k : Fin 8 => ((xOwn c k).view.loc (c : Thread nD τ) ↦[(xOwn c k).view.set]{fullShare} xAt m c : sProp 𝕄))).symm)
        isplitl [Xo0]; · iexact Xo0
        isplitl [Xo1]; · iexact Xo1
        isplitl [Xo2]; · iexact Xo2
        isplitl [Xo3]; · iexact Xo3
        isplitl [Xo4]; · iexact Xo4
        isplitl [Xo5]; · iexact Xo5
        isplitl [Xo6]; · iexact Xo6
        iexact Xo7
    -- the result: its own half copied chunk by chunk, the other half landed from the peer
    isplitl [Ro0 Ro1 Ro2 Ro3 Ro4 Ro5 Ro6 Ro7 Ar0_pay1 Ar1_pay1 Ar2_pay1 Ar3_pay1 Ar4_pay1 Ar5_pay1 Ar6_pay1 Ar7_pay1]
    · iapply (res_join c (want m c))
      isplitl [Ro0 Ro1 Ro2 Ro3 Ro4 Ro5 Ro6 Ro7]
      · iapply (Entails.of_eq (bigSep_fin8 (fun k : Fin 8 => ((res c k).view.loc (c : Thread nD τ) ↦[(res c k).view.set]{fullShare} want m c : sProp 𝕄))).symm)
        isplitl [Ro0]
        · iapply (kept_of_read m c 0 _ hg0); iexact Ro0
        isplitl [Ro1]
        · iapply (kept_of_read m c 1 _ hg1); iexact Ro1
        isplitl [Ro2]
        · iapply (kept_of_read m c 2 _ hg2); iexact Ro2
        isplitl [Ro3]
        · iapply (kept_of_read m c 3 _ hg3); iexact Ro3
        isplitl [Ro4]
        · iapply (kept_of_read m c 4 _ hg4); iexact Ro4
        isplitl [Ro5]
        · iapply (kept_of_read m c 5 _ hg5); iexact Ro5
        isplitl [Ro6]
        · iapply (kept_of_read m c 6 _ hg6); iexact Ro6
        · iapply (kept_of_read m c 7 _ hg7); iexact Ro7
      · iapply (Entails.of_eq (bigSep_fin8 (fun k : Fin 8 => ((res (peer c) k).view.loc (c : Thread nD τ) ↦[(res (peer c) k).view.set]{fullShare} want m c : sProp 𝕄))).symm)
        isplitl [Ar0_pay1]; · iapply (recv_back m c 0); iexact Ar0_pay1
        isplitl [Ar1_pay1]; · iapply (recv_back m c 1); iexact Ar1_pay1
        isplitl [Ar2_pay1]; · iapply (recv_back m c 2); iexact Ar2_pay1
        isplitl [Ar3_pay1]; · iapply (recv_back m c 3); iexact Ar3_pay1
        isplitl [Ar4_pay1]; · iapply (recv_back m c 4); iexact Ar4_pay1
        isplitl [Ar5_pay1]; · iapply (recv_back m c 5); iexact Ar5_pay1
        isplitl [Ar6_pay1]; · iapply (recv_back m c 6); iexact Ar6_pay1
        iapply (recv_back m c 7); iexact Ar7_pay1
    -- the scratch buffers, at some contents
    isplitl [As0_pay1 As1_pay1 As2_pay1 As3_pay1 As4_pay1 As5_pay1 As6_pay1 As7_pay1 Sl0 Sl1]
    · isplitl [As0_pay1 As1_pay1 As2_pay1 As3_pay1 As4_pay1 As5_pay1 As6_pay1 As7_pay1]
      · iapply (stg_join_ex c)
        iapply (Entails.of_eq (bigSep_fin8 (fun k : Fin 8 => (iprop(∃ f : Buf (Elt F) ((stg k).view.loc (c : Thread nD τ)), ((stg k).view.loc (c : Thread nD τ) ↦[(stg k).view.set]{fullShare} f)) : sProp 𝕄))).symm)
        isplitl [As0_pay1]; · iapply (send_back m c 0); iexact As0_pay1
        isplitl [As1_pay1]; · iapply (send_back m c 1); iexact As1_pay1
        isplitl [As2_pay1]; · iapply (send_back m c 2); iexact As2_pay1
        isplitl [As3_pay1]; · iapply (send_back m c 3); iexact As3_pay1
        isplitl [As4_pay1]; · iapply (send_back m c 4); iexact As4_pay1
        isplitl [As5_pay1]; · iapply (send_back m c 5); iexact As5_pay1
        isplitl [As6_pay1]; · iapply (send_back m c 6); iexact As6_pay1
        iapply (send_back m c 7); iexact As7_pay1
      · iapply (slot_join_ex c)
        isplitl [Sl0]
        · iexists _; iexact Sl0
        · iexists _; iexact Sl1
    -- every DMA semaphore back at zero
    isplitl [Zp0 Zp1 Zp2 Zp3 Zp4 Zp5 Zp6 Zp7 Zi0 Zi1 Zo0 Zo1]
    · isplitl [Zp0 Zp1 Zp2 Zp3 Zp4 Zp5 Zp6 Zp7]
      · iapply (Entails.of_eq (bigSep_fin8 (fun k : Fin 8 => (semVal ((c : Thread nD τ), .dma (packS k).sem) 0 : sProp 𝕄))).symm)
        isplitl [Zp0]; · iexact Zp0
        isplitl [Zp1]; · iexact Zp1
        isplitl [Zp2]; · iexact Zp2
        isplitl [Zp3]; · iexact Zp3
        isplitl [Zp4]; · iexact Zp4
        isplitl [Zp5]; · iexact Zp5
        isplitl [Zp6]; · iexact Zp6
        iexact Zp7
      isplitl [Zi0 Zi1]
      · iapply (Entails.of_eq (bigSep_fin2 (fun s : Fin 2 => (semVal ((c : Thread nD τ), .dma (inS s).sem) 0 : sProp 𝕄))).symm)
        isplitl [Zi0]; · iexact Zi0
        iexact Zi1
      · iapply (Entails.of_eq (bigSep_fin2 (fun s : Fin 2 => (semVal ((c : Thread nD τ), .dma (outS s).sem) 0 : sProp 𝕄))).symm)
        isplitl [Zo0]; · iexact Zo0
        iexact Zo1
    · isplitl [Hzs0 Hzs1 Hzs2 Hzs3 Hzs4 Hzs5 Hzs6 Hzs7]
      · iapply (Entails.of_eq (bigSep_fin8 (fun k : Fin 8 => (semVal (sendCell c k) 0 : sProp 𝕄))).symm)
        isplitl [Hzs0]; · iexact Hzs0
        isplitl [Hzs1]; · iexact Hzs1
        isplitl [Hzs2]; · iexact Hzs2
        isplitl [Hzs3]; · iexact Hzs3
        isplitl [Hzs4]; · iexact Hzs4
        isplitl [Hzs5]; · iexact Hzs5
        isplitl [Hzs6]; · iexact Hzs6
        iexact Hzs7
      · iapply (Entails.of_eq (bigSep_fin8 (fun k : Fin 8 => (semVal (recvCell c k) 0 : sProp 𝕄))).symm)
        isplitl [Hzr0]; · iexact Hzr0
        isplitl [Hzr1]; · iexact Hzr1
        isplitl [Hzr2]; · iexact Hzr2
        isplitl [Hzr3]; · iexact Hzr3
        isplitl [Hzr4]; · iexact Hzr4
        isplitl [Hzr5]; · iexact Hzr5
        isplitl [Hzr6]; · iexact Hzr6
        iexact Hzr7
  · -- nothing owed any more
    rw [show (dats m 0 c).owed t₀.succ = 0 from rfl]
    iexists _
    isplitr
    swap
    · iexact HO
    · ipureintro; exact fun _ _ => Or.inl trivial

/-- info: 'Cert.KernelIdeal.Xchg.sound_body_at' depends on axioms: [propext, Classical.choice, Quot.sound] -/
#guard_msgs in #print axioms sound_body_at

/-- The body does on every device what the launch asks of it. -/
theorem sound_body : SoundBody m := fun c Kt => sound_body_at m c Kt

end Cert.KernelIdeal.Xchg

end
-- ==== Proof.KernelIdeal.Launch.lean ====
/-
  The launch of the exchange: how the machine's launch holdings become what each device's body starts from, and what
  the bodies leave becomes the claim about the final memory.

  At launch every device holds its twenty-eight DMA semaphores and its barrier semaphore at zero, its two arrays as
  launched, and the rights the two copies of the rounds algebra fund. The seventeen cells of each device (barrier,
  eight send, eight receive) are funded at round 0 with one duty token each; their counters go into the cells'
  invariants, all devices at once, because a device's peer pays into them. The tokens are then dealt to the payers:
  a device's barrier token and its eight receive tokens go to its peer, its eight send tokens stay. What the devices
  owe one another at launch is matched by the launch credit: one unit on a device's barrier cell and one chunk's
  credit on each of its receive cells, all owed by its peer.
-/
import proofs.«900643_g7700000000000644_dist_a2a_v7x_xyz2x2x4_y_m8192_n1024_f32_1_alg».proof.Proof.KernelIdeal.State
import Idealize.ShloMosaic.Lib.Pipeline.Launch
import Idealize.ShloMosaic.Lib.Pipeline.Kit
import Idealize.ShloMosaic.Lib.Tactic

noncomputable section

namespace Cert.KernelIdeal.Xchg

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device's own semaphores, grouped as the state groups them -/

/-- The twenty-eight DMA semaphores by use: the local copies' twelve (into staging, into a slot, out of a slot), the
    remote copies' sixteen (send, receive). -/
abbrev OwnIx : Type := (Fin 8 ⊕ (Fin 2 ⊕ Fin 2)) ⊕ (Fin 8 ⊕ Fin 8)

abbrev osem : OwnIx → SemLoc sig
  | .inl (.inl k) => .dma (packS k).sem
  | .inl (.inr (.inl s)) => .dma (inS s).sem
  | .inl (.inr (.inr s)) => .dma (outS s).sem
  | .inr (.inl k) => .dma (sendS k).sem
  | .inr (.inr k) => .dma (recvS k).sem

theorem ownSemFacts : Pipeline.OwnSemFacts cfg0.spec osem := by decide

omit [FloatOps F] in
/-- All of them at zero is the local ones at zero and the remote copies' at zero. -/
theorem ownSems0_eq (c : Dev nD) :
    (Pipeline.ownSems0 (Ix := Unit) (Name := ℕ) (U := UU) (Lvl := ℕ) (Val := Elt F) (τ := τ) osem c : sProp 𝕄)
      = iprop(localSems c ∗ xferSems c) := by
  unfold Pipeline.ownSems0 localSems xferSems
  exact (bigSep_univ_sum _).trans (congrArg₂ BI.sep
    ((bigSep_univ_sum _).trans (congrArg (BI.sep _) (bigSep_univ_sum _))) (bigSep_univ_sum _))

omit [FloatOps F] in
/-- The barrier semaphore is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The seventeen cells of a device, by kind -/

theorem csem_injective : Function.Injective csem := by decide

theorem kcell_injective : Function.Injective (kcell : Dev nD × Fin 17 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl

/-- The indices of a device's cells: the barrier's, the eight send cells', the eight receive cells'. -/
def cix : Unit ⊕ (Fin 8 ⊕ Fin 8) → Fin 17
  | .inl _ => 0
  | .inr (.inl k) => sIx k
  | .inr (.inr k) => rIx k
theorem cix_bijective : Function.Bijective cix := by decide
def cixE : Unit ⊕ (Fin 8 ⊕ Fin 8) ≃ Fin 17 := Equiv.ofBijective cix cix_bijective

omit [FloatOps F] in
theorem bigSep_fin17 (Φ : Fin 17 → sProp 𝕄) :
    bigSep Finset.univ Φ
      = iprop(Φ 0 ∗ (bigSep Finset.univ fun k : Fin 8 => Φ (sIx k)) ∗ (bigSep Finset.univ fun k : Fin 8 => Φ (rIx k))) := by
  rw [bigSep_univ_equiv cixE Φ, bigSep_univ_sum, bigSep_univ_sum, bigSep_univ_of_subsingleton ()]
  rfl

omit [FloatOps F] in
/-- Something held for each of a device's cells is held for its barrier cell, its send cells and its receive cells. -/
theorem bigSep_cells (c : Dev nD) (Ψ : GSem nD τ sig → sProp 𝕄) :
    (bigSep Finset.univ fun j : Fin 17 => Ψ (kcell (c, j)))
      = iprop(Ψ (barCell c) ∗ (bigSep Finset.univ fun k : Fin 8 => Ψ (sendCell c k)) ∗ (bigSep Finset.univ fun k : Fin 8 => Ψ (recvCell c k))) := by
  refine (bigSep_fin17 (fun j => Ψ (kcell (c, j)))).trans ?_
  show iprop(Ψ (kcell (c, 0)) ∗ (bigSep Finset.univ fun k : Fin 8 => Ψ (kcell (c, sIx k))) ∗ (bigSep Finset.univ fun k : Fin 8 => Ψ (kcell (c, rIx k)))) = _
  rw [show (fun k : Fin 8 => Ψ (kcell (c, sIx k))) = fun k => Ψ (sendCell c k) from funext fun k => congrArg Ψ (kcell_send c k),
    show (fun k : Fin 8 => Ψ (kcell (c, rIx k))) = fun k => Ψ (recvCell c k) from funext fun k => congrArg Ψ (kcell_recv c k)]
  rfl

/-! ## Funding the cells -/

def ringCells : Finset (GSem nD τ sig) := Finset.univ.map ⟨kcell, kcell_injective⟩

/-- One duty token a cell: the one duty of its one round. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), (initOf ringCells ringToks, 1))

/-- What the launch element deals device `c`: each of its cells' round state at counter zero, its position at round 0
    of each with the fact that the round is reached, and each cell's duty token. -/
def G (c : Dev nD) : sProp 𝕄 :=
  iprop((bigSep Finset.univ fun j : Fin 17 => roundState ER (sched m) (kcell (c, j)) 0)
    ∗ (bigSep Finset.univ fun j : Fin 17 => iprop(atPos ER (kcell (c, j)) 0 ∅ 0 ∗ reached ER (kcell (c, j)) 0))
    ∗ (bigSep Finset.univ fun j : Fin 17 => dutyTok ER (kcell (c, j)) 0 ()))

/-- What the global step makes of it: the ghost state the body starts from, and the local copies' semaphores. -/
def G' (c : Dev nD) : sProp 𝕄 := iprop((∃ K, ghost m K c) ∗ localSems c)

omit [FloatOps F] in
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Fin 17 => dutyTok ER (kcell (c, j)) 0 () := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The seventeen counters of a device's cells: its remote copies' sixteen and its barrier's. -/
theorem sems0_eq (c : Dev nD) :
    iprop(xferSems c ∗ semVal (barCell c) 0) ⊢ (bigSep Finset.univ fun j : Fin 17 => semVal (kcell (c, j)) 0 : sProp 𝕄) := by
  rw [bigSep_cells c fun g => semVal g 0]
  unfold xferSems
  iintro ⟨⟨HS, HV⟩, HB⟩
  isplitl [HB]; · iexact HB
  isplitl [HS] <;> iassumption

omit [FloatOps F] in
/-- A device's counters at zero and its cells' round states make the cells' invariants; the local copies' semaphores stay. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 17 => iprop(∃ κ : ℕ, cellInv ER (sched m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ())
          ∗ localSems c) := by
  unfold G
  rw [ownSems0_eq, unscopedSems0_eq]
  iintro ⟨⟨Hloc, Hx⟩, Hus, Hst, Hat, Htok⟩
  ihave Hv := (sems0_eq (F := F) c) $$ [Hx Hus]
  · isplitl [Hx] <;> iassumption
  imod (show iprop((bigSep Finset.univ fun j : Fin 17 => semVal (kcell (c, j)) 0) ∗ bigSep Finset.univ fun j : Fin 17 => roundState ER (sched m) (kcell (c, j)) 0)
      ⊢ (|={Set.univ}=> bigSep Finset.univ fun j : Fin 17 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## Dealing the tokens; the ghost state of every device -/

omit [FloatOps F] in
/-- A device's barrier token and its receive tokens go to its peer, which pays those duties; its send tokens stay. -/
theorem toks_around :
    (bigSep Finset.univ fun c : Dev nD => bigSep Finset.univ fun j : Fin 17 => (dutyTok ER (kcell (c, j)) 0 () : sProp 𝕄))
      ⊢ bigSep Finset.univ fun c : Dev nD => payToks c := by
  unfold payToks
  rw [bigSep_congr (s := Finset.univ) (fun (c : Dev nD) _ => bigSep_cells c fun g => (dutyTok ER g 0 () : sProp 𝕄)),
    bigSep_sep', bigSep_sep', bigSep_sep', bigSep_sep',
    bigSep_univ_equiv swap (fun c : Dev nD => (dutyTok ER (barCell c) 0 () : sProp 𝕄)),
    bigSep_univ_equiv swap (fun c : Dev nD => bigSep Finset.univ fun k : Fin 8 => (dutyTok ER (recvCell c k) 0 () : sProp 𝕄))]
  iintro ⟨H1, H2, H3⟩
  isplitl [H1]; · iexact H1
  isplitl [H3]; · iexact H3
  iexact H2

omit [FloatOps F] in
theorem ghost_intro (K : Dev nD × Fin 17 → ℕ) (c : Dev nD) :
    iprop(records m K ∗ (positions c ∗ payToks c ∗ localSems c)) ⊢ G' m c := by
  unfold G' ghost
  iintro ⟨#HR, Hp, Ht, Hl⟩
  isplitr [Hl]
  · iexists K
    isplitr; · iexact HR
    isplitl [Hp] <;> iassumption
  · iexact Hl

omit [FloatOps F] in
theorem regroup :
    (bigSep Finset.univ fun c : Dev nD => iprop((bigSep Finset.univ fun j : Fin 17 => iprop(∃ κ : ℕ, cellInv ER (sched m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ())
          ∗ localSems c) : sProp 𝕄)
      ⊢ bigSep Finset.univ (G' m) := by
  rw [bigSep_sep', bigSep_sep', bigSep_sep',
    ← bigSep_univ_prod (fun ck : Dev nD × Fin 17 => iprop(∃ κ : ℕ, cellInv ER (sched m) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  have hpos : (bigSep Finset.univ fun c : Dev nD => iprop(positions c ∗ payToks c ∗ localSems c) : sProp 𝕄)
      = iprop((bigSep Finset.univ fun c : Dev nD => bigSep Finset.univ fun j : Fin 17 => (atPos ER (kcell (c, j)) 0 ∅ 0 : sProp 𝕄))
          ∗ bigSep Finset.univ payToks ∗ bigSep Finset.univ localSems) := by
    rw [bigSep_sep', bigSep_sep']
    exact congrArg (fun X : sProp 𝕄 => iprop(X ∗ bigSep Finset.univ payToks ∗ bigSep Finset.univ localSems))
      (bigSep_congr fun c _ => (bigSep_cells c fun g => (atPos ER g 0 ∅ 0 : sProp 𝕄)).symm)
  iintro ⟨HI, ⟨Hat, #HR⟩, Htok, Hloc⟩
  ihave HK := (BI.bigSep_exists_pi Finset.univ (fun (ck : Dev nD × Fin 17) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · rw [hpos]
    isplitl [Hat]; · iexact Hat
    isplitl [Htk]; · iexact Htk
    iexact Hloc

omit [FloatOps F] in
/-- The global step: the own and the unscoped semaphores of every device at once. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## The launch credit -/

omit [FloatOps F] in
theorem owedFrom_peel (c : Dev nD) (j : ℕ) (h : j < 8) :
    owedFrom c j = owedFrom c (j + 1) + tallyAt (recvCell (peer c) ⟨j, h⟩) () N := by
  rw [owedFrom, dif_pos h]
omit [FloatOps F] in
theorem owedFrom_eight (c : Dev nD) : owedFrom c 8 = 0 := by
  rw [owedFrom, dif_neg (by omega)]

omit [FloatOps F] in
/-- What a device owes its peer's receive cells at launch: a chunk's credit to each. -/
theorem owedFrom_zero (c : Dev nD) : owedFrom c 0 = ∑ k : Fin 8, tallyAt (recvCell (peer c) k) () N := by
  rw [owedFrom_peel c 0 (by omega), owedFrom_peel c 1 (by omega), owedFrom_peel c 2 (by omega), owedFrom_peel c 3 (by omega),
    owedFrom_peel c 4 (by omega), owedFrom_peel c 5 (by omega), owedFrom_peel c 6 (by omega), owedFrom_peel c 7 (by omega),
    owedFrom_eight, Fin.sum_univ_eight, zero_add]
  show tallyAt (recvCell (peer c) 7) () N + tallyAt (recvCell (peer c) 6) () N + tallyAt (recvCell (peer c) 5) () N
      + tallyAt (recvCell (peer c) 4) () N + tallyAt (recvCell (peer c) 3) () N + tallyAt (recvCell (peer c) 2) () N
      + tallyAt (recvCell (peer c) 1) () N + tallyAt (recvCell (peer c) 0) () N = _
  ac_rfl

omit [FloatOps F] in
/-- The launch credit of a device: what its peer owes its cells — a unit on its barrier cell, a chunk's credit on each
    receive cell. -/
theorem creds_intro (c : Dev nD) : (Pipeline.launchCred O₀ c : sProp 𝕄) ⊢ creds c := by
  have hO : (O₀ : Dev nD → CellTallies nD τ sig Unit)
      = fun d => (∑ k : Fin 8, tallyAt (recvCell (peer d) k) () N) + tallyAt (barCell (peer d)) () 1 :=
    funext fun d => by unfold O₀; rw [owedFrom_zero]
  rw [hO, Pipeline.launchCred_add (fun d => ∑ k : Fin 8, tallyAt (recvCell (peer d) k) () N) (fun d => tallyAt (barCell (peer d)) () 1) c,
    Pipeline.launchCred_sum Finset.univ (fun (k : Fin 8) (d : Dev nD) => tallyAt (recvCell (peer d) k) () N) c]
  unfold creds
  iintro ⟨HN, H1⟩
  isplitl [H1]
  · iapply (Pipeline.launchCred_tallyAt (SemLoc.reg barS) peer peer peer_peer peer_peer () 1 c); iexact H1
  · iapply (show (bigSep Finset.univ fun k : Fin 8 => Pipeline.launchCred (fun d : Dev nD => tallyAt (recvCell (peer d) k) () N) c : sProp 𝕄)
        ⊢ bigSep Finset.univ fun k : Fin 8 => cred (tallyAt (recvCell c k) () N) from
      bigSep_mono fun (k : Fin 8) _ => Pipeline.launchCred_tallyAt (SemLoc.dma (recvS k).sem) peer peer peer_peer peer_peer () N c)
    iexact HN

/-! ## The launch theorem's side conditions -/

/-- What a device holds between the launch and the first point, besides the scoped buffers: the start and its two arrays. -/
def X (c : Dev nD) : sProp 𝕄 :=
  iprop(start m c ∗ (((c : Thread nD τ).loc main_arg0) ↦{fullShare} xAt m c)
    ∗ (((c : Thread nD τ).loc main_v1) ↦{fullShare} m ((c : Thread nD τ).loc main_v1)))
/-- What it holds of its arrays after the last point. -/
def Y (c : Dev nD) : sProp 𝕄 :=
  iprop((((c : Thread nD τ).loc main_arg0) ↦{fullShare} xAt m c) ∗ (((c : Thread nD τ).loc main_v1) ↦{fullShare} want m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Hv⟩, Hlev, Hcr, -, Hg, Hloc⟩
  ihave Hc := (creds_intro (F := F) c) $$ Hcr
  imodintro
  unfold X start
  isplitl
  · isplitl [Hg Hc Hlev Hloc]
    · isplitl [Hg]; · iexact Hg
      isplitl [Hc]; · iexact Hc
      isplitl [Hlev]; · iexact Hlev
      iexact Hloc
    isplitl [Hx]; · iexact Hx
    iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scratch
  iintro ⟨⟨Hs, Hx, Hv⟩, -, Hr⟩
  isplitl [Hs]; · iexact Hs
  isplitl [Hx]; · iexact Hx
  isplitl [Hv]; · iexact Hv
  iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  iintro ⟨Hx, Hv, Hr, Hl, Hxf⟩
  isplitl [Hx Hv]
  · isplitl [Hx] <;> iassumption
  isplitl [Hl Hxf]
  · isplitl [Hl] <;> iassumption
  iexact Hr

/-- No staged window: the pipeline itself waits on nothing. -/
theorem waits (c : Dev nD) : (levAts L lv : sProp 𝕄) ⊢ Pipeline.cellsWaits cfgs (dats m) () 0 c :=
  Pipeline.cellsWaits_intro cfgs (dats m) () 0 c fun w _ _ => w.elim0

/-- The body obligation of the one point, from the body's own statement: no window, so nothing staged is handed over. -/
theorem body_obligation (hbody : SoundBody m) (c : Dev nD) :
    BodyObligation (dats (F := F) m 0 c) (defs₀ (F := F)) 𝒱₀ () Set.univ := fun t => by
  rw [fin_N t]
  have hW (Φ : Fin cfg0.W → sProp 𝕄) : bigSep Finset.univ Φ = iprop(emp) := rfl
  rw [hW, hW]
  show iprop(Φ₀ m c ∗ (dats m 0 c).owesAt () t₀.castSucc ∗ emp)
    ⊢ wp frame (wpE (defs₀ (F := F)) 𝒱₀ c none) Set.univ (theBody (F := F))
        (fun _ => iprop(Φ₁ m c ∗ (dats m 0 c).owesAt () t₀.succ ∗ emp))
  iintro ⟨HΦ, HO, -⟩
  iapply (hbody c fun _ => iprop(Φ₁ m c ∗ (dats m 0 c).owesAt () t₀.succ ∗ emp))
  unfold bodyPre bodyPost
  isplitl [HΦ HO]
  · isplitl [HΦ] <;> iassumption
  · iintro ⟨H1, H2⟩
    isplitl [H1]; · iexact H1
    isplitl [H2]; · iexact H2
    iempintro

/-! ## The run -/

/-- What the final memory of a device must read: its result exchanged, its input as launched. -/
def QY (c : Dev nD) (s : MemSt nD τ sig (Elt F)) : Prop :=
  s.mem ((c : Thread nD τ).loc main_v1) = want m c ∧ s.mem ((c : Thread nD τ).loc main_arg0) = xAt m c

set_option maxRecDepth 8000 in
/-- At the compiled mesh of sixteen devices, for any float values, from any memory with zero counters: given that each
    device's body runs from its start to its end state, every weakly fair execution of @main — each device signalling
    its peer's barrier semaphore, exchanging eight chunks with it and moving its own eight — terminates, and every final
    state has each device's result array at the exchanged contents and its input unchanged. -/
theorem run_main (hbody : SoundBody m) :
    θ_run (defs (F := F)) (onTc (τ := τ) (main (F := F))) ⟨m, fun _ => 0, ρ⟩
      (fun r => ∀ c : Dev nD,
        r.2.mem ((c.tc : Thread nD τ).loc main_v1) = want m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m hbody c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_ring m) $$ HR with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := QY m)
    (hY := fun c s' => by
      unfold Y
      iintro ⟨⟨Hx, Hv⟩, -, HSI⟩
      icombine HSI Hx gives %hx
      icombine HSI Hv gives %hv
      imodintro
      isplitr; · ipureintro; exact ⟨Buf.eq_of_forall_mem_univ hv, Buf.eq_of_forall_mem_univ hx⟩
      iexact HSI)
    (hQ := fun _ h c => (h c).2.2)

/-- info: 'Cert.KernelIdeal.Xchg.run_main' depends on axioms: [propext, Classical.choice, Quot.sound] -/
#guard_msgs in #print axioms run_main

end Cert.KernelIdeal.Xchg

end
-- ==== Proof.Kernel.Exchange.lean ====
/-
  The exchange on the mesh's `y` axis, as mathematics.

  Sixteen devices sit on a 2 × 2 × 4 mesh; device `c` has `y` coordinate `(c / 4) % 2` and its PEER is the device
  at the other `y` coordinate and the same `x` and `z`. Each device holds an 8192 × 2048 block `x` (its half of
  the rows of the whole 16384 × 2048 array) and must end holding a 16384 × 1024 block (its half of the COLUMNS of the
  whole array). So the rows `[8192 y, 8192 y + 8192)` of its result are its own block's columns
  `[1024 y, 1024 y + 1024)`, and the other 8192 rows are the same columns of its peer's block. The kernel moves both
  in eight chunks of 1024 rows: its own columns through a two-slot buffer, its peer's half of ITS block through a
  staging buffer and eight remote copies into the peer's result.

  This file names the chunks (the slices of the four buffers the copies go through, each spelt through the printed
  offset functions so that a printed slice is an instance by unfolding) and states the result as ONE function of the
  two devices' blocks.
-/
import proofs.«900643_g7700000000000644_dist_a2a_v7x_xyz2x2x4_y_m8192_n1024_f32_1_alg».proof.Proof.Gen.Kernel
import Idealize.ShloMosaic.Lib.Pipeline.Kit

noncomputable section

namespace Cert.Kernel.Xchg

open Cert.Kernel Cert.Kernel.Gen
open Idealize.ShloMosaic Idealize.ShloMosaic.TcCoe Idealize.SL.Sem

variable {F : FTy → Type} [FloatOps F]

/-! ## The `y` coordinate and the peer -/

/-- The device's coordinate on the mesh's `y` axis. -/
def yOf (c : Dev nD) : Nat := (c.val / 4) % 2

/-- The device at the other `y` coordinate, same `x` and `z`. -/
def peer (c : Dev nD) : Dev nD :=
  ⟨(8 * (c.val / 8) + (c.val % 4) + 4) - 4 * ((c.val / 4) % 2), by have := c.isLt; revert this; generalize c.val = v; decide +revert⟩

theorem peer_peer (c : Dev nD) : peer (peer c) = c := by revert c; decide
theorem peer_ne (c : Dev nD) : peer c ≠ c := by revert c; decide
theorem yOf_lt (c : Dev nD) : yOf c < 2 := Nat.mod_lt _ (by decide)
theorem yOf_peer (c : Dev nD) : yOf (peer c) = 1 - yOf c := by revert c; decide

/-- The swap of the two `y` coordinates, as a permutation of the devices. -/
def swap : Dev nD ≃ Dev nD := ⟨peer, peer, peer_peer, peer_peer⟩

/-- Every device the kernel addresses — the barrier signal's and the eight remote copies' — is the peer. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)
theorem dev6_eq (c : Dev nD) : (⟨k0_dev6 c, k0_dev6_lt c⟩ : Dev nD) = peer c := Fin.ext (k0_dev6_eq c)
theorem dev7_eq (c : Dev nD) : (⟨k0_dev7 c, k0_dev7_lt c⟩ : Dev nD) = peer c := Fin.ext (k0_dev7_eq c)
theorem dev8_eq (c : Dev nD) : (⟨k0_dev8 c, k0_dev8_lt c⟩ : Dev nD) = peer c := Fin.ext (k0_dev8_eq c)
theorem dev9_eq (c : Dev nD) : (⟨k0_dev9 c, k0_dev9_lt c⟩ : Dev nD) = peer c := Fin.ext (k0_dev9_eq c)

/-! ## The chunks

Chunk `k` (of eight) is 1024 rows. Four families of 1024 × 1024 slices:
* `xFar c k`: rows `[1024 k, 1024 k + 1024)` of the device's block, the PEER's columns — what goes to the peer;
* `xOwn c k`: the same rows, the device's own columns — what stays;
* `stg k`: the same rows of the staging buffer;
* `res c k`: rows `[8192 (yOf c) + 1024 k, …)` of a result array — on device `c` itself where chunk `k` of its own
  columns goes, on `peer c` where chunk `k` of the far columns lands. -/

/-- The offsets of the far-columns chunks, as the kernel computes them. -/
def farOff (c : Dev nD) : Fin 8 → (Fin 2 → Nat)
  | ⟨0, _⟩ => k0_off1 c | ⟨1, _⟩ => k0_off2 c | ⟨2, _⟩ => k0_off3 c | ⟨3, _⟩ => k0_off4 c
  | ⟨4, _⟩ => k0_off5 c | ⟨5, _⟩ => k0_off6 c | ⟨6, _⟩ => k0_off7 c | ⟨7, _⟩ => k0_off8 c
  | ⟨_ + 8, h⟩ => absurd h (by omega)
theorem farOff_inb (c : Dev nD) : ∀ (k : Fin 8) a, farOff c k a + S1024x1024.size a ≤ S8192x2048.size a
  | ⟨0, _⟩ => k0_off1_inb c | ⟨1, _⟩ => k0_off2_inb c | ⟨2, _⟩ => k0_off3_inb c | ⟨3, _⟩ => k0_off4_inb c
  | ⟨4, _⟩ => k0_off5_inb c | ⟨5, _⟩ => k0_off6_inb c | ⟨6, _⟩ => k0_off7_inb c | ⟨7, _⟩ => k0_off8_inb c
  | ⟨_ + 8, h⟩ => absurd h (by omega)
theorem farOff_eq (c : Dev nD) : ∀ k : Fin 8, farOff c k = ![1024 * k.val, 1024 - 1024 * yOf c]
  | ⟨0, _⟩ => k0_off1_eq c | ⟨1, _⟩ => k0_off2_eq c | ⟨2, _⟩ => k0_off3_eq c | ⟨3, _⟩ => k0_off4_eq c
  | ⟨4, _⟩ => k0_off5_eq c | ⟨5, _⟩ => k0_off6_eq c | ⟨6, _⟩ => k0_off7_eq c | ⟨7, _⟩ => k0_off8_eq c
  | ⟨_ + 8, h⟩ => absurd h (by omega)

/-- The offsets of the own-columns chunks, as the kernel computes them. -/
def ownOff (c : Dev nD) : Fin 8 → (Fin 2 → Nat)
  | ⟨0, _⟩ => k0_off10 c | ⟨1, _⟩ => k0_off11 c | ⟨2, _⟩ => k0_off12 c | ⟨3, _⟩ => k0_off13 c
  | ⟨4, _⟩ => k0_off14 c | ⟨5, _⟩ => k0_off15 c | ⟨6, _⟩ => k0_off16 c | ⟨7, _⟩ => k0_off17 c
  | ⟨_ + 8, h⟩ => absurd h (by omega)
theorem ownOff_inb (c : Dev nD) : ∀ (k : Fin 8) a, ownOff c k a + S1024x1024.size a ≤ S8192x2048.size a
  | ⟨0, _⟩ => k0_off10_inb c | ⟨1, _⟩ => k0_off11_inb c | ⟨2, _⟩ => k0_off12_inb c | ⟨3, _⟩ => k0_off13_inb c
  | ⟨4, _⟩ => k0_off14_inb c | ⟨5, _⟩ => k0_off15_inb c | ⟨6, _⟩ => k0_off16_inb c | ⟨7, _⟩ => k0_off17_inb c
  | ⟨_ + 8, h⟩ => absurd h (by omega)
theorem ownOff_eq (c : Dev nD) : ∀ k : Fin 8, ownOff c k = ![1024 * k.val, 1024 * yOf c]
  | ⟨0, _⟩ => k0_off10_eq c | ⟨1, _⟩ => k0_off11_eq c | ⟨2, _⟩ => k0_off12_eq c | ⟨3, _⟩ => k0_off13_eq c
  | ⟨4, _⟩ => k0_off14_eq c | ⟨5, _⟩ => k0_off15_eq c | ⟨6, _⟩ => k0_off16_eq c | ⟨7, _⟩ => k0_off17_eq c
  | ⟨_ + 8, h⟩ => absurd h (by omega)

/-- The offsets of the result's chunks, as the kernel computes them: rows `8192 (yOf c) + 1024 k`. -/
def resOff (c : Dev nD) (k : Fin 8) : Fin 2 → Nat := k0_off9 c (BitVec.ofNat 32 (1024 * k.val))
theorem resOff_inb (c : Dev nD) (k : Fin 8) : ∀ a, resOff c k a + S1024x1024.size a ≤ S16384x1024.size a := k0_off9_inb c k
theorem resOff_eq (c : Dev nD) (k : Fin 8) : resOff c k = ![8192 * yOf c + 1024 * k.val, 0] := k0_off9_eq c k

/-- The staging buffer's chunk offsets. -/
def stgOff (k : Fin 8) : Fin 2 → Nat := ![1024 * k.val, 0]
theorem stgOff_inb : ∀ (k : Fin 8) a, stgOff k a + S1024x1024.size a ≤ S8192x1024.size a := by decide

abbrev xFar (c : Dev nD) (k : Fin 8) : Memref sig .tc .hbm S1024x1024 .f32 :=
  (Memref.whole main_arg0).slice (Rect.unit (s := S8192x2048) (farOff c k) S1024x1024.size (farOff_inb c k)) (fun _ => rfl)
abbrev xOwn (c : Dev nD) (k : Fin 8) : Memref sig .tc .hbm S1024x1024 .f32 :=
  (Memref.whole main_arg0).slice (Rect.unit (s := S8192x2048) (ownOff c k) S1024x1024.size (ownOff_inb c k)) (fun _ => rfl)
abbrev stg (k : Fin 8) : Memref sig .tc .vmem S1024x1024 .f32 :=
  (Memref.whole cc0_scratch0).slice (Rect.unit (s := S8192x1024) (stgOff k) S1024x1024.size (stgOff_inb k)) (fun _ => rfl)
abbrev res (c : Dev nD) (k : Fin 8) : Memref sig .tc .hbm S1024x1024 .f32 :=
  (Memref.whole main_v1).slice (Rect.unit (s := S16384x1024) (resOff c k) S1024x1024.size (resOff_inb c k)) (fun _ => rfl)

/-- The two slots of the local buffer. -/
def slotOff (s : Fin 2) : Fin 3 → Nat := ![s.val, 0, 0]
theorem slotOff_inb : ∀ (s : Fin 2) a, slotOff s a + S1x1024x1024.size a ≤ S2x1024x1024.size a := by decide
abbrev slot (s : Fin 2) : Memref sig .tc .vmem S1024x1024 .f32 :=
  ((Memref.whole cc0_scratch1).slice (Rect.unit (s := S2x1024x1024) (slotOff s) S1x1024x1024.size (slotOff_inb s)) (fun _ => rfl)).squeeze S1024x1024
    squeezes_S1x1024x1024_S1024x1024

/-! ## The result -/

/-- An index of the device's 8192 × 2048 block. -/
def ixX (r j : Nat) (hr : r < 8192) (hj : j < 2048) : S8192x2048.Idx := fun a =>
  match a with
  | ⟨0, _⟩ => ⟨r, hr⟩
  | ⟨1, _⟩ => ⟨j, hj⟩

/-- What device `c`'s result array must hold, as a function of its own block `xc` and its peer's `xp`: at row `r`,
    column `j`, column `1024 (yOf c) + j` of row `r % 8192` — of its own block when `r` lies in its own half of the
    rows, of the peer's otherwise. -/
def exchanged (c : Dev nD) (xc xp : S8192x2048.Idx → Elt F .f32) : S16384x1024.Idx → Elt F .f32 := fun i =>
  have hr : (i 0).val % 8192 < 8192 := Nat.mod_lt _ (by decide)
  have hj : 1024 * yOf c + (i 1).val < 2048 := by
    have h1 := (i 1).isLt; have h2 := yOf_lt c
    have : S16384x1024.size 1 = 1024 := rfl
    omega
  if (i 0).val / 8192 = yOf c then xc (ixX ((i 0).val % 8192) (1024 * yOf c + (i 1).val) hr hj)
  else xp (ixX ((i 0).val % 8192) (1024 * yOf c + (i 1).val) hr hj)

end Cert.Kernel.Xchg

end
-- ==== Proof.Kernel.Protocol.lean ====
/-
  The protocol of the exchange: which semaphore is waited by whom, paid by whom, with how much, and what each payment
  hands over.

  Per device `c`, with `p = peer c`, seventeen cells other devices or the DMA engine pay:
  * its BARRIER semaphore (the runtime's, one unit): paid by `p`'s entry signal. With it `p` hands `c` the eight
    chunks of `p`'s result array that `c`'s remote copies will write — the half of the rows `p` never writes itself;
  * its eight SEND semaphores: chunk `k`'s is paid when the engine has read staging chunk `k`, which comes back;
  * its eight RECEIVE semaphores: chunk `k`'s is paid by `p`'s remote copy `k` landing in `c`'s result array, which
    hands `c` that chunk of its result holding what the result must hold there.
  One round each, one duty a round. A device owes, from launch, one barrier unit and eight chunks' credit to its
  peer; it waits on its barrier (level 1) while it owes only receive credit (level 2), and on everything else owing
  nothing that lies at or below, so no wait can be part of a cycle.
-/
import proofs.«900643_g7700000000000644_dist_a2a_v7x_xyz2x2x4_y_m8192_n1024_f32_1_alg».proof.Proof.Kernel.Exchange
import proofs.«900643_g7700000000000644_dist_a2a_v7x_xyz2x2x4_y_m8192_n1024_f32_1_alg».proof.Proof.Gen.Kernel.Skeleton
import proofs.«900643_g7700000000000644_dist_a2a_v7x_xyz2x2x4_y_m8192_n1024_f32_1_alg».proof.Proof.Gen.Kernel.Launch
import proofs.«900643_g7700000000000644_dist_a2a_v7x_xyz2x2x4_y_m8192_n1024_f32_1_alg».proof.Proof.Gen.Kernel.Points
import proofs.«900643_g7700000000000644_dist_a2a_v7x_xyz2x2x4_y_m8192_n1024_f32_1_alg».proof.Proof.Gen.Kernel.Frame
import Idealize.ShloMosaic.Lib.Pipeline.Launch
import Idealize.ShloMosaic.Lib.Pipeline.Kit
import Idealize.ShloMosaic.Lib.Transfers
import Idealize.ShloMosaic.Lib.Tactic

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the exchange's own copy, the local transfers' counters -/

abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) :=
  (Emb.inl : Emb (UR sig nD τ) (UR sig nD τ × Counters)).trans embR

variable (m : (ℓ : Loc nD τ sig) → Buf (Elt F) ℓ) (ρ : Dev nD → PrngReg)

/-! ## The semaphores and the cells -/

def chOff (k : Fin 8) : Fin 1 → Nat := ![k.val]
theorem chOff_inb : ∀ (k : Fin 8) a, chOff k a + S1.size a ≤ S8.size a := by decide
def slOff (s : Fin 2) : Fin 1 → Nat := ![s.val]
theorem slOff_inb : ∀ (s : Fin 2) a, slOff s a + S1.size a ≤ S2.size a := by decide

/-- The DMA semaphores of the local copies: into a slot, out of a slot, into staging chunk `k`. -/
abbrev inS (s : Fin 2) : DmaSems sig S_ := (cc0_scratch2.slice (Rect.unit (s := S2) (slOff s) S1.size (slOff_inb s))).squeeze S_ squeezes_S1_S_
abbrev outS (s : Fin 2) : DmaSems sig S_ := (cc0_scratch3.slice (Rect.unit (s := S2) (slOff s) S1.size (slOff_inb s))).squeeze S_ squeezes_S1_S_
abbrev packS (k : Fin 8) : DmaSems sig S_ := (cc0_scratch4.slice (Rect.unit (s := S8) (chOff k) S1.size (chOff_inb k))).squeeze S_ squeezes_S1_S_
/-- The send and receive semaphores of remote copy `k`. -/
abbrev sendS (k : Fin 8) : DmaSems sig S_ := (cc0_scratch5.slice (Rect.unit (s := S8) (chOff k) S1.size (chOff_inb k))).squeeze S_ squeezes_S1_S_
abbrev recvS (k : Fin 8) : DmaSems sig S_ := (cc0_scratch6.slice (Rect.unit (s := S8) (chOff k) S1.size (chOff_inb k))).squeeze S_ squeezes_S1_S_
/-- The runtime's barrier semaphore of the kernel's collective id. -/
abbrev barS : Sem sig := (SemArray.scalar (sig.barrier 0 rfl) : Sems sig S_).sem

theorem sendS_val (k : Fin 8) : (sendS k).sem.val = 12 + k.val := by fin_cases k <;> rfl
theorem recvS_val (k : Fin 8) : (recvS k).sem.val = 20 + k.val := by fin_cases k <;> rfl

abbrev barCell (c : Dev nD) : GSem nD τ sig := ((c : Thread nD τ), .reg barS)
abbrev sendCell (c : Dev nD) (k : Fin 8) : GSem nD τ sig := ((c : Thread nD τ), .dma (sendS k).sem)
abbrev recvCell (c : Dev nD) (k : Fin 8) : GSem nD τ sig := ((c : Thread nD τ), .dma (recvS k).sem)

/-- A chunk's credit: what one 1024 × 1024 f32 copy pays. -/
abbrev N : ℕ := (stg 0).view.dmaCredit
theorem N_pos : 0 < N := View.dmaCredit_pos _ (by decide)

/-! ## Contents -/

/-- Device `c`'s block of the input, as launched. -/
abbrev xAt (c : Dev nD) : Buf (Elt F) ((c : Thread nD τ).loc main_arg0) := m ((c : Thread nD τ).loc main_arg0)

/-- What device `c`'s result array must end holding. -/
def want (c : Dev nD) : Buf (Elt F) ((c : Thread nD τ).loc main_v1) := exchanged c (xAt m c) (xAt m (peer c))

/-- Chunk `k` of a result array on device `d`, as device `c` addresses it (`d = c`: its own columns; `d = peer c`: what it sends). -/
def resPts (c d : Dev nD) (k : Fin 8) (f : Buf (Elt F) ((res c k).view.loc (d : Thread nD τ))) : sProp 𝕄 :=
  (res c k).view.loc (d : Thread nD τ) ↦[(res c k).view.set]{fullShare} f
/-- Staging chunk `k`. -/
def stgPts (c : Dev nD) (k : Fin 8) (f : Buf (Elt F) ((stg k).view.loc (c : Thread nD τ))) : sProp 𝕄 :=
  (stg k).view.loc (c : Thread nD τ) ↦[(stg k).view.set]{fullShare} f

instance resPts_storable (c d : Dev nD) (k : Fin 8) (f) : BI.Storable (upEmb : UEmb _ 𝕄) (resPts (F := F) c d k f) := by unfold resPts; infer_instance
instance stgPts_storable (c : Dev nD) (k : Fin 8) (f) : BI.Storable (upEmb : UEmb _ 𝕄) (stgPts (F := F) c k f) := by unfold stgPts; infer_instance

/-! ## The schedule -/

/-- The peer's entry signal hands `c` the eight chunks of the peer's result array that `c` will write. -/
def barPay (c : Dev nD) : sProp 𝕄 := bigSep Finset.univ fun k : Fin 8 => iprop(∃ f, resPts c (peer c) k f)
/-- The send semaphore's payment returns staging chunk `k`. -/
def sendPay (c : Dev nD) (k : Fin 8) : sProp 𝕄 := iprop(∃ f, stgPts c k f)
/-- The peer's remote copy `k` hands `c` that chunk of its own result, holding what the result must hold. -/
def recvPay (c : Dev nD) (k : Fin 8) : sProp 𝕄 := resPts (peer c) c k (want m c)

/-- The cells of the exchange, by their semaphore: the barrier, a send (DMA semaphores 12–19), a receive (20–27). -/
abbrev IsBar (g : GSem nD τ sig) : Prop := g.1.2 = .tc ∧ g.2 = .reg barS
abbrev IsSend (g : GSem nD τ sig) : Prop := g.1.2 = .tc ∧ ∃ q : DmaSem sig, g.2 = .dma q ∧ 12 ≤ q.val ∧ q.val < 20
abbrev IsRecv (g : GSem nD τ sig) : Prop := g.1.2 = .tc ∧ ∃ q : DmaSem sig, g.2 = .dma q ∧ 20 ≤ q.val ∧ q.val < 28

/-- The payload by the semaphore. -/
def payOf (c : Dev nD) : SemLoc sig → sProp 𝕄
  | .reg s => if s = barS then barPay c else iprop(emp)
  | .dma q =>
    if h : 12 ≤ q.val ∧ q.val < 20 then sendPay c ⟨q.val - 12, by omega⟩
    else if h : 20 ≤ q.val ∧ q.val < 28 then recvPay m c ⟨q.val - 20, by omega⟩
    else iprop(emp)

instance : DecidablePred IsSend := fun g => by
  unfold IsSend
  refine @instDecidableAnd _ _ _ ?_
  cases g.2 with
  | reg s => exact isFalse (by rintro ⟨q, h, _⟩; cases h)
  | dma q =>
    by_cases h : 12 ≤ q.val ∧ q.val < 20
    · exact isTrue ⟨q, rfl, h⟩
    · exact isFalse (by rintro ⟨q', hq, h'⟩; cases hq; exact h h')
instance : DecidablePred IsRecv := fun g => by
  unfold IsRecv
  refine @instDecidableAnd _ _ _ ?_
  cases g.2 with
  | reg s => exact isFalse (by rintro ⟨q, h, _⟩; cases h)
  | dma q =>
    by_cases h : 20 ≤ q.val ∧ q.val < 28
    · exact isTrue ⟨q, rfl, h⟩
    · exact isFalse (by rintro ⟨q', hq, h'⟩; cases hq; exact h h')

/-- One round, round 0; every cell one duty: a barrier cell one unit, a send or receive cell one chunk's credit. -/
def sched : Rounds.Schedule (GSem nD τ sig) Unit 𝕄 where
  duties g r := if r = 0 ∧ (IsBar g ∨ IsSend g ∨ IsRecv g) then {()} else ∅
  amount g _ _ := if g.2 = .reg barS then 1 else N
  payload g _ _ := payOf m g.1.1 g.2
  amount_pos g _ _ _ := by
    by_cases h : g.2 = .reg barS
    · rw [if_pos h]; exact Nat.one_pos
    · rw [if_neg h]; exact N_pos

instance sched_payload_storable (g : GSem nD τ sig) (r : ℕ) (d : Unit) :
    BI.Storable (upEmb : UEmb _ 𝕄) ((sched (F := F) m).payload g r d) := by
  show BI.Storable upEmb (payOf m g.1.1 g.2)
  unfold payOf barPay sendPay recvPay
  (repeat' split) <;> infer_instance

section Sched
variable (c : Dev nD) (k : Fin 8)

theorem send_ne_bar : (SemLoc.dma (sendS k).sem : SemLoc sig) ≠ .reg barS := fun h => by cases h
theorem recv_ne_bar : (SemLoc.dma (recvS k).sem : SemLoc sig) ≠ .reg barS := fun h => by cases h
theorem isSend_send : IsSend (sendCell c k) := ⟨rfl, (sendS k).sem, rfl, by rw [sendS_val]; omega, by rw [sendS_val]; have := k.isLt; omega⟩
theorem isRecv_recv : IsRecv (recvCell c k) := ⟨rfl, (recvS k).sem, rfl, by rw [recvS_val]; omega, by rw [recvS_val]; have := k.isLt; omega⟩

omit [FloatOps F] in
theorem duties_bar : (sched (F := F) m).duties (barCell c) 0 = {()} := by dsimp only [sched]; exact if_pos ⟨rfl, .inl ⟨rfl, rfl⟩⟩
omit [FloatOps F] in
theorem duties_send : (sched (F := F) m).duties (sendCell c k) 0 = {()} := by dsimp only [sched]; exact if_pos ⟨rfl, .inr (.inl (isSend_send c k))⟩
omit [FloatOps F] in
theorem duties_recv : (sched (F := F) m).duties (recvCell c k) 0 = {()} := by dsimp only [sched]; exact if_pos ⟨rfl, .inr (.inr (isRecv_recv c k))⟩
omit [FloatOps F] in
theorem duties_later (g : GSem nD τ sig) : ∀ r, 1 ≤ r → (sched (F := F) m).duties g r = ∅ :=
  fun r hr => by dsimp only [sched]; rw [if_neg fun h => by omega]

omit [FloatOps F] in
theorem amount_bar (u : Unit) : (sched (F := F) m).amount (barCell c) 0 u = 1 := by dsimp only [sched]; exact if_pos rfl
omit [FloatOps F] in
theorem amount_send (u : Unit) : (sched (F := F) m).amount (sendCell c k) 0 u = N := by dsimp only [sched]; exact if_neg (send_ne_bar k)
omit [FloatOps F] in
theorem amount_recv (u : Unit) : (sched (F := F) m).amount (recvCell c k) 0 u = N := by dsimp only [sched]; exact if_neg (recv_ne_bar k)

omit [FloatOps F] in
theorem expect_bar : (sched (F := F) m).expect (barCell c) 0 = 1 := by
  unfold Schedule.expect Schedule.amountOf; rw [duties_bar, Finset.sum_singleton, amount_bar]
omit [FloatOps F] in
theorem expect_send : (sched (F := F) m).expect (sendCell c k) 0 = N := by
  unfold Schedule.expect Schedule.amountOf; rw [duties_send, Finset.sum_singleton, amount_send]
omit [FloatOps F] in
theorem expect_recv : (sched (F := F) m).expect (recvCell c k) 0 = N := by
  unfold Schedule.expect Schedule.amountOf; rw [duties_recv, Finset.sum_singleton, amount_recv]

omit [FloatOps F] in
theorem payload_bar (u : Unit) : (sched (F := F) m).payload (barCell c) 0 u = barPay c := by
  dsimp only [sched, payOf]; exact if_pos rfl
omit [FloatOps F] in
theorem payload_send (u : Unit) : (sched (F := F) m).payload (sendCell c k) 0 u = sendPay c k := by
  have hv := sendS_val k
  dsimp only [sched, payOf]
  rw [dif_pos ⟨by omega, by have := k.isLt; omega⟩]
  congr 1; exact Fin.ext (by simp only [hv]; omega)
omit [FloatOps F] in
theorem payload_recv (u : Unit) : (sched (F := F) m).payload (recvCell c k) 0 u = recvPay m c k := by
  have hv := recvS_val k
  dsimp only [sched, payOf]
  rw [dif_neg (by omega), dif_pos ⟨by omega, by have := k.isLt; omega⟩]
  congr 1; exact Fin.ext (by simp only [hv]; omega)

omit [FloatOps F] in
theorem rest_bar : bigSep ((sched (F := F) m).duties (barCell c) 0 \ ∅) (fun u => (sched (F := F) m).payload (barCell c) 0 u) = barPay c := by
  rw [Finset.sdiff_empty, duties_bar, bigSep_singleton, payload_bar]
omit [FloatOps F] in
theorem rest_send : bigSep ((sched (F := F) m).duties (sendCell c k) 0 \ ∅) (fun u => (sched (F := F) m).payload (sendCell c k) 0 u) = sendPay c k := by
  rw [Finset.sdiff_empty, duties_send, bigSep_singleton, payload_send]
omit [FloatOps F] in
theorem rest_recv : bigSep ((sched (F := F) m).duties (recvCell c k) 0 \ ∅) (fun u => (sched (F := F) m).payload (recvCell c k) 0 u) = recvPay m c k := by
  rw [Finset.sdiff_empty, duties_recv, bigSep_singleton, payload_recv]

end Sched

/-! ## What each device owes at launch; the levels -/

/-- The eight chunks' credit a device owes its peer's receive cells, chunk `j` upward: what is left to send once
    chunks below `j` have gone. -/
def owedFrom (c : Dev nD) : ℕ → CellTallies nD τ sig Unit
  | j => if h : j < 8 then owedFrom c (j + 1) + tallyAt (recvCell (peer c) ⟨j, h⟩) () N else 0
termination_by j => 8 - j

/-- At launch: all eight chunks' credit, and one unit to the peer's barrier cell (signalled first, so summed last). -/
def O₀ (c : Dev nD) : CellTallies nD τ sig Unit := owedFrom c 0 + tallyAt (barCell (peer c)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if IsRecv g then 2 else 0

theorem L_of_ne (g : GSem nD τ sig) (h : g.1.2 ≠ .tc) : L g = ∅ := if_neg h
theorem L_tc (c : Dev nD) (sm : SemLoc sig) : L ((c : Thread nD τ), sm) = {()} := if_pos rfl

end Cert.Kernel.Xchg

end
-- ==== Proof.Kernel.State.lean ====
/-
  What a device holds before and after its one run of the kernel body.

  Before: the records of every cell of the exchange (their invariants and that round 0 of each is reached: persistent,
  so every device has them all), its positions at round 0 of its own seventeen cells, the seventeen duty tokens it
  pays with (its peer's barrier duty, its peer's eight receive duties, its own eight send duties), the credit for
  what its peer owes its cells, the level facts, its twelve local DMA semaphores at zero, and its buffers: its block
  of the input, its result array at whatever it held, the staging and slot buffers at some contents.
  After: the input as it was, the result holding the exchanged array, the scratch buffers at some contents, and all
  twenty-eight of its DMA semaphores back at zero.
-/
import proofs.«900643_g7700000000000644_dist_a2a_v7x_xyz2x2x4_y_m8192_n1024_f32_1_alg».proof.Proof.Kernel.Protocol

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells by index: 0 the barrier, 1–8 the send cells, 9–16 the receive cells -/

abbrev csem (j : Fin 17) : SemLoc sig :=
  if h0 : j.val = 0 then .reg barS
  else if h8 : j.val ≤ 8 then .dma (sendS ⟨j.val - 1, by omega⟩).sem
  else .dma (recvS ⟨j.val - 9, by have := j.isLt; omega⟩).sem
abbrev kcell (ck : Dev nD × Fin 17) : GSem nD τ sig := ((ck.1 : Thread nD τ), csem ck.2)
def sIx (k : Fin 8) : Fin 17 := ⟨k.val + 1, by have := k.isLt; omega⟩
def rIx (k : Fin 8) : Fin 17 := ⟨k.val + 9, by have := k.isLt; omega⟩
theorem kcell_bar (c : Dev nD) : kcell (c, 0) = barCell c := rfl
theorem kcell_send (c : Dev nD) (k : Fin 8) : kcell (c, sIx k) = sendCell c k := by fin_cases k <;> rfl
theorem kcell_recv (c : Dev nD) (k : Fin 8) : kcell (c, rIx k) = recvCell c k := by fin_cases k <;> rfl

/-! ## The ghost state -/

/-- Every cell's invariant, at the names `K` the launch allocated them at, and that round 0 of every cell is reached. -/
def records (K : Dev nD × Fin 17 → ℕ) : sProp 𝕄 :=
  iprop((bigSep Finset.univ fun ck : Dev nD × Fin 17 => cellInv ER (sched m) (K ck) (kcell ck))
    ∗ bigSep Finset.univ fun ck : Dev nD × Fin 17 => reached ER (kcell ck) 0)

instance records_persistent (K : Dev nD × Fin 17 → ℕ) : BI.Persistent (records m K) := by unfold records; infer_instance

/-- The device's positions: round 0 of each of its own cells, nothing consumed. -/
def positions (c : Dev nD) : sProp 𝕄 :=
  iprop(atPos ER (barCell c) 0 ∅ 0 ∗ (bigSep Finset.univ fun k : Fin 8 => atPos ER (sendCell c k) 0 ∅ 0)
    ∗ (bigSep Finset.univ fun k : Fin 8 => atPos ER (recvCell c k) 0 ∅ 0))
/-- The tokens of the duties the device pays: its peer's barrier duty, its peer's receive duties, its own send duties. -/
def payToks (c : Dev nD) : sProp 𝕄 :=
  iprop(dutyTok ER (barCell (peer c)) 0 () ∗ (bigSep Finset.univ fun k : Fin 8 => dutyTok ER (recvCell (peer c) k) 0 ())
    ∗ (bigSep Finset.univ fun k : Fin 8 => dutyTok ER (sendCell c k) 0 ()))
/-- The credit for what its peer owes the device's cells. -/
def creds (c : Dev nD) : sProp 𝕄 :=
  iprop(cred (tallyAt (barCell c) () 1) ∗ bigSep Finset.univ fun k : Fin 8 => cred (tallyAt (recvCell c k) () N))
/-- The local copies' twelve DMA semaphores, at zero. -/
def localSems (c : Dev nD) : sProp 𝕄 :=
  iprop((bigSep Finset.univ fun k : Fin 8 => semVal ((c : Thread nD τ), .dma (packS k).sem) 0)
    ∗ (bigSep Finset.univ fun s : Fin 2 => semVal ((c : Thread nD τ), .dma (inS s).sem) 0)
    ∗ (bigSep Finset.univ fun s : Fin 2 => semVal ((c : Thread nD τ), .dma (outS s).sem) 0))
/-- The remote copies' sixteen DMA semaphores, at zero. -/
def xferSems (c : Dev nD) : sProp 𝕄 :=
  iprop((bigSep Finset.univ fun k : Fin 8 => semVal (sendCell c k) 0) ∗ (bigSep Finset.univ fun k : Fin 8 => semVal (recvCell c k) 0))

def ghost (K : Dev nD × Fin 17 → ℕ) (c : Dev nD) : sProp 𝕄 := iprop(records m K ∗ positions c ∗ payToks c)

/-- What the device's body starts from, besides its buffers. -/
def start (c : Dev nD) : sProp 𝕄 := iprop((∃ K, ghost m K c) ∗ creds c ∗ levAts L lv ∗ localSems c)

/-- The scratch buffers, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body: the start, the input block, the result array as launched, the scratch buffers. -/
def Φ₀ (c : Dev nD) : sProp 𝕄 :=
  iprop(start m c ∗ (((c : Thread nD τ).loc main_arg0) ↦{fullShare} xAt m c)
    ∗ (((c : Thread nD τ).loc main_v1) ↦{fullShare} m ((c : Thread nD τ).loc main_v1)) ∗ scratch c)
/-- After it: the input block unchanged, the result array exchanged, the scratch buffers, every DMA semaphore at zero. -/
def Φ₁ (c : Dev nD) : sProp 𝕄 :=
  iprop((((c : Thread nD τ).loc main_arg0) ↦{fullShare} xAt m c) ∗ (((c : Thread nD τ).loc main_v1) ↦{fullShare} want m c)
    ∗ scratch c ∗ localSems c ∗ xferSems c)

/-! ## The pipeline's proof data: no window, one point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

/-- The body as the pipeline calls it at the point. -/
abbrev theBody : Prog (TpuEff nD τ sig (Elt F) Λ₀ .tc) PUnit :=
  cc0_body (Memref.whole main_arg0) (Memref.isWhole_whole _) (Memref.whole main_v1) (Memref.isWhole_whole _)
    (Memref.whole cc0_scratch0) (Memref.isWhole_whole _) (Memref.whole cc0_scratch1) (Memref.isWhole_whole _)
    cc0_scratch2 cc0_scratch3 cc0_scratch4 cc0_scratch5 cc0_scratch6

def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

/-- What the body must be shown to do, on every device: from `bodyPre` to `bodyPost`. -/
def SoundBody : Prop :=
  ∀ (c : Dev nD) (Kt : PUnit → sProp 𝕄),
    iprop(bodyPre m c ∗ (bodyPost m c -∗ Kt ⟨⟩)) ⊢ wp frame (wpE (defs₀ (F := F)) 𝒱₀ c none) Set.univ (theBody (F := F)) Kt

end Cert.Kernel.Xchg

end
-- ==== Proof.Kernel.Ledger.lean ====
/-
  What a device still owes as it goes, and why its waits are allowed.

  A device sends its eight chunks in order, so after chunk `j - 1` it owes its peer's receive cells `j … 7` one
  chunk's credit each (`owedFrom c j`). Every such debt sits at a receive cell, level 2; the device's barrier cell is
  at level 1 and every DMA semaphore it waits on while it still owes (the staging copies') at level 0: each wait is
  below everything owed, which is what the deadlock argument asks.
-/
import proofs.«900643_g7700000000000644_dist_a2a_v7x_xyz2x2x4_y_m8192_n1024_f32_1_alg».proof.Proof.Kernel.State

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_fin2 (Φ : Fin 2 → sProp 𝕄) : bigSep Finset.univ Φ = iprop(Φ 0 ∗ Φ 1) :=
  bigSep_univ_eq_bigSepL [0, 1] (by decide) (by decide) Φ

theorem owedFrom_step (c : Dev nD) (j : ℕ) (h : j < 8) :
    owedFrom c j = owedFrom c (j + 1) + tallyAt (recvCell (peer c) ⟨j, h⟩) () N := by
  rw [owedFrom]; exact dif_pos h
theorem owedFrom_done (c : Dev nD) : owedFrom c 8 = 0 := by
  rw [owedFrom]; exact dif_neg (by omega)

/-- Whatever is still owed is owed to one of the peer's receive cells. -/
theorem owedFrom_pos (c : Dev nD) : ∀ (n j : ℕ), 8 - j = n → ∀ {g : GSem nD τ sig} {u : Unit}, 0 < owedFrom c j g u →
    ∃ k : Fin 8, g = recvCell (peer c) k
  | 0, j, hj, g, u, h => by
    rw [owedFrom, dif_neg (by omega)] at h
    exact absurd h (Nat.lt_irrefl 0)
  | n + 1, j, hj, g, u, h => by
    have hj8 : j < 8 := by omega
    rw [owedFrom_step c j hj8, Pi.add_apply, Finsupp.add_apply, tallyAt_apply] at h
    by_cases hg : g = recvCell (peer c) ⟨j, hj8⟩ ∧ u = ()
    · exact ⟨_, hg.1⟩
    · rw [if_neg hg, Nat.add_zero] at h
      exact owedFrom_pos c n (j + 1) (by omega) h

theorem lv_recv (d : Dev nD) (k : Fin 8) : lv (recvCell d k) () = 2 := by
  dsimp only [lv]; rw [if_neg (recv_ne_bar k), if_pos (isRecv_recv d k)]

omit [FloatOps F] in
/-- A wait on a cell that is no receive cell, while owing only receive credit. -/
theorem mayWait_owing (c : Dev nD) (sm : SemLoc sig) (hsm : ¬ IsRecv ((c : Thread nD τ), sm)) (j : ℕ) :
    (levAts L lv : sProp 𝕄) ⊢ MayWait (c : Thread nD τ) sm () (owedFrom c j) :=
  MayOwe.of_cut (L := L) (lev := lv) 1
    (fun p hp => by rw [Finset.mem_singleton.mp hp, L_tc]; exact Finset.mem_singleton_self _)
    (fun g u hg => by obtain ⟨k, rfl⟩ := owedFrom_pos c _ _ rfl hg; rw [L_tc]; exact Finset.mem_singleton_self _)
    (fun p hp => by
      rw [Finset.mem_singleton.mp hp]; dsimp only [lv]
      by_cases h : sm = .reg barS
      · rw [if_pos h]
      · rw [if_neg h, if_neg hsm]; exact Nat.zero_le _)
    (fun g u hg => by obtain ⟨k, rfl⟩ := owedFrom_pos c _ _ rfl hg; rw [lv_recv]; decide)

omit [FloatOps F] in
/-- The barrier wait. -/
theorem mayWait_bar (c : Dev nD) (j : ℕ) :
    (levAts L lv : sProp 𝕄) ⊢ MayWait (c : Thread nD τ) (.reg barS) () (owedFrom c j) :=
  mayWait_owing c _ (by rintro ⟨-, q, h, -⟩; cases h) j

omit [FloatOps F] in
/-- A wait on a DMA semaphore below the receive semaphores (the local copies', the send semaphores'). -/
theorem mayWait_dma (c : Dev nD) (q : DmaSem sig) (hq : q.val < 20) (j : ℕ) :
    (levAts L lv : sProp 𝕄) ⊢ MayWait (c : Thread nD τ) (.dma q) () (owedFrom c j) :=
  mayWait_owing c _ (by rintro ⟨-, q', h, h20, -⟩; cases h; omega) j

end Cert.Kernel.Xchg

end
-- ==== Proof.Kernel.Send.lean ====
/-
  Remote copy `k`, as one step of a device's run.

  Device `c` copies staging chunk `k` — holding the peer's columns of chunk `k` of its block — into chunk `k` of its own
  half of the rows of the PEER's result array. The copy pays two duties: the send cell's (the staging chunk comes back
  when the engine has read it) and the peer's receive cell's (the peer gets that chunk of its result, holding what its
  result must hold there). What the device owes drops by that chunk's credit.
-/
import proofs.«900643_g7700000000000644_dist_a2a_v7x_xyz2x2x4_y_m8192_n1024_f32_1_alg».proof.Proof.Kernel.Ledger

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The remote copy of chunk `k`, addressed to `n = peer c`: `Rounds.wp_send_pointsTo` at the exchange's cells. The staging
    chunk's contents `fs` are whatever the run left, known to READ as the far columns of chunk `k` (`hfs`); that what
    lands is what the peer's result must hold is `hland`. -/
theorem wp_send_chunk (c n : Dev nD) (hn : n = peer c) (k : Fin 8) (κ₁ κ₂ : ℕ)
    {hsc : ((res c k : Memref sig (Dev.tc n : Thread nD τ).2.kind .hbm S1024x1024 .f32)).view.ref.isScScratch = false}
    {hsrc : (stg k : Memref sig .tc .vmem S1024x1024 .f32).view.WordExact} {hdst : (res c k : Memref sig .tc .hbm S1024x1024 .f32).view.WordExact}
    {hsem : DmaTarget.Typed .vmem (.dma (recvS k).sem) (.remote (Dev.tc n : Thread nD τ) (res c k : Memref sig .tc .hbm S1024x1024 .f32) (.dma (sendS k).sem) hsc)}
    {α : Type} {Q : α → sProp 𝕄} {kk : PUnit → Prog (TpuEff nD τ sig (Elt F) Λ₀ .tc) α}
    (fs : Buf (Elt F) ((stg k).view.loc (c : Thread nD τ)))
    (hfs : (stg k).view.read (Elt F) fs = (xFar c k).view.read (Elt F) (xAt m c))
    (fd : Buf (Elt F) ((res c k).view.loc ((peer c : Dev nD) : Thread nD τ)))
    (hland : ((res c k).view.loc ((peer c : Dev nD) : Thread nD τ) ↦[(res c k).view.set]{fullShare}
        ((res c k).view.write (Elt F) fd ((xFar c k).view.read (Elt F) (xAt m c)) Finset.univ) : sProp 𝕄) ⊢ recvPay m (peer c) k)
    (W : Waits sig Unit) :
    iprop(cellInv ER (sched m) κ₁ (sendCell c k) ∗ cellInv ER (sched m) κ₂ (recvCell (peer c) k)
        ∗ ((stg k).view.loc (c : Thread nD τ) ↦[(stg k).view.set]{fullShare} fs)
        ∗ ((res c k).view.loc ((peer c : Dev nD) : Thread nD τ) ↦[(res c k).view.set]{fullShare} fd)
        ∗ owes (c : Thread nD τ) (owedFrom c k.val) W
        ∗ dutyTok ER (sendCell c k) 0 () ∗ reached ER (sendCell c k) 0
        ∗ dutyTok ER (recvCell (peer c) k) 0 () ∗ reached ER (recvCell (peer c) k) 0)
      ⊢ iprop(((cred (tallyAt (sendCell c k) () N) ∗ owes (c : Thread nD τ) (owedFrom c (k.val + 1)) W)
            -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (stg k) (.remote (Dev.tc n : Thread nD τ) (res c k) (.dma (sendS k).sem) hsc) (.dma (recvS k).sem) hsrc hdst hsem) kk) Q) := by
  subst hn
  exact Rounds.wp_send_pointsTo 𝒱₀ ER (sched m) (c : Thread nD τ) none (κ₁ := κ₁) (κ₂ := κ₂)
    (r₁ := 0) (r₂ := 0) (d₁ := ()) (d₂ := ()) (fd := fd)
    (by rw [duties_send]; exact Finset.mem_singleton_self _) (by rw [duties_recv]; exact Finset.mem_singleton_self _)
    () () N rfl (amount_send m c k ()) (amount_recv m (peer c) k ()) (owedFrom c (k.val + 1)) (owedFrom_step c k.val k.isLt) (W := W)
    (by rw [payload_send]; unfold sendPay stgPts; iintro H; iexists fs; iexact H)
    (by rw [payload_recv, hfs]; exact hland)

end Cert.Kernel.Xchg

end
-- ==== Proof.Kernel.Chunks.lean ====
/-
  The chunks of the exchange, as regions of the buffers.

  A chunk written through a slice of a result array holds what the result must hold there, and each of the four
  buffers the copies go through is the disjoint union of its chunks.
-/
import proofs.«900643_g7700000000000644_dist_a2a_v7x_xyz2x2x4_y_m8192_n1024_f32_1_alg».proof.Proof.Kernel.Protocol
import Idealize.ShloMosaic.Lib.Pipeline.Value

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Where a chunk's index sits -/

theorem res_emb_val (c : Dev nD) (k : Fin 8) (y : S1024x1024.Idx) (a : Fin 2) :
    (((res c k).view.emb y) a).val = resOff c k a + (y a).val := by
  show resOff c k a + 1 * (y a).val = _
  rw [Nat.one_mul]

theorem xFar_emb_val (c : Dev nD) (k : Fin 8) (y : S1024x1024.Idx) (a : Fin 2) :
    (((xFar c k).view.emb y) a).val = farOff c k a + (y a).val := by
  show farOff c k a + 1 * (y a).val = _
  rw [Nat.one_mul]

theorem xOwn_emb_val (c : Dev nD) (k : Fin 8) (y : S1024x1024.Idx) (a : Fin 2) :
    (((xOwn c k).view.emb y) a).val = ownOff c k a + (y a).val := by
  show ownOff c k a + 1 * (y a).val = _
  rw [Nat.one_mul]

/-- Two indices of a block with the same row and column are one. -/
theorem idxX_ext (i j : S8192x2048.Idx) (h0 : (i 0).val = (j 0).val) (h1 : (i 1).val = (j 1).val) : i = j := by
  funext a
  match a with
  | ⟨0, _⟩ => exact Fin.ext h0
  | ⟨1, _⟩ => exact Fin.ext h1

/-- The exchanged array at a row of the device's own half: its own block. -/
theorem exchanged_own (c : Dev nD) (xc xp : S8192x2048.Idx → Elt F .f32) (i : S16384x1024.Idx) (j : S8192x2048.Idx)
    (h : (i 0).val / 8192 = yOf c) (h0 : (j 0).val = (i 0).val % 8192) (h1 : (j 1).val = 1024 * yOf c + (i 1).val) :
    exchanged c xc xp i = xc j := by
  unfold exchanged
  simp only [if_pos h]
  exact congrArg xc (idxX_ext _ _ h0.symm h1.symm)

/-- At a row of the other half: the peer's block. -/
theorem exchanged_far (c : Dev nD) (xc xp : S8192x2048.Idx → Elt F .f32) (i : S16384x1024.Idx) (j : S8192x2048.Idx)
    (h : (i 0).val / 8192 ≠ yOf c) (h0 : (j 0).val = (i 0).val % 8192) (h1 : (j 1).val = 1024 * yOf c + (i 1).val) :
    exchanged c xc xp i = xp j := by
  unfold exchanged
  simp only [if_neg h]
  exact congrArg xp (idxX_ext _ _ h0.symm h1.symm)

/-- The launched block of a device named two ways. -/
theorem xAt_dev {d d' : Dev nD} (h : d = d') (i : S8192x2048.Idx) : xAt m d i = xAt m d' i := by subst h; rfl

/-! ## A chunk written through a slice of the result holds what the result must hold there -/

/-- Remote copy `k` of device `c` lands in the peer's result at rows `8192 (yOf c) + 1024 k ..`: the peer's columns of
    `c`'s block, which is what the peer's result holds at the rows of the half that is not its own. -/
theorem landed_agrees (c : Dev nD) (k : Fin 8) (fd : Buf (Elt F) ((res c k).view.loc ((peer c : Dev nD) : Thread nD τ))) :
    ∀ i ∈ (res c k).view.set, (res c k).view.write (Elt F) fd ((xFar c k).view.read (Elt F) (xAt m c)) Finset.univ i = want m (peer c) i := by
  intro i hi
  obtain ⟨y, rfl⟩ := View.exists_emb_of_mem_set _ hi
  rw [View.write_emb_of_mem _ _ (Finset.mem_univ y), View.read_apply, cast_eq, cast_eq]
  have h0 := res_emb_val c k y 0
  have h1 := res_emb_val c k y 1
  have g0 := xFar_emb_val c k y 0
  have g1 := xFar_emb_val c k y 1
  rw [resOff_eq] at h0 h1
  rw [farOff_eq] at g0 g1
  have e0 : (![8192 * yOf c + 1024 * k.val, 0] : Fin 2 → Nat) 0 = 8192 * yOf c + 1024 * k.val := rfl
  have e1 : (![8192 * yOf c + 1024 * k.val, 0] : Fin 2 → Nat) 1 = 0 := rfl
  have f0 : (![1024 * k.val, 1024 - 1024 * yOf c] : Fin 2 → Nat) 0 = 1024 * k.val := rfl
  have f1 : (![1024 * k.val, 1024 - 1024 * yOf c] : Fin 2 → Nat) 1 = 1024 - 1024 * yOf c := rfl
  rw [e0] at h0; rw [e1] at h1; rw [f0] at g0; rw [f1] at g1
  have hy := yOf_lt c
  have hyp := yOf_peer c
  have hk := k.isLt
  have hy0 : (y 0).val < 1024 := (y 0).isLt
  have hy1 : (y 1).val < 1024 := (y 1).isLt
  have hA : ((res c k).view.emb y 0).val / 8192 ≠ yOf (peer c) := by omega
  have hB : ((xFar c k).view.emb y 0).val = ((res c k).view.emb y 0).val % 8192 := by omega
  have hC : ((xFar c k).view.emb y 1).val = 1024 * yOf (peer c) + ((res c k).view.emb y 1).val := by omega
  exact (xAt_dev m (peer_peer c).symm _).trans
    (exchanged_far (peer c) _ _ ((res c k).view.emb y) ((xFar c k).view.emb y) hA hB hC).symm

/-- Chunk `k` of the device's own columns, written at rows `8192 (yOf c) + 1024 k ..` of its own result. -/
theorem kept_agrees (c : Dev nD) (k : Fin 8) (fd : Buf (Elt F) ((res c k).view.loc (c : Thread nD τ))) :
    ∀ i ∈ (res c k).view.set, (res c k).view.write (Elt F) fd ((xOwn c k).view.read (Elt F) (xAt m c)) Finset.univ i = want m c i := by
  intro i hi
  obtain ⟨y, rfl⟩ := View.exists_emb_of_mem_set _ hi
  rw [View.write_emb_of_mem _ _ (Finset.mem_univ y), View.read_apply, cast_eq, cast_eq]
  have h0 := res_emb_val c k y 0
  have h1 := res_emb_val c k y 1
  have g0 := xOwn_emb_val c k y 0
  have g1 := xOwn_emb_val c k y 1
  rw [resOff_eq] at h0 h1
  rw [ownOff_eq] at g0 g1
  have e0 : (![8192 * yOf c + 1024 * k.val, 0] : Fin 2 → Nat) 0 = 8192 * yOf c + 1024 * k.val := rfl
  have e1 : (![8192 * yOf c + 1024 * k.val, 0] : Fin 2 → Nat) 1 = 0 := rfl
  have f0 : (![1024 * k.val, 1024 * yOf c] : Fin 2 → Nat) 0 = 1024 * k.val := rfl
  have f1 : (![1024 * k.val, 1024 * yOf c] : Fin 2 → Nat) 1 = 1024 * yOf c := rfl
  rw [e0] at h0; rw [e1] at h1; rw [f0] at g0; rw [f1] at g1
  have hy := yOf_lt c
  have hk := k.isLt
  have hy0 : (y 0).val < 1024 := (y 0).isLt
  have hy1 : (y 1).val < 1024 := (y 1).isLt
  have hA : ((res c k).view.emb y 0).val / 8192 = yOf c := by omega
  have hB : ((xOwn c k).view.emb y 0).val = ((res c k).view.emb y 0).val % 8192 := by omega
  have hC : ((xOwn c k).view.emb y 1).val = 1024 * yOf c + ((res c k).view.emb y 1).val := by omega
  exact (exchanged_own c _ _ ((res c k).view.emb y) ((xOwn c k).view.emb y) hA hB hC).symm

/-- The landed chunk, as the peer's receive payment. -/
theorem landed_pts_at (c d : Dev nD) (hd : d = c) (k : Fin 8) (fd : Buf (Elt F) ((res c k).view.loc ((peer c : Dev nD) : Thread nD τ))) :
    ((res c k).view.loc ((peer c : Dev nD) : Thread nD τ) ↦[(res c k).view.set]{fullShare}
        ((res c k).view.write (Elt F) fd ((xFar c k).view.read (Elt F) (xAt m c)) Finset.univ) : sProp 𝕄)
      ⊢ resPts d (peer c) k (want m (peer c)) := by
  subst hd
  unfold resPts
  exact Entails.of_eq (BI.Region.is_congr (landed_agrees m d k fd))

theorem landed_pts (c : Dev nD) (k : Fin 8) (fd : Buf (Elt F) ((res c k).view.loc ((peer c : Dev nD) : Thread nD τ))) :
    ((res c k).view.loc ((peer c : Dev nD) : Thread nD τ) ↦[(res c k).view.set]{fullShare}
        ((res c k).view.write (Elt F) fd ((xFar c k).view.read (Elt F) (xAt m c)) Finset.univ) : sProp 𝕄)
      ⊢ recvPay m (peer c) k :=
  landed_pts_at m c (peer (peer c)) (peer_peer c) k fd

/-- The kept chunk holds what the device's own result must hold there. -/
theorem kept_pts (c : Dev nD) (k : Fin 8) (fd : Buf (Elt F) ((res c k).view.loc (c : Thread nD τ))) :
    ((res c k).view.loc (c : Thread nD τ) ↦[(res c k).view.set]{fullShare}
        ((res c k).view.write (Elt F) fd ((xOwn c k).view.read (Elt F) (xAt m c)) Finset.univ) : sProp 𝕄)
      ⊢ ((res c k).view.loc (c : Thread nD τ) ↦[(res c k).view.set]{fullShare} want m c) :=
  Entails.of_eq (BI.Region.is_congr (kept_agrees m c k fd))

/-! ## A buffer is the disjoint union of its chunks -/

section Cover
variable {ℓ : Loc nD τ sig} {T : Type} [Fintype T] [DecidableEq T]

/-- A buffer held whole is held chunk by chunk, over one family of pairwise disjoint chunks that cover it. -/
theorem pts_cover (K : T → Finset (Idx ℓ)) (f : Buf (Elt F) ℓ) (hcov : ∀ i, ∃ t, i ∈ K t)
    (hdis : ∀ t t', t ≠ t' → Disjoint (K t) (K t')) :
    (ℓ ↦{fullShare} f : sProp 𝕄) = bigSep Finset.univ fun t => ℓ ↦[K t]{fullShare} f := by
  rw [← pointsTo_biUnion Finset.univ K (fun t _ t' _ h => hdis t t' h)]
  congr 1
  ext i
  simp only [Finset.mem_univ, Finset.mem_biUnion, true_and, true_iff]
  exact hcov i

/-- The same over two families. -/
theorem pts_cover₂ (K₁ K₂ : T → Finset (Idx ℓ)) (f : Buf (Elt F) ℓ) (hcov : ∀ i, (∃ t, i ∈ K₁ t) ∨ ∃ t, i ∈ K₂ t)
    (hd₁ : ∀ t t', t ≠ t' → Disjoint (K₁ t) (K₁ t')) (hd₂ : ∀ t t', t ≠ t' → Disjoint (K₂ t) (K₂ t'))
    (hd : ∀ t t', Disjoint (K₁ t) (K₂ t')) :
    (ℓ ↦{fullShare} f : sProp 𝕄)
      = iprop((bigSep Finset.univ fun t => ℓ ↦[K₁ t]{fullShare} f) ∗ (bigSep Finset.univ fun t => ℓ ↦[K₂ t]{fullShare} f)) := by
  have hD : Disjoint (Finset.univ.biUnion K₁) (Finset.univ.biUnion K₂) :=
    (Finset.disjoint_biUnion_left _ _ _).mpr fun t _ => (Finset.disjoint_biUnion_right _ _ _).mpr fun t' _ => hd t t'
  have hU : (Finset.univ : Finset (Idx ℓ)) = Finset.univ.biUnion K₁ ∪ Finset.univ.biUnion K₂ := by
    ext i
    simp only [Finset.mem_univ, Finset.mem_union, Finset.mem_biUnion, true_and, true_iff]
    exact hcov i
  have hu := pointsTo_union (Val := Elt F) (Ix := Unit) (Name := ℕ) (U := UU) (Lvl := ℕ) (ℓ := ℓ) (q := fullShare) (f := f) hD
  rw [hU, BI.equiv_iff.mp ⟨hu.1, hu.2⟩, pointsTo_biUnion Finset.univ K₁ (fun t _ t' _ h => hd₁ t t' h),
    pointsTo_biUnion Finset.univ K₂ (fun t _ t' _ h => hd₂ t t' h)]

end Cover

/-! ### The result array: the device's own eight chunks and the eight its peer writes -/

theorem mem_res (c : Dev nD) (k : Fin 8) (i : S16384x1024.Idx) :
    i ∈ (res c k).view.set ↔ 8192 * yOf c + 1024 * k.val ≤ (i 0).val ∧ (i 0).val < 8192 * yOf c + 1024 * k.val + 1024 := by
  rw [View.set_slice_whole, Rect.mem_set_unit]
  have h1 : (i 1).val < 1024 := (i 1).isLt
  show (∀ a : Fin 2, resOff c k a ≤ (i a).val ∧ (i a).val < resOff c k a + (![1024, 1024] : Fin 2 → Nat) a) ↔ _
  rw [Fin.forall_fin_two, resOff_eq]
  show (8192 * yOf c + 1024 * k.val ≤ (i 0).val ∧ (i 0).val < 8192 * yOf c + 1024 * k.val + 1024)
    ∧ (0 ≤ (i 1).val ∧ (i 1).val < 0 + 1024) ↔ _
  omega

theorem res_cov (c : Dev nD) (i : Idx ((c : Thread nD τ).loc main_v1)) :
    (∃ t : Fin 8, i ∈ (res c t).view.set) ∨ ∃ t : Fin 8, i ∈ (res (peer c) t).view.set := by
  have h0 : (i 0).val < 16384 := (i 0).isLt
  have hy := yOf_lt c
  have hyp := yOf_peer c
  have hk : (i 0).val % 8192 / 1024 < 8 := by omega
  by_cases h : (i 0).val / 8192 = yOf c
  · have hm : 8192 * yOf c + 1024 * ((i 0).val % 8192 / 1024) ≤ (i 0).val
        ∧ (i 0).val < 8192 * yOf c + 1024 * ((i 0).val % 8192 / 1024) + 1024 := by omega
    exact .inl ⟨⟨_, hk⟩, (mem_res c ⟨_, hk⟩ i).mpr hm⟩
  · have hm : 8192 * yOf (peer c) + 1024 * ((i 0).val % 8192 / 1024) ≤ (i 0).val
        ∧ (i 0).val < 8192 * yOf (peer c) + 1024 * ((i 0).val % 8192 / 1024) + 1024 := by omega
    exact .inr ⟨⟨_, hk⟩, (mem_res (peer c) ⟨_, hk⟩ i).mpr hm⟩

theorem res_dis (c : Dev nD) (k k' : Fin 8) (h : k ≠ k') : Disjoint (res c k).view.set (res c k').view.set := by
  refine Finset.disjoint_left.mpr fun i h1 h2 => ?_
  have h1' := (mem_res c k i).mp h1
  have h2' := (mem_res c k' i).mp h2
  exact h (Fin.ext (by omega))

theorem res_dis_peer (c : Dev nD) (k k' : Fin 8) : Disjoint (res c k).view.set (res (peer c) k').view.set := by
  refine Finset.disjoint_left.mpr fun i h1 h2 => ?_
  have h1' := (mem_res c k i).mp h1
  have h2' := (mem_res (peer c) k' i).mp h2
  have hy := yOf_lt c
  have hyp := yOf_peer c
  have hk := k.isLt
  have hk' := k'.isLt
  omega

theorem res_eq (c : Dev nD) (f : Buf (Elt F) ((c : Thread nD τ).loc main_v1)) :
    ((c : Thread nD τ).loc main_v1 ↦{fullShare} f : sProp 𝕄)
      = iprop((bigSep Finset.univ fun k : Fin 8 => ((res c k).view.loc (c : Thread nD τ) ↦[(res c k).view.set]{fullShare} f))
          ∗ (bigSep Finset.univ fun k : Fin 8 => ((res (peer c) k).view.loc (c : Thread nD τ) ↦[(res (peer c) k).view.set]{fullShare} f))) :=
  pts_cover₂ (ℓ := (c : Thread nD τ).loc main_v1) (fun k : Fin 8 => (res c k).view.set) (fun k : Fin 8 => (res (peer c) k).view.set) f
    (res_cov c) (res_dis c) (res_dis (peer c)) (res_dis_peer c)

theorem res_split (c : Dev nD) (f : Buf (Elt F) ((c : Thread nD τ).loc main_v1)) :
    ((c : Thread nD τ).loc main_v1 ↦{fullShare} f : sProp 𝕄)
      ⊢ iprop((bigSep Finset.univ fun k : Fin 8 => ((res c k).view.loc (c : Thread nD τ) ↦[(res c k).view.set]{fullShare} f))
          ∗ (bigSep Finset.univ fun k : Fin 8 => ((res (peer c) k).view.loc (c : Thread nD τ) ↦[(res (peer c) k).view.set]{fullShare} f))) :=
  Entails.of_eq (res_eq c f)

theorem res_join (c : Dev nD) (f : Buf (Elt F) ((c : Thread nD τ).loc main_v1)) :
    iprop((bigSep Finset.univ fun k : Fin 8 => ((res c k).view.loc (c : Thread nD τ) ↦[(res c k).view.set]{fullShare} f))
          ∗ (bigSep Finset.univ fun k : Fin 8 => ((res (peer c) k).view.loc (c : Thread nD τ) ↦[(res (peer c) k).view.set]{fullShare} f)))
      ⊢ ((c : Thread nD τ).loc main_v1 ↦{fullShare} f : sProp 𝕄) :=
  Entails.of_eq (res_eq c f).symm

/-! ### The input block: eight chunks of the peer's columns and eight of the device's own -/

theorem mem_xFar (c : Dev nD) (k : Fin 8) (i : S8192x2048.Idx) :
    i ∈ (xFar c k).view.set ↔ (1024 * k.val ≤ (i 0).val ∧ (i 0).val < 1024 * k.val + 1024)
      ∧ (1024 - 1024 * yOf c ≤ (i 1).val ∧ (i 1).val < 1024 - 1024 * yOf c + 1024) := by
  rw [View.set_slice_whole, Rect.mem_set_unit]
  show (∀ a : Fin 2, farOff c k a ≤ (i a).val ∧ (i a).val < farOff c k a + (![1024, 1024] : Fin 2 → Nat) a) ↔ _
  rw [Fin.forall_fin_two, farOff_eq]
  exact Iff.rfl

theorem mem_xOwn (c : Dev nD) (k : Fin 8) (i : S8192x2048.Idx) :
    i ∈ (xOwn c k).view.set ↔ (1024 * k.val ≤ (i 0).val ∧ (i 0).val < 1024 * k.val + 1024)
      ∧ (1024 * yOf c ≤ (i 1).val ∧ (i 1).val < 1024 * yOf c + 1024) := by
  rw [View.set_slice_whole, Rect.mem_set_unit]
  show (∀ a : Fin 2, ownOff c k a ≤ (i a).val ∧ (i a).val < ownOff c k a + (![1024, 1024] : Fin 2 → Nat) a) ↔ _
  rw [Fin.forall_fin_two, ownOff_eq]
  exact Iff.rfl

theorem x_cov (c : Dev nD) (i : Idx ((c : Thread nD τ).loc main_arg0)) :
    (∃ t : Fin 8, i ∈ (xFar c t).view.set) ∨ ∃ t : Fin 8, i ∈ (xOwn c t).view.set := by
  have h0 : (i 0).val < 8192 := (i 0).isLt
  have h1 : (i 1).val < 2048 := (i 1).isLt
  have hy := yOf_lt c
  have hk : (i 0).val / 1024 < 8 := by omega
  have hr : 1024 * ((i 0).val / 1024) ≤ (i 0).val ∧ (i 0).val < 1024 * ((i 0).val / 1024) + 1024 := by omega
  by_cases h : (i 1).val / 1024 = yOf c
  · exact .inr ⟨⟨_, hk⟩, (mem_xOwn c ⟨_, hk⟩ i).mpr ⟨hr, by omega⟩⟩
  · exact .inl ⟨⟨_, hk⟩, (mem_xFar c ⟨_, hk⟩ i).mpr ⟨hr, by omega⟩⟩

theorem xFar_dis (c : Dev nD) (k k' : Fin 8) (h : k ≠ k') : Disjoint (xFar c k).view.set (xFar c k').view.set := by
  refine Finset.disjoint_left.mpr fun i h1 h2 => ?_
  have h1' := (mem_xFar c k i).mp h1
  have h2' := (mem_xFar c k' i).mp h2
  exact h (Fin.ext (by omega))

theorem xOwn_dis (c : Dev nD) (k k' : Fin 8) (h : k ≠ k') : Disjoint (xOwn c k).view.set (xOwn c k').view.set := by
  refine Finset.disjoint_left.mpr fun i h1 h2 => ?_
  have h1' := (mem_xOwn c k i).mp h1
  have h2' := (mem_xOwn c k' i).mp h2
  exact h (Fin.ext (by omega))

theorem x_dis (c : Dev nD) (k k' : Fin 8) : Disjoint (xFar c k).view.set (xOwn c k').view.set := by
  refine Finset.disjoint_left.mpr fun i h1 h2 => ?_
  have h1' := (mem_xFar c k i).mp h1
  have h2' := (mem_xOwn c k' i).mp h2
  have hy := yOf_lt c
  omega

theorem x_eq (c : Dev nD) (f : Buf (Elt F) ((c : Thread nD τ).loc main_arg0)) :
    ((c : Thread nD τ).loc main_arg0 ↦{fullShare} f : sProp 𝕄)
      = iprop((bigSep Finset.univ fun k : Fin 8 => ((xFar c k).view.loc (c : Thread nD τ) ↦[(xFar c k).view.set]{fullShare} f))
          ∗ (bigSep Finset.univ fun k : Fin 8 => ((xOwn c k).view.loc (c : Thread nD τ) ↦[(xOwn c k).view.set]{fullShare} f))) :=
  pts_cover₂ (ℓ := (c : Thread nD τ).loc main_arg0) (fun k : Fin 8 => (xFar c k).view.set) (fun k : Fin 8 => (xOwn c k).view.set) f
    (x_cov c) (xFar_dis c) (xOwn_dis c) (x_dis c)

theorem x_split (c : Dev nD) (f : Buf (Elt F) ((c : Thread nD τ).loc main_arg0)) :
    ((c : Thread nD τ).loc main_arg0 ↦{fullShare} f : sProp 𝕄)
      ⊢ iprop((bigSep Finset.univ fun k : Fin 8 => ((xFar c k).view.loc (c : Thread nD τ) ↦[(xFar c k).view.set]{fullShare} f))
          ∗ (bigSep Finset.univ fun k : Fin 8 => ((xOwn c k).view.loc (c : Thread nD τ) ↦[(xOwn c k).view.set]{fullShare} f))) :=
  Entails.of_eq (x_eq c f)

theorem x_join (c : Dev nD) (f : Buf (Elt F) ((c : Thread nD τ).loc main_arg0)) :
    iprop((bigSep Finset.univ fun k : Fin 8 => ((xFar c k).view.loc (c : Thread nD τ) ↦[(xFar c k).view.set]{fullShare} f))
          ∗ (bigSep Finset.univ fun k : Fin 8 => ((xOwn c k).view.loc (c : Thread nD τ) ↦[(xOwn c k).view.set]{fullShare} f)))
      ⊢ ((c : Thread nD τ).loc main_arg0 ↦{fullShare} f : sProp 𝕄) :=
  Entails.of_eq (x_eq c f).symm

/-! ### The staging buffer: eight chunks of 1024 rows -/

theorem mem_stg (k : Fin 8) (i : S8192x1024.Idx) :
    i ∈ (stg k).view.set ↔ 1024 * k.val ≤ (i 0).val ∧ (i 0).val < 1024 * k.val + 1024 := by
  rw [View.set_slice_whole, Rect.mem_set_unit]
  have h1 : (i 1).val < 1024 := (i 1).isLt
  show (∀ a : Fin 2, stgOff k a ≤ (i a).val ∧ (i a).val < stgOff k a + (![1024, 1024] : Fin 2 → Nat) a) ↔ _
  rw [Fin.forall_fin_two]
  show (1024 * k.val ≤ (i 0).val ∧ (i 0).val < 1024 * k.val + 1024) ∧ (0 ≤ (i 1).val ∧ (i 1).val < 0 + 1024) ↔ _
  omega

theorem stg_cov (c : Dev nD) (i : Idx ((c : Thread nD τ).loc cc0_scratch0)) : ∃ t : Fin 8, i ∈ (stg t).view.set := by
  have h0 : (i 0).val < 8192 := (i 0).isLt
  have hk : (i 0).val / 1024 < 8 := by omega
  have hm : 1024 * ((i 0).val / 1024) ≤ (i 0).val ∧ (i 0).val < 1024 * ((i 0).val / 1024) + 1024 := by omega
  exact ⟨⟨_, hk⟩, (mem_stg ⟨_, hk⟩ i).mpr hm⟩

theorem stg_dis (k k' : Fin 8) (h : k ≠ k') : Disjoint (stg k).view.set (stg k').view.set := by
  refine Finset.disjoint_left.mpr fun i h1 h2 => ?_
  have h1' := (mem_stg k i).mp h1
  have h2' := (mem_stg k' i).mp h2
  exact h (Fin.ext (by omega))

theorem stg_eq (c : Dev nD) (f : Buf (Elt F) ((c : Thread nD τ).loc cc0_scratch0)) :
    ((c : Thread nD τ).loc cc0_scratch0 ↦{fullShare} f : sProp 𝕄)
      = bigSep Finset.univ fun k : Fin 8 => ((stg k).view.loc (c : Thread nD τ) ↦[(stg k).view.set]{fullShare} f) :=
  pts_cover (ℓ := (c : Thread nD τ).loc cc0_scratch0) (fun k : Fin 8 => (stg k).view.set) f (stg_cov c) stg_dis

theorem stg_split (c : Dev nD) (f : Buf (Elt F) ((c : Thread nD τ).loc cc0_scratch0)) :
    ((c : Thread nD τ).loc cc0_scratch0 ↦{fullShare} f : sProp 𝕄)
      ⊢ bigSep Finset.univ fun k : Fin 8 => ((stg k).view.loc (c : Thread nD τ) ↦[(stg k).view.set]{fullShare} f) :=
  Entails.of_eq (stg_eq c f)

theorem stg_join (c : Dev nD) (f : Buf (Elt F) ((c : Thread nD τ).loc cc0_scratch0)) :
    (bigSep Finset.univ fun k : Fin 8 => ((stg k).view.loc (c : Thread nD τ) ↦[(stg k).view.set]{fullShare} f))
      ⊢ ((c : Thread nD τ).loc cc0_scratch0 ↦{fullShare} f : sProp 𝕄) :=
  Entails.of_eq (stg_eq c f).symm

/-! ### The local buffer: two slots -/

theorem mem_slot (s : Fin 2) (i : S2x1024x1024.Idx) : i ∈ (slot s).view.set ↔ (i 0).val = s.val := by
  rw [View.set_reshape, View.set_slice_whole, Rect.mem_set_unit]
  have h1 : (i 1).val < 1024 := (i 1).isLt
  have h2 : (i 2).val < 1024 := (i 2).isLt
  constructor
  · intro h
    have h0 : s.val ≤ (i 0).val ∧ (i 0).val < s.val + 1 := h 0
    omega
  · intro h a
    match a with
    | ⟨0, _⟩ => show s.val ≤ (i 0).val ∧ (i 0).val < s.val + 1; omega
    | ⟨1, _⟩ => show 0 ≤ (i 1).val ∧ (i 1).val < 0 + 1024; omega
    | ⟨2, _⟩ => show 0 ≤ (i 2).val ∧ (i 2).val < 0 + 1024; omega

theorem slot_eq (c : Dev nD) (f : Buf (Elt F) ((c : Thread nD τ).loc cc0_scratch1)) :
    ((c : Thread nD τ).loc cc0_scratch1 ↦{fullShare} f : sProp 𝕄)
      = iprop(((slot 0).view.loc (c : Thread nD τ) ↦[(slot 0).view.set]{fullShare} f)
          ∗ ((slot 1).view.loc (c : Thread nD τ) ↦[(slot 1).view.set]{fullShare} f)) := by
  have hD : Disjoint (slot 0).view.set (slot 1).view.set := by
    refine Finset.disjoint_left.mpr fun i h1 h2 => ?_
    have h1' := (mem_slot 0 i).mp h1
    have h2' := (mem_slot 1 i).mp h2
    have e0 : ((0 : Fin 2)).val = 0 := rfl
    have e1 : ((1 : Fin 2)).val = 1 := rfl
    omega
  have hU : (Finset.univ : Finset (Idx ((c : Thread nD τ).loc cc0_scratch1))) = (slot 0).view.set ∪ (slot 1).view.set := by
    ext i
    simp only [Finset.mem_univ, Finset.mem_union, true_iff]
    have h0 : (i 0).val < 2 := (i 0).isLt
    by_cases h : (i 0).val = 0
    · exact .inl ((mem_slot 0 i).mpr h)
    · exact .inr ((mem_slot 1 i).mpr (by show (i 0).val = 1; omega))
  have hu := pointsTo_union (Val := Elt F) (Ix := Unit) (Name := ℕ) (U := UU) (Lvl := ℕ) (ℓ := (c : Thread nD τ).loc cc0_scratch1)
    (q := fullShare) (f := f) hD
  rw [hU]
  exact BI.equiv_iff.mp ⟨hu.1, hu.2⟩

theorem slot_split (c : Dev nD) (f : Buf (Elt F) ((c : Thread nD τ).loc cc0_scratch1)) :
    ((c : Thread nD τ).loc cc0_scratch1 ↦{fullShare} f : sProp 𝕄)
      ⊢ iprop(((slot 0).view.loc (c : Thread nD τ) ↦[(slot 0).view.set]{fullShare} f)
          ∗ ((slot 1).view.loc (c : Thread nD τ) ↦[(slot 1).view.set]{fullShare} f)) :=
  Entails.of_eq (slot_eq c f)

theorem slot_join (c : Dev nD) (f : Buf (Elt F) ((c : Thread nD τ).loc cc0_scratch1)) :
    iprop(((slot 0).view.loc (c : Thread nD τ) ↦[(slot 0).view.set]{fullShare} f)
          ∗ ((slot 1).view.loc (c : Thread nD τ) ↦[(slot 1).view.set]{fullShare} f))
      ⊢ ((c : Thread nD τ).loc cc0_scratch1 ↦{fullShare} f : sProp 𝕄) :=
  Entails.of_eq (slot_eq c f).symm

/-! ## Joining chunks that hold different contents

Chunks held each at contents of its own join to the whole buffer at SOME contents: the chunks' contents glued,
each index taking the contents of the chunk it lies in. -/

section JoinEx
variable {ℓ : Loc nD τ sig} {T : Type} [DecidableEq T]

/-- A family of pairwise disjoint chunks, each held at some contents, is their union held at some contents. -/
theorem pts_join_ex (S : Finset T) (K : T → Finset (Idx ℓ)) (f₀ : Buf (Elt F) ℓ)
    (h : ∀ t ∈ S, ∀ t' ∈ S, t ≠ t' → Disjoint (K t) (K t')) :
    (bigSep S fun t => iprop(∃ f : Buf (Elt F) ℓ, ℓ ↦[K t]{fullShare} f) : sProp 𝕄)
      ⊢ iprop(∃ g : Buf (Elt F) ℓ, ℓ ↦[S.biUnion K]{fullShare} g) := by
  classical
  induction S using Finset.induction_on with
  | empty =>
    iintro -
    iexists f₀
    rw [Finset.biUnion_empty, pointsTo_empty]; iempintro
  | insert t S ht ih =>
    rw [bigSep_insert ht, Finset.biUnion_insert]
    have hd : Disjoint (K t) (S.biUnion K) :=
      (Finset.disjoint_biUnion_right _ _ _).mpr fun t' ht' =>
        h t (Finset.mem_insert_self _ _) t' (Finset.mem_insert_of_mem ht') (fun e => ht (e ▸ ht'))
    refine (show iprop((∃ f : Buf (Elt F) ℓ, ℓ ↦[K t]{fullShare} f)
        ∗ bigSep S (fun t => iprop(∃ f : Buf (Elt F) ℓ, ℓ ↦[K t]{fullShare} f))) ⊢ _ from ?_)
    iintro ⟨Ht, HS⟩
    icases Ht with ⟨%f, Ht⟩
    ihave H := (ih fun t₁ h₁ t₂ h₂ => h t₁ (Finset.mem_insert_of_mem h₁) t₂ (Finset.mem_insert_of_mem h₂)) $$ HS
    icases H with ⟨%g, HS⟩
    iexists (S.biUnion K).piecewise g f
    iapply (pointsTo_join hd)
    isplitl [Ht]; · iexact Ht
    iexact HS

/-- Over a covering family: the whole buffer at some contents. -/
theorem pts_join_ex_cover [Fintype T] (K : T → Finset (Idx ℓ)) (t₀ : T) (hcov : ∀ i, ∃ t, i ∈ K t)
    (hdis : ∀ t t', t ≠ t' → Disjoint (K t) (K t')) :
    (bigSep Finset.univ fun t => iprop(∃ f : Buf (Elt F) ℓ, ℓ ↦[K t]{fullShare} f) : sProp 𝕄)
      ⊢ iprop(∃ g : Buf (Elt F) ℓ, ℓ ↦{fullShare} g) := by
  have hU : Finset.univ.biUnion K = (Finset.univ : Finset (Idx ℓ)) := by
    ext i
    simp only [Finset.mem_univ, Finset.mem_biUnion, true_and, iff_true]
    exact hcov i
  by_cases hne : Nonempty (Buf (Elt F) ℓ)
  · obtain ⟨f₀⟩ := hne
    have := pts_join_ex (F := F) Finset.univ K f₀ (fun t _ t' _ h => hdis t t' h)
    rw [hU] at this
    exact this
  · rw [BI.bigSep_univ_split t₀]
    refine (show iprop((∃ f : Buf (Elt F) ℓ, ℓ ↦[K t₀]{fullShare} f)
        ∗ bigSep (Finset.univ.erase t₀) (fun t => iprop(∃ f : Buf (Elt F) ℓ, ℓ ↦[K t]{fullShare} f))) ⊢ _ from ?_)
    iintro ⟨H0, -⟩
    icases H0 with ⟨%f, H0⟩
    exact (hne ⟨f⟩).elim

end JoinEx

theorem stg_join_ex (c : Dev nD) :
    (bigSep Finset.univ fun k : Fin 8 => iprop(∃ f : Buf (Elt F) ((stg k).view.loc (c : Thread nD τ)),
        ((stg k).view.loc (c : Thread nD τ) ↦[(stg k).view.set]{fullShare} f)) : sProp 𝕄)
      ⊢ iprop(∃ f : Buf (Elt F) ((c : Thread nD τ).loc cc0_scratch0), ((c : Thread nD τ).loc cc0_scratch0) ↦{fullShare} f) :=
  pts_join_ex_cover (ℓ := (c : Thread nD τ).loc cc0_scratch0) (fun k : Fin 8 => (stg k).view.set) 0 (stg_cov c) stg_dis

theorem slot_join_ex (c : Dev nD) :
    (iprop((∃ f : Buf (Elt F) ((slot 0).view.loc (c : Thread nD τ)), ((slot 0).view.loc (c : Thread nD τ) ↦[(slot 0).view.set]{fullShare} f))
        ∗ (∃ f : Buf (Elt F) ((slot 1).view.loc (c : Thread nD τ)), ((slot 1).view.loc (c : Thread nD τ) ↦[(slot 1).view.set]{fullShare} f))) : sProp 𝕄)
      ⊢ iprop(∃ f : Buf (Elt F) ((c : Thread nD τ).loc cc0_scratch1), ((c : Thread nD τ).loc cc0_scratch1) ↦{fullShare} f) := by
  have hD : Disjoint (slot 0).view.set (slot 1).view.set := by
    refine Finset.disjoint_left.mpr fun i h1 h2 => ?_
    have h1' := (mem_slot 0 i).mp h1
    have h2' := (mem_slot 1 i).mp h2
    have e0 : ((0 : Fin 2)).val = 0 := rfl
    have e1 : ((1 : Fin 2)).val = 1 := rfl
    omega
  have hU : (slot 0).view.set ∪ (slot 1).view.set = (Finset.univ : Finset (Idx ((c : Thread nD τ).loc cc0_scratch1))) := by
    ext i
    simp only [Finset.mem_univ, Finset.mem_union, iff_true]
    have h0 : (i 0).val < 2 := (i 0).isLt
    by_cases h : (i 0).val = 0
    · exact .inl ((mem_slot 0 i).mpr h)
    · exact .inr ((mem_slot 1 i).mpr (by show (i 0).val = 1; omega))
  iintro ⟨H0, H1⟩
  icases H0 with ⟨%f0, H0⟩
  icases H1 with ⟨%f1, H1⟩
  iexists ((slot 1).view.set).piecewise f1 f0
  rw [← hU]
  iapply (pointsTo_join (ℓ := (c : Thread nD τ).loc cc0_scratch1) hD)
  isplitl [H0]; · iexact H0
  iexact H1

/-! ## A chunk by what it reads as -/

/-- Contents that read the same through a view are the same on the view's elements. -/
theorem pts_congr_read {sp : Space} {s : Shape} {e : EltTy} (c : Dev nD) (v : View sig .tc sp s e)
    (g g' : Buf (Elt F) (v.loc (c : Thread nD τ))) (h : v.read (Elt F) g = v.read (Elt F) g') (q : PosShare TreeShare) :
    (v.loc (c : Thread nD τ) ↦[v.set]{q} g : sProp 𝕄) = (v.loc (c : Thread nD τ) ↦[v.set]{q} g') := by
  refine BI.Region.is_congr fun i hi => ?_
  obtain ⟨y, rfl⟩ := View.exists_emb_of_mem_set v hi
  have hy := congrFun h y
  rw [View.read_apply, View.read_apply] at hy
  exact (cast_inj _).mp hy

/-- A chunk of the device's own result that reads as chunk `k` of its own columns holds what the result must hold
    there. -/
theorem kept_of_read (c : Dev nD) (k : Fin 8) (g : Buf (Elt F) ((res c k).view.loc (c : Thread nD τ)))
    (hg : (res c k).view.read (Elt F) g = (xOwn c k).view.read (Elt F) (xAt m c)) :
    ((res c k).view.loc (c : Thread nD τ) ↦[(res c k).view.set]{fullShare} g : sProp 𝕄)
      ⊢ ((res c k).view.loc (c : Thread nD τ) ↦[(res c k).view.set]{fullShare} want m c) := by
  have hw : (res c k).view.read (Elt F) g
      = (res c k).view.read (Elt F) ((res c k).view.write (Elt F) g ((xOwn c k).view.read (Elt F) (xAt m c)) Finset.univ) := by
    rw [hg]
    funext y
    exact (View.read_write_of_mem _ _ (Finset.mem_univ y)).symm
  rw [pts_congr_read c (res c k).view g _ hw fullShare]
  exact kept_pts m c k g

/-- The same for a landed chunk: contents of the peer's result that read as chunk `k` of the peer's columns of the
    device's block. -/
theorem landed_of_read (c : Dev nD) (k : Fin 8) (g : Buf (Elt F) ((res c k).view.loc ((peer c : Dev nD) : Thread nD τ)))
    (hg : (res c k).view.read (Elt F) g = (xFar c k).view.read (Elt F) (xAt m c)) :
    ((res c k).view.loc ((peer c : Dev nD) : Thread nD τ) ↦[(res c k).view.set]{fullShare} g : sProp 𝕄)
      ⊢ recvPay m (peer c) k := by
  have hw : (res c k).view.read (Elt F) g
      = (res c k).view.read (Elt F) ((res c k).view.write (Elt F) g ((xFar c k).view.read (Elt F) (xAt m c)) Finset.univ) := by
    rw [hg]
    funext y
    exact (View.read_write_of_mem _ _ (Finset.mem_univ y)).symm
  rw [pts_congr_read (peer c) (res c k).view g _ hw fullShare]
  exact landed_pts m c k g

end Cert.Kernel.Xchg

end
-- ==== Proof.Kernel.ReadBack.lean ====
/-
  Reading a chunk back.

  A staging chunk or a slot, after ONE copy has overwritten it whole, reads — through its own view — as exactly what the
  copy carried, whatever it held before.
-/
import proofs.«900643_g7700000000000644_dist_a2a_v7x_xyz2x2x4_y_m8192_n1024_f32_1_alg».proof.Proof.Kernel.Ledger
import Idealize.ShloMosaic.Lib.Writes

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A view whose LAST write was whole reads as that write's piece, whatever was written before and held before. -/
theorem read_back_cons {κ : Kind} {sp : Space} {s : Shape} {e : EltTy} (v : View sig κ sp s e) (f : v.ty.Contents (Elt F))
    (P : (Rect.whole s).shape.Idx → Elt F e) (L : List (View.Piece (Elt F) s e)) :
    v.read (Elt F) (v.writes (Elt F) f (⟨Rect.whole s, P⟩ :: L)) = fun x => P x := by
  funext x
  have h := View.read_writes_cons_emb v f (Rect.whole s) P L x
  rw [Rect.emb_whole_apply] at h
  exact h

omit [FloatOps F] in
/-- A view overwritten whole by one piece reads as that piece. -/
theorem read_back {κ : Kind} {sp : Space} {s : Shape} {e : EltTy} (v : View sig κ sp s e) (f : v.ty.Contents (Elt F))
    (P : (Rect.whole s).shape.Idx → Elt F e) :
    v.read (Elt F) (v.writes (Elt F) f [⟨Rect.whole s, P⟩]) = fun x => P x := read_back_cons v f P []

end Cert.Kernel.Xchg

end
-- ==== Proof.Kernel.Body.lean ====
/-
  One device's run of the kernel body.

  From what the device holds at launch (`bodyPre`) to what it must hold at the end (`bodyPost`), in program order:
  * it signals its peer's barrier cell, handing over the eight chunks of its own result array that the peer will fill,
    and waits on its own barrier cell, which brings the peer's eight chunks;
  * it starts the eight staging copies (the peer's columns of each chunk of its block into the staging buffer);
  * chunk by chunk it waits for the staging copy and sends the staging chunk into the peer's result array
    (`wp_send_chunk`): what it owes drops from `owedFrom c k` to `owedFrom c (k + 1)`, down to nothing;
  * it copies its own columns chunk by chunk through the two slots into its own half of the rows of its result;
  * it waits on its eight send cells (the staging chunks come back) and its eight receive cells (the peer's chunks have
    landed in its result, each holding what the result must hold there: the cell's payload says so).
  Then the pieces are put back: the input block from its sixteen chunks, unchanged; the result from its sixteen
  chunks, each restated as the exchanged array on its rows — an own chunk reads as the own columns' chunk because it was
  copied whole from a slot that had just been filled whole with it —; the scratch buffers at some contents; every
  semaphore of the exchange closed and back at zero. The device's buffers are held chunk by chunk throughout, each
  chunk as the elements of the slice the program itself names.
-/
import proofs.«900643_g7700000000000644_dist_a2a_v7x_xyz2x2x4_y_m8192_n1024_f32_1_alg».proof.Proof.Kernel.Send
import proofs.«900643_g7700000000000644_dist_a2a_v7x_xyz2x2x4_y_m8192_n1024_f32_1_alg».proof.Proof.Kernel.Chunks
import proofs.«900643_g7700000000000644_dist_a2a_v7x_xyz2x2x4_y_m8192_n1024_f32_1_alg».proof.Proof.Kernel.ReadBack

noncomputable section

namespace Cert.Kernel.Xchg

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Opening the records -/

omit [FloatOps F] in
theorem inv_at' (K : Dev nD × Fin 17 → ℕ) (ck : Dev nD × Fin 17) :
    (bigSep Finset.univ fun ck : Dev nD × Fin 17 => (cellInv ER (sched m) (K ck) (kcell ck) : sProp 𝕄)) ⊢ cellInv ER (sched m) (K ck) (kcell ck) :=
  bigSep_elim (Finset.mem_univ ck)
omit [FloatOps F] in
theorem reached_at' (ck : Dev nD × Fin 17) :
    (bigSep Finset.univ fun ck : Dev nD × Fin 17 => (reached ER (kcell ck) 0 : sProp 𝕄)) ⊢ reached ER (kcell ck) 0 :=
  bigSep_elim (Finset.mem_univ ck)
omit [FloatOps F] in
theorem inv_at (K : Dev nD × Fin 17 → ℕ) (ck : Dev nD × Fin 17) : records m K ⊢ cellInv ER (sched m) (K ck) (kcell ck) := by
  unfold records; iintro ⟨#HI, -⟩
  iapply (inv_at' m K ck); iexact HI
omit [FloatOps F] in
theorem reached_at (K : Dev nD × Fin 17 → ℕ) (ck : Dev nD × Fin 17) : records m K ⊢ reached ER (kcell ck) 0 := by
  unfold records; iintro ⟨-, #HR⟩
  iapply (reached_at' (F := F) ck); iexact HR
omit [FloatOps F] in
theorem inv_bar (K : Dev nD × Fin 17 → ℕ) (d : Dev nD) : records m K ⊢ cellInv ER (sched m) (K (d, 0)) (barCell d) := inv_at m K (d, 0)
omit [FloatOps F] in
theorem inv_send (K : Dev nD × Fin 17 → ℕ) (d : Dev nD) (k : Fin 8) : records m K ⊢ cellInv ER (sched m) (K (d, sIx k)) (sendCell d k) := by
  rw [← kcell_send]; exact inv_at m K (d, sIx k)
omit [FloatOps F] in
theorem inv_recv (K : Dev nD × Fin 17 → ℕ) (d : Dev nD) (k : Fin 8) : records m K ⊢ cellInv ER (sched m) (K (d, rIx k)) (recvCell d k) := by
  rw [← kcell_recv]; exact inv_at m K (d, rIx k)
omit [FloatOps F] in
theorem rch_bar (K : Dev nD × Fin 17 → ℕ) (d : Dev nD) : records m K ⊢ reached ER (barCell d) 0 := reached_at m K (d, 0)
omit [FloatOps F] in
theorem rch_send (K : Dev nD × Fin 17 → ℕ) (d : Dev nD) (k : Fin 8) : records m K ⊢ reached ER (sendCell d k) 0 := by
  rw [← kcell_send]; exact reached_at m K (d, sIx k)
omit [FloatOps F] in
theorem rch_recv (K : Dev nD × Fin 17 → ℕ) (d : Dev nD) (k : Fin 8) : records m K ⊢ reached ER (recvCell d k) 0 := by
  rw [← kcell_recv]; exact reached_at m K (d, rIx k)

omit [FloatOps F] in
/-- What the wait on receive cell `k` hands back: that chunk of the result, holding what the result must hold. -/
theorem recv_back (c : Dev nD) (k : Fin 8) : ((sched (F := F) m).payload (recvCell c k) 0 () : sProp 𝕄)
    ⊢ ((res (peer c) k).view.loc (c : Thread nD τ) ↦[(res (peer c) k).view.set]{fullShare} want m c) :=
  Entails.of_eq (by rw [payload_recv]; rfl)
omit [FloatOps F] in
/-- What the wait on send cell `k` hands back: staging chunk `k`, at some contents. -/
theorem send_back (c : Dev nD) (k : Fin 8) : ((sched (F := F) m).payload (sendCell c k) 0 () : sProp 𝕄)
    ⊢ iprop(∃ f : Buf (Elt F) ((stg k).view.loc (c : Thread nD τ)), ((stg k).view.loc (c : Thread nD τ) ↦[(stg k).view.set]{fullShare} f)) :=
  Entails.of_eq (by rw [payload_send]; rfl)

attribute [local sl_canon] dev1_eq dev2_eq dev3_eq dev4_eq dev5_eq dev6_eq dev7_eq dev8_eq dev9_eq

omit [FloatOps F] in
theorem payload_bar_peer (c : Dev nD) (u : Unit) : (sched (F := F) m).payload (barCell (peer c)) 0 u
    = iprop((∃ f, (res (peer c) 0).view.loc (c : Thread nD τ) ↦[(res (peer c) 0).view.set]{fullShare} f) ∗ (∃ f, (res (peer c) 1).view.loc (c : Thread nD τ) ↦[(res (peer c) 1).view.set]{fullShare} f) ∗ (∃ f, (res (peer c) 2).view.loc (c : Thread nD τ) ↦[(res (peer c) 2).view.set]{fullShare} f) ∗ (∃ f, (res (peer c) 3).view.loc (c : Thread nD τ) ↦[(res (peer c) 3).view.set]{fullShare} f) ∗ (∃ f, (res (peer c) 4).view.loc (c : Thread nD τ) ↦[(res (peer c) 4).view.set]{fullShare} f) ∗ (∃ f, (res (peer c) 5).view.loc (c : Thread nD τ) ↦[(res (peer c) 5).view.set]{fullShare} f) ∗ (∃ f, (res (peer c) 6).view.loc (c : Thread nD τ) ↦[(res (peer c) 6).view.set]{fullShare} f) ∗ (∃ f, (res (peer c) 7).view.loc (c : Thread nD τ) ↦[(res (peer c) 7).view.set]{fullShare} f)) := by
  rw [payload_bar]; unfold barPay resPts; rw [bigSep_fin8, peer_peer]

attribute [local sl_rounds] duties_bar duties_send duties_recv amount_bar amount_send amount_recv payload_bar_peer expect_bar expect_send expect_recv

attribute [local irreducible] peer yOf k0_off1 k0_off2 k0_off3 k0_off4 k0_off5 k0_off6 k0_off7 k0_off8 k0_off9 k0_off10 k0_off11 k0_off12 k0_off13 k0_off14 k0_off15 k0_off16 k0_off17

set_option maxRecDepth 16384 in
set_option maxHeartbeats 4000000 in
theorem sound_body_at (c : Dev nD) (Kt : PUnit → sProp 𝕄) :
    iprop(bodyPre m c ∗ (bodyPost m c -∗ Kt ⟨⟩)) ⊢ wp frame (wpE (defs₀ (F := F)) 𝒱₀ c none) Set.univ (theBody (F := F)) Kt := by
  unfold bodyPre bodyPost Φ₀ start scratch
  iintro ⟨⟨⟨⟨⟨%K, Hg⟩, Hcred, #Hlev, Hloc⟩, Hx, Hv, ⟨%fS, Hstg⟩, ⟨%fL, Hslot⟩⟩, Ho⟩, Hk⟩
  unfold ghost
  icases Hg with ⟨#Hrec, Hpos, Htok⟩
  unfold Dat.owesAt Pipeline.owesWithin
  icases Ho with ⟨%W, %hW, HO⟩
  rw [show (dats m 0 c).owed t₀.castSucc = O₀ c from rfl]
  unfold O₀
  have hmwB := fun j => mayWait_bar (F := F) c j
  have hmwD := fun (q : DmaSem sig) (hq : q.val < 20) j => mayWait_dma (F := F) c q hq j
  ihave #Ib := (inv_bar m K c) $$ Hrec
  ihave #Ibp := (inv_bar m K (peer c)) $$ Hrec
  ihave #Rbp := (rch_bar m K (peer c)) $$ Hrec
  unfold positions payToks creds localSems
  icases Hpos with ⟨Ab, HposS, HposR⟩
  icases Htok with ⟨Tbp, HtokR, HtokS⟩
  icases Hcred with ⟨Cb, HcredR⟩
  icases Hloc with ⟨HzP, HzI, HzO⟩
  -- the result array by chunks: the eight the peer will fill go out with the entry signal
  ihave Hv' := (res_split c _) $$ Hv
  icases Hv' with ⟨HvOwn, HvFar⟩
  ihave HvFar' := (Entails.of_eq (bigSep_fin8 _)) $$ HvFar
  icases HvFar' with ⟨Rl0, Rl1, Rl2, Rl3, Rl4, Rl5, Rl6, Rl7⟩
  -- the input block by chunks; the far columns' chunks feed the staging copies
  ihave Hx' := (x_split c _) $$ Hx
  icases Hx' with ⟨HxFar, HxOwn⟩
  ihave HxFar' := (Entails.of_eq (bigSep_fin8 _)) $$ HxFar
  icases HxFar' with ⟨Xf0, Xf1, Xf2, Xf3, Xf4, Xf5, Xf6, Xf7⟩
  ihave Hstg' := (stg_split c _) $$ Hstg
  ihave Hstg'' := (Entails.of_eq (bigSep_fin8 _)) $$ Hstg'
  icases Hstg'' with ⟨Sg0, Sg1, Sg2, Sg3, Sg4, Sg5, Sg6, Sg7⟩
  ihave HzP' := (Entails.of_eq (bigSep_fin8 _)) $$ HzP
  icases HzP' with ⟨Zp0, Zp1, Zp2, Zp3, Zp4, Zp5, Zp6, Zp7⟩
  sl_exec_parts (disch := simp only [dev1_eq, dev2_eq, dev3_eq, dev4_eq, dev5_eq, dev6_eq, dev7_eq, dev8_eq, dev9_eq])

  -- the peer's eight chunks, from its entry signal
  ihave Hbp := (Entails.of_eq (payload_bar m c ())) $$ Ab_pay1
  unfold barPay
  ihave Hbp' := (Entails.of_eq (bigSep_fin8 _)) $$ Hbp
  unfold resPts
  icases Hbp' with ⟨⟨%fd0, Dp0⟩, ⟨%fd1, Dp1⟩, ⟨%fd2, Dp2⟩, ⟨%fd3, Dp3⟩, ⟨%fd4, Dp4⟩, ⟨%fd5, Dp5⟩, ⟨%fd6, Dp6⟩, ⟨%fd7, Dp7⟩⟩
  -- the send cells' and the peer's receive cells' records and tokens
  ihave #Is0 := (inv_send m K c 0) $$ Hrec
  ihave #Irp0 := (inv_recv m K (peer c) 0) $$ Hrec
  ihave #Rs0 := (rch_send m K c 0) $$ Hrec
  ihave #Rrp0 := (rch_recv m K (peer c) 0) $$ Hrec
  ihave #Is1 := (inv_send m K c 1) $$ Hrec
  ihave #Irp1 := (inv_recv m K (peer c) 1) $$ Hrec
  ihave #Rs1 := (rch_send m K c 1) $$ Hrec
  ihave #Rrp1 := (rch_recv m K (peer c) 1) $$ Hrec
  ihave #Is2 := (inv_send m K c 2) $$ Hrec
  ihave #Irp2 := (inv_recv m K (peer c) 2) $$ Hrec
  ihave #Rs2 := (rch_send m K c 2) $$ Hrec
  ihave #Rrp2 := (rch_recv m K (peer c) 2) $$ Hrec
  ihave #Is3 := (inv_send m K c 3) $$ Hrec
  ihave #Irp3 := (inv_recv m K (peer c) 3) $$ Hrec
  ihave #Rs3 := (rch_send m K c 3) $$ Hrec
  ihave #Rrp3 := (rch_recv m K (peer c) 3) $$ Hrec
  ihave #Is4 := (inv_send m K c 4) $$ Hrec
  ihave #Irp4 := (inv_recv m K (peer c) 4) $$ Hrec
  ihave #Rs4 := (rch_send m K c 4) $$ Hrec
  ihave #Rrp4 := (rch_recv m K (peer c) 4) $$ Hrec
  ihave #Is5 := (inv_send m K c 5) $$ Hrec
  ihave #Irp5 := (inv_recv m K (peer c) 5) $$ Hrec
  ihave #Rs5 := (rch_send m K c 5) $$ Hrec
  ihave #Rrp5 := (rch_recv m K (peer c) 5) $$ Hrec
  ihave #Is6 := (inv_send m K c 6) $$ Hrec
  ihave #Irp6 := (inv_recv m K (peer c) 6) $$ Hrec
  ihave #Rs6 := (rch_send m K c 6) $$ Hrec
  ihave #Rrp6 := (rch_recv m K (peer c) 6) $$ Hrec
  ihave #Is7 := (inv_send m K c 7) $$ Hrec
  ihave #Irp7 := (inv_recv m K (peer c) 7) $$ Hrec
  ihave #Rs7 := (rch_send m K c 7) $$ Hrec
  ihave #Rrp7 := (rch_recv m K (peer c) 7) $$ Hrec
  ihave HtokS' := (Entails.of_eq (bigSep_fin8 _)) $$ HtokS
  icases HtokS' with ⟨Ts0, Ts1, Ts2, Ts3, Ts4, Ts5, Ts6, Ts7⟩
  ihave HtokR' := (Entails.of_eq (bigSep_fin8 _)) $$ HtokR
  icases HtokR' with ⟨Trp0, Trp1, Trp2, Trp3, Trp4, Trp5, Trp6, Trp7⟩
  -- remote copy 0
  iapply (wp_send_chunk m c _ (dev2_eq c) 0 (K (c, sIx 0)) (K (peer c, rIx 0)) _ (read_back _ fS _) fd0 (landed_pts m c 0 fd0) _) $$ [Sg0 Dp0 HO Ts0 Trp0]
  · isplitr; · iexact Is0
    isplitr; · iexact Irp0
    isplitl [Sg0]; · iexact Sg0
    isplitl [Dp0]; · iexact Dp0
    isplitl [HO]; · iexact HO
    isplitl [Ts0]; · iexact Ts0
    isplitr; · iexact Rs0
    isplitl [Trp0]; · iexact Trp0
    iexact Rrp0
  iintro ⟨Cs0, HO⟩
  sl_exec_parts (disch := simp only [dev1_eq, dev2_eq, dev3_eq, dev4_eq, dev5_eq, dev6_eq, dev7_eq, dev8_eq, dev9_eq])
  -- remote copy 1
  iapply (wp_send_chunk m c _ rfl 1 (K (c, sIx 1)) (K (peer c, rIx 1)) _ (read_back _ fS _) fd1 (landed_pts m c 1 fd1) _) $$ [Sg1 Dp1 HO Ts1 Trp1]
  · isplitr; · iexact Is1
    isplitr; · iexact Irp1
    isplitl [Sg1]; · iexact Sg1
    isplitl [Dp1]; · iexact Dp1
    isplitl [HO]; · iexact HO
    isplitl [Ts1]; · iexact Ts1
    isplitr; · iexact Rs1
    isplitl [Trp1]; · iexact Trp1
    iexact Rrp1
  iintro ⟨Cs1, HO⟩
  sl_exec_parts (disch := simp only [dev1_eq, dev2_eq, dev3_eq, dev4_eq, dev5_eq, dev6_eq, dev7_eq, dev8_eq, dev9_eq])
  -- remote copy 2
  iapply (wp_send_chunk m c _ rfl 2 (K (c, sIx 2)) (K (peer c, rIx 2)) _ (read_back _ fS _) fd2 (landed_pts m c 2 fd2) _) $$ [Sg2 Dp2 HO Ts2 Trp2]
  · isplitr; · iexact Is2
    isplitr; · iexact Irp2
    isplitl [Sg2]; · iexact Sg2
    isplitl [Dp2]; · iexact Dp2
    isplitl [HO]; · iexact HO
    isplitl [Ts2]; · iexact Ts2
    isplitr; · iexact Rs2
    isplitl [Trp2]; · iexact Trp2
    iexact Rrp2
  iintro ⟨Cs2, HO⟩
  sl_exec_parts (disch := simp only [dev1_eq, dev2_eq, dev3_eq, dev4_eq, dev5_eq, dev6_eq, dev7_eq, dev8_eq, dev9_eq])
  -- remote copy 3
  iapply (wp_send_chunk m c _ rfl 3 (K (c, sIx 3)) (K (peer c, rIx 3)) _ (read_back _ fS _) fd3 (landed_pts m c 3 fd3) _) $$ [Sg3 Dp3 HO Ts3 Trp3]
  · isplitr; · iexact Is3
    isplitr; · iexact Irp3
    isplitl [Sg3]; · iexact Sg3
    isplitl [Dp3]; · iexact Dp3
    isplitl [HO]; · iexact HO
    isplitl [Ts3]; · iexact Ts3
    isplitr; · iexact Rs3
    isplitl [Trp3]; · iexact Trp3
    iexact Rrp3
  iintro ⟨Cs3, HO⟩
  sl_exec_parts (disch := simp only [dev1_eq, dev2_eq, dev3_eq, dev4_eq, dev5_eq, dev6_eq, dev7_eq, dev8_eq, dev9_eq])
  -- remote copy 4
  iapply (wp_send_chunk m c _ rfl 4 (K (c, sIx 4)) (K (peer c, rIx 4)) _ (read_back _ fS _) fd4 (landed_pts m c 4 fd4) _) $$ [Sg4 Dp4 HO Ts4 Trp4]
  · isplitr; · iexact Is4
    isplitr; · iexact Irp4
    isplitl [Sg4]; · iexact Sg4
    isplitl [Dp4]; · iexact Dp4
    isplitl [HO]; · iexact HO
    isplitl [Ts4]; · iexact Ts4
    isplitr; · iexact Rs4
    isplitl [Trp4]; · iexact Trp4
    iexact Rrp4
  iintro ⟨Cs4, HO⟩
  sl_exec_parts (disch := simp only [dev1_eq, dev2_eq, dev3_eq, dev4_eq, dev5_eq, dev6_eq, dev7_eq, dev8_eq, dev9_eq])
  -- remote copy 5
  iapply (wp_send_chunk m c _ rfl 5 (K (c, sIx 5)) (K (peer c, rIx 5)) _ (read_back _ fS _) fd5 (landed_pts m c 5 fd5) _) $$ [Sg5 Dp5 HO Ts5 Trp5]
  · isplitr; · iexact Is5
    isplitr; · iexact Irp5
    isplitl [Sg5]; · iexact Sg5
    isplitl [Dp5]; · iexact Dp5
    isplitl [HO]; · iexact HO
    isplitl [Ts5]; · iexact Ts5
    isplitr; · iexact Rs5
    isplitl [Trp5]; · iexact Trp5
    iexact Rrp5
  iintro ⟨Cs5, HO⟩
  sl_exec_parts (disch := simp only [dev1_eq, dev2_eq, dev3_eq, dev4_eq, dev5_eq, dev6_eq, dev7_eq, dev8_eq, dev9_eq])
  -- remote copy 6
  iapply (wp_send_chunk m c _ rfl 6 (K (c, sIx 6)) (K (peer c, rIx 6)) _ (read_back _ fS _) fd6 (landed_pts m c 6 fd6) _) $$ [Sg6 Dp6 HO Ts6 Trp6]
  · isplitr; · iexact Is6
    isplitr; · iexact Irp6
    isplitl [Sg6]; · iexact Sg6
    isplitl [Dp6]; · iexact Dp6
    isplitl [HO]; · iexact HO
    isplitl [Ts6]; · iexact Ts6
    isplitr; · iexact Rs6
    isplitl [Trp6]; · iexact Trp6
    iexact Rrp6
  iintro ⟨Cs6, HO⟩
  sl_exec_parts (disch := simp only [dev1_eq, dev2_eq, dev3_eq, dev4_eq, dev5_eq, dev6_eq, dev7_eq, dev8_eq, dev9_eq])
  -- remote copy 7
  iapply (wp_send_chunk m c _ rfl 7 (K (c, sIx 7)) (K (peer c, rIx 7)) _ (read_back _ fS _) fd7 (landed_pts m c 7 fd7) _) $$ [Sg7 Dp7 HO Ts7 Trp7]
  · isplitr; · iexact Is7
    isplitr; · iexact Irp7
    isplitl [Sg7]; · iexact Sg7
    isplitl [Dp7]; · iexact Dp7
    isplitl [HO]; · iexact HO
    isplitl [Ts7]; · iexact Ts7
    isplitr; · iexact Rs7
    isplitl [Trp7]; · iexact Trp7
    iexact Rrp7
  iintro ⟨Cs7, HO⟩

  -- every chunk has gone: nothing more is owed
  have hdone : ∀ W' : Waits sig Unit, (owes (c : Thread nD τ) (owedFrom c ((7 : Fin 8).val + 1)) W' : sProp 𝕄) ⊢ owes (c : Thread nD τ) 0 W' :=
    fun W' => Entails.of_eq (by rw [show owedFrom c ((7 : Fin 8).val + 1) = 0 from owedFrom_done c])
  ihave HO := (hdone _) $$ HO
  -- the own columns' chunks, the two slots, the own half of the result, the local semaphores
  ihave HxOwn' := (Entails.of_eq (bigSep_fin8 _)) $$ HxOwn
  icases HxOwn' with ⟨Xo0, Xo1, Xo2, Xo3, Xo4, Xo5, Xo6, Xo7⟩
  ihave Hslot' := (slot_split c _) $$ Hslot
  icases Hslot' with ⟨Sl0, Sl1⟩
  ihave HvOwn' := (Entails.of_eq (bigSep_fin8 _)) $$ HvOwn
  icases HvOwn' with ⟨Ro0, Ro1, Ro2, Ro3, Ro4, Ro5, Ro6, Ro7⟩
  ihave HzI' := (Entails.of_eq (bigSep_fin2 _)) $$ HzI
  icases HzI' with ⟨Zi0, Zi1⟩
  ihave HzO' := (Entails.of_eq (bigSep_fin2 _)) $$ HzO
  icases HzO' with ⟨Zo0, Zo1⟩
  -- the own receive cells' records, the positions and the credit for the last sixteen waits
  ihave #Ir0 := (inv_recv m K c 0) $$ Hrec
  ihave #Ir1 := (inv_recv m K c 1) $$ Hrec
  ihave #Ir2 := (inv_recv m K c 2) $$ Hrec
  ihave #Ir3 := (inv_recv m K c 3) $$ Hrec
  ihave #Ir4 := (inv_recv m K c 4) $$ Hrec
  ihave #Ir5 := (inv_recv m K c 5) $$ Hrec
  ihave #Ir6 := (inv_recv m K c 6) $$ Hrec
  ihave #Ir7 := (inv_recv m K c 7) $$ Hrec
  ihave HposS' := (Entails.of_eq (bigSep_fin8 _)) $$ HposS
  icases HposS' with ⟨As0, As1, As2, As3, As4, As5, As6, As7⟩
  ihave HposR' := (Entails.of_eq (bigSep_fin8 _)) $$ HposR
  icases HposR' with ⟨Ar0, Ar1, Ar2, Ar3, Ar4, Ar5, Ar6, Ar7⟩
  ihave HcredR' := (Entails.of_eq (bigSep_fin8 _)) $$ HcredR
  icases HcredR' with ⟨Cr0, Cr1, Cr2, Cr3, Cr4, Cr5, Cr6, Cr7⟩
  sl_exec_parts (disch := simp only [dev1_eq, dev2_eq, dev3_eq, dev4_eq, dev5_eq, dev6_eq, dev7_eq, dev8_eq, dev9_eq])
  -- the sixteen cells of the exchange have seen their one round: their counters are the device's again, at zero
  imod (Rounds.cell_close ER (sched m) (Set.mem_univ (K (c, sIx 0))) (fun h => h) (R := 0 + 1) (duties_later m (sendCell c 0))) $$ [As0] with Hzs0
  · isplitr; · iexact Is0
    iexact As0
  imod (Rounds.cell_close ER (sched m) (Set.mem_univ (K (c, rIx 0))) (fun h => h) (R := 0 + 1) (duties_later m (recvCell c 0))) $$ [Ar0] with Hzr0
  · isplitr; · iexact Ir0
    iexact Ar0
  imod (Rounds.cell_close ER (sched m) (Set.mem_univ (K (c, sIx 1))) (fun h => h) (R := 0 + 1) (duties_later m (sendCell c 1))) $$ [As1] with Hzs1
  · isplitr; · iexact Is1
    iexact As1
  imod (Rounds.cell_close ER (sched m) (Set.mem_univ (K (c, rIx 1))) (fun h => h) (R := 0 + 1) (duties_later m (recvCell c 1))) $$ [Ar1] with Hzr1
  · isplitr; · iexact Ir1
    iexact Ar1
  imod (Rounds.cell_close ER (sched m) (Set.mem_univ (K (c, sIx 2))) (fun h => h) (R := 0 + 1) (duties_later m (sendCell c 2))) $$ [As2] with Hzs2
  · isplitr; · iexact Is2
    iexact As2
  imod (Rounds.cell_close ER (sched m) (Set.mem_univ (K (c, rIx 2))) (fun h => h) (R := 0 + 1) (duties_later m (recvCell c 2))) $$ [Ar2] with Hzr2
  · isplitr; · iexact Ir2
    iexact Ar2
  imod (Rounds.cell_close ER (sched m) (Set.mem_univ (K (c, sIx 3))) (fun h => h) (R := 0 + 1) (duties_later m (sendCell c 3))) $$ [As3] with Hzs3
  · isplitr; · iexact Is3
    iexact As3
  imod (Rounds.cell_close ER (sched m) (Set.mem_univ (K (c, rIx 3))) (fun h => h) (R := 0 + 1) (duties_later m (recvCell c 3))) $$ [Ar3] with Hzr3
  · isplitr; · iexact Ir3
    iexact Ar3
  imod (Rounds.cell_close ER (sched m) (Set.mem_univ (K (c, sIx 4))) (fun h => h) (R := 0 + 1) (duties_later m (sendCell c 4))) $$ [As4] with Hzs4
  · isplitr; · iexact Is4
    iexact As4
  imod (Rounds.cell_close ER (sched m) (Set.mem_univ (K (c, rIx 4))) (fun h => h) (R := 0 + 1) (duties_later m (recvCell c 4))) $$ [Ar4] with Hzr4
  · isplitr; · iexact Ir4
    iexact Ar4
  imod (Rounds.cell_close ER (sched m) (Set.mem_univ (K (c, sIx 5))) (fun h => h) (R := 0 + 1) (duties_later m (sendCell c 5))) $$ [As5] with Hzs5
  · isplitr; · iexact Is5
    iexact As5
  imod (Rounds.cell_close ER (sched m) (Set.mem_univ (K (c, rIx 5))) (fun h => h) (R := 0 + 1) (duties_later m (recvCell c 5))) $$ [Ar5] with Hzr5
  · isplitr; · iexact Ir5
    iexact Ar5
  imod (Rounds.cell_close ER (sched m) (Set.mem_univ (K (c, sIx 6))) (fun h => h) (R := 0 + 1) (duties_later m (sendCell c 6))) $$ [As6] with Hzs6
  · isplitr; · iexact Is6
    iexact As6
  imod (Rounds.cell_close ER (sched m) (Set.mem_univ (K (c, rIx 6))) (fun h => h) (R := 0 + 1) (duties_later m (recvCell c 6))) $$ [Ar6] with Hzr6
  · isplitr; · iexact Ir6
    iexact Ar6
  imod (Rounds.cell_close ER (sched m) (Set.mem_univ (K (c, sIx 7))) (fun h => h) (R := 0 + 1) (duties_later m (sendCell c 7))) $$ [As7] with Hzs7
  · isplitr; · iexact Is7
    iexact As7
  imod (Rounds.cell_close ER (sched m) (Set.mem_univ (K (c, rIx 7))) (fun h => h) (R := 0 + 1) (duties_later m (recvCell c 7))) $$ [Ar7] with Hzr7
  · isplitr; · iexact Ir7
    iexact Ar7
  -- each own chunk of the result reads as the own columns' chunk: it was copied whole from a slot that had just been filled whole with it
  have hg0 : (res c 0).view.read (Elt F) ((res c 0).view.writes (Elt F) (m ((c : Thread nD τ).loc main_v1)) [⟨Rect.whole S1024x1024, sound_body_at.sl.dma0_9 m c fL⟩])
      = (xOwn c 0).view.read (Elt F) (xAt m c) :=
    (read_back _ _ _).trans (read_back_cons (slot 0).view fL _ _)
  have hg1 : (res c 1).view.read (Elt F) ((res c 1).view.writes (Elt F) (m ((c : Thread nD τ).loc main_v1)) [⟨Rect.whole S1024x1024, sound_body_at.sl.dma0_11 m c fL⟩])
      = (xOwn c 1).view.read (Elt F) (xAt m c) :=
    (read_back _ _ _).trans (read_back_cons (slot 1).view fL _ _)
  have hg2 : (res c 2).view.read (Elt F) ((res c 2).view.writes (Elt F) (m ((c : Thread nD τ).loc main_v1)) [⟨Rect.whole S1024x1024, sound_body_at.sl.dma0_13 m c fL⟩])
      = (xOwn c 2).view.read (Elt F) (xAt m c) :=
    (read_back _ _ _).trans (read_back_cons (slot 0).view fL _ _)
  have hg3 : (res c 3).view.read (Elt F) ((res c 3).view.writes (Elt F) (m ((c : Thread nD τ).loc main_v1)) [⟨Rect.whole S1024x1024, sound_body_at.sl.dma0_15 m c fL⟩])
      = (xOwn c 3).view.read (Elt F) (xAt m c) :=
    (read_back _ _ _).trans (read_back_cons (slot 1).view fL _ _)
  have hg4 : (res c 4).view.read (Elt F) ((res c 4).view.writes (Elt F) (m ((c : Thread nD τ).loc main_v1)) [⟨Rect.whole S1024x1024, sound_body_at.sl.dma0_17 m c fL⟩])
      = (xOwn c 4).view.read (Elt F) (xAt m c) :=
    (read_back _ _ _).trans (read_back_cons (slot 0).view fL _ _)
  have hg5 : (res c 5).view.read (Elt F) ((res c 5).view.writes (Elt F) (m ((c : Thread nD τ).loc main_v1)) [⟨Rect.whole S1024x1024, sound_body_at.sl.dma0_19 m c fL⟩])
      = (xOwn c 5).view.read (Elt F) (xAt m c) :=
    (read_back _ _ _).trans (read_back_cons (slot 1).view fL _ _)
  have hg6 : (res c 6).view.read (Elt F) ((res c 6).view.writes (Elt F) (m ((c : Thread nD τ).loc main_v1)) [⟨Rect.whole S1024x1024, sound_body_at.sl.dma0_21 m c fL⟩])
      = (xOwn c 6).view.read (Elt F) (xAt m c) :=
    (read_back _ _ _).trans (read_back_cons (slot 0).view fL _ _)
  have hg7 : (res c 7).view.read (Elt F) ((res c 7).view.writes (Elt F) (m ((c : Thread nD τ).loc main_v1)) [⟨Rect.whole S1024x1024, sound_body_at.sl.dma0_23 m c fL⟩])
      = (xOwn c 7).view.read (Elt F) (xAt m c) :=
    (read_back _ _ _).trans (read_back_cons (slot 1).view fL _ _)
  rw [wp_ret]; imodintro
  iapply Hk
  unfold Φ₁ scratch localSems xferSems
  isplitr [HO]
  · -- the input block, whole again and unchanged
    isplitl [Xf0 Xf1 Xf2 Xf3 Xf4 Xf5 Xf6 Xf7 Xo0 Xo1 Xo2 Xo3 Xo4 Xo5 Xo6 Xo7]
    · iapply (x_join c (xAt m c))
      isplitl [Xf0 Xf1 Xf2 Xf3 Xf4 Xf5 Xf6 Xf7]
      · iapply (Entails.of_eq (bigSep_fin8 (fun k : Fin 8 => ((xFar c k).view.loc (c : Thread nD τ) ↦[(xFar c k).view.set]{fullShare} xAt m c : sProp 𝕄))).symm)
        isplitl [Xf0]; · iexact Xf0
        isplitl [Xf1]; · iexact Xf1
        isplitl [Xf2]; · iexact Xf2
        isplitl [Xf3]; · iexact Xf3
        isplitl [Xf4]; · iexact Xf4
        isplitl [Xf5]; · iexact Xf5
        isplitl [Xf6]; · iexact Xf6
        iexact Xf7
      · iapply (Entails.of_eq (bigSep_fin8 (fun k : Fin 8 => ((xOwn c k).view.loc (c : Thread nD τ) ↦[(xOwn c k).view.set]{fullShare} xAt m c : sProp 𝕄))).symm)
        isplitl [Xo0]; · iexact Xo0
        isplitl [Xo1]; · iexact Xo1
        isplitl [Xo2]; · iexact Xo2
        isplitl [Xo3]; · iexact Xo3
        isplitl [Xo4]; · iexact Xo4
        isplitl [Xo5]; · iexact Xo5
        isplitl [Xo6]; · iexact Xo6
        iexact Xo7
    -- the result: its own half copied chunk by chunk, the other half landed from the peer
    isplitl [Ro0 Ro1 Ro2 Ro3 Ro4 Ro5 Ro6 Ro7 Ar0_pay1 Ar1_pay1 Ar2_pay1 Ar3_pay1 Ar4_pay1 Ar5_pay1 Ar6_pay1 Ar7_pay1]
    · iapply (res_join c (want m c))
      isplitl [Ro0 Ro1 Ro2 Ro3 Ro4 Ro5 Ro6 Ro7]
      · iapply (Entails.of_eq (bigSep_fin8 (fun k : Fin 8 => ((res c k).view.loc (c : Thread nD τ) ↦[(res c k).view.set]{fullShare} want m c : sProp 𝕄))).symm)
        isplitl [Ro0]
        · iapply (kept_of_read m c 0 _ hg0); iexact Ro0
        isplitl [Ro1]
        · iapply (kept_of_read m c 1 _ hg1); iexact Ro1
        isplitl [Ro2]
        · iapply (kept_of_read m c 2 _ hg2); iexact Ro2
        isplitl [Ro3]
        · iapply (kept_of_read m c 3 _ hg3); iexact Ro3
        isplitl [Ro4]
        · iapply (kept_of_read m c 4 _ hg4); iexact Ro4
        isplitl [Ro5]
        · iapply (kept_of_read m c 5 _ hg5); iexact Ro5
        isplitl [Ro6]
        · iapply (kept_of_read m c 6 _ hg6); iexact Ro6
        · iapply (kept_of_read m c 7 _ hg7); iexact Ro7
      · iapply (Entails.of_eq (bigSep_fin8 (fun k : Fin 8 => ((res (peer c) k).view.loc (c : Thread nD τ) ↦[(res (peer c) k).view.set]{fullShare} want m c : sProp 𝕄))).symm)
        isplitl [Ar0_pay1]; · iapply (recv_back m c 0); iexact Ar0_pay1
        isplitl [Ar1_pay1]; · iapply (recv_back m c 1); iexact Ar1_pay1
        isplitl [Ar2_pay1]; · iapply (recv_back m c 2); iexact Ar2_pay1
        isplitl [Ar3_pay1]; · iapply (recv_back m c 3); iexact Ar3_pay1
        isplitl [Ar4_pay1]; · iapply (recv_back m c 4); iexact Ar4_pay1
        isplitl [Ar5_pay1]; · iapply (recv_back m c 5); iexact Ar5_pay1
        isplitl [Ar6_pay1]; · iapply (recv_back m c 6); iexact Ar6_pay1
        iapply (recv_back m c 7); iexact Ar7_pay1
    -- the scratch buffers, at some contents
    isplitl [As0_pay1 As1_pay1 As2_pay1 As3_pay1 As4_pay1 As5_pay1 As6_pay1 As7_pay1 Sl0 Sl1]
    · isplitl [As0_pay1 As1_pay1 As2_pay1 As3_pay1 As4_pay1 As5_pay1 As6_pay1 As7_pay1]
      · iapply (stg_join_ex c)
        iapply (Entails.of_eq (bigSep_fin8 (fun k : Fin 8 => (iprop(∃ f : Buf (Elt F) ((stg k).view.loc (c : Thread nD τ)), ((stg k).view.loc (c : Thread nD τ) ↦[(stg k).view.set]{fullShare} f)) : sProp 𝕄))).symm)
        isplitl [As0_pay1]; · iapply (send_back m c 0); iexact As0_pay1
        isplitl [As1_pay1]; · iapply (send_back m c 1); iexact As1_pay1
        isplitl [As2_pay1]; · iapply (send_back m c 2); iexact As2_pay1
        isplitl [As3_pay1]; · iapply (send_back m c 3); iexact As3_pay1
        isplitl [As4_pay1]; · iapply (send_back m c 4); iexact As4_pay1
        isplitl [As5_pay1]; · iapply (send_back m c 5); iexact As5_pay1
        isplitl [As6_pay1]; · iapply (send_back m c 6); iexact As6_pay1
        iapply (send_back m c 7); iexact As7_pay1
      · iapply (slot_join_ex c)
        isplitl [Sl0]
        · iexists _; iexact Sl0
        · iexists _; iexact Sl1
    -- every DMA semaphore back at zero
    isplitl [Zp0 Zp1 Zp2 Zp3 Zp4 Zp5 Zp6 Zp7 Zi0 Zi1 Zo0 Zo1]
    · isplitl [Zp0 Zp1 Zp2 Zp3 Zp4 Zp5 Zp6 Zp7]
      · iapply (Entails.of_eq (bigSep_fin8 (fun k : Fin 8 => (semVal ((c : Thread nD τ), .dma (packS k).sem) 0 : sProp 𝕄))).symm)
        isplitl [Zp0]; · iexact Zp0
        isplitl [Zp1]; · iexact Zp1
        isplitl [Zp2]; · iexact Zp2
        isplitl [Zp3]; · iexact Zp3
        isplitl [Zp4]; · iexact Zp4
        isplitl [Zp5]; · iexact Zp5
        isplitl [Zp6]; · iexact Zp6
        iexact Zp7
      isplitl [Zi0 Zi1]
      · iapply (Entails.of_eq (bigSep_fin2 (fun s : Fin 2 => (semVal ((c : Thread nD τ), .dma (inS s).sem) 0 : sProp 𝕄))).symm)
        isplitl [Zi0]; · iexact Zi0
        iexact Zi1
      · iapply (Entails.of_eq (bigSep_fin2 (fun s : Fin 2 => (semVal ((c : Thread nD τ), .dma (outS s).sem) 0 : sProp 𝕄))).symm)
        isplitl [Zo0]; · iexact Zo0
        iexact Zo1
    · isplitl [Hzs0 Hzs1 Hzs2 Hzs3 Hzs4 Hzs5 Hzs6 Hzs7]
      · iapply (Entails.of_eq (bigSep_fin8 (fun k : Fin 8 => (semVal (sendCell c k) 0 : sProp 𝕄))).symm)
        isplitl [Hzs0]; · iexact Hzs0
        isplitl [Hzs1]; · iexact Hzs1
        isplitl [Hzs2]; · iexact Hzs2
        isplitl [Hzs3]; · iexact Hzs3
        isplitl [Hzs4]; · iexact Hzs4
        isplitl [Hzs5]; · iexact Hzs5
        isplitl [Hzs6]; · iexact Hzs6
        iexact Hzs7
      · iapply (Entails.of_eq (bigSep_fin8 (fun k : Fin 8 => (semVal (recvCell c k) 0 : sProp 𝕄))).symm)
        isplitl [Hzr0]; · iexact Hzr0
        isplitl [Hzr1]; · iexact Hzr1
        isplitl [Hzr2]; · iexact Hzr2
        isplitl [Hzr3]; · iexact Hzr3
        isplitl [Hzr4]; · iexact Hzr4
        isplitl [Hzr5]; · iexact Hzr5
        isplitl [Hzr6]; · iexact Hzr6
        iexact Hzr7
  · -- nothing owed any more
    rw [show (dats m 0 c).owed t₀.succ = 0 from rfl]
    iexists _
    isplitr
    swap
    · iexact HO
    · ipureintro; exact fun _ _ => Or.inl trivial

/-- info: 'Cert.Kernel.Xchg.sound_body_at' depends on axioms: [propext, Classical.choice, Quot.sound] -/
#guard_msgs in #print axioms sound_body_at

/-- The body does on every device what the launch asks of it. -/
theorem sound_body : SoundBody m := fun c Kt => sound_body_at m c Kt

end Cert.Kernel.Xchg

end
-- ==== Proof.Kernel.Launch.lean ====
/-
  The launch of the exchange: how the machine's launch holdings become what each device's body starts from, and what
  the bodies leave becomes the claim about the final memory.

  At launch every device holds its twenty-eight DMA semaphores and its barrier semaphore at zero, its two arrays as
  launched, and the rights the two copies of the rounds algebra fund. The seventeen cells of each device (barrier,
  eight send, eight receive) are funded at round 0 with one duty token each; their counters go into the cells'
  invariants, all devices at once, because a device's peer pays into them. The tokens are then dealt to the payers:
  a device's barrier token and its eight receive tokens go to its peer, its eight send tokens stay. What the devices
  owe one another at launch is matched by the launch credit: one unit on a device's barrier cell and one chunk's
  credit on each of its receive cells, all owed by its peer.
-/
import proofs.«900643_g7700000000000644_dist_a2a_v7x_xyz2x2x4_y_m8192_n1024_f32_1_alg».proof.Proof.Kernel.State
import Idealize.ShloMosaic.Lib.Pipeline.Launch
import Idealize.ShloMosaic.Lib.Pipeline.Kit
import Idealize.ShloMosaic.Lib.Tactic

noncomputable section

namespace Cert.Kernel.Xchg

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device's own semaphores, grouped as the state groups them -/

/-- The twenty-eight DMA semaphores by use: the local copies' twelve (into staging, into a slot, out of a slot), the
    remote copies' sixteen (send, receive). -/
abbrev OwnIx : Type := (Fin 8 ⊕ (Fin 2 ⊕ Fin 2)) ⊕ (Fin 8 ⊕ Fin 8)

abbrev osem : OwnIx → SemLoc sig
  | .inl (.inl k) => .dma (packS k).sem
  | .inl (.inr (.inl s)) => .dma (inS s).sem
  | .inl (.inr (.inr s)) => .dma (outS s).sem
  | .inr (.inl k) => .dma (sendS k).sem
  | .inr (.inr k) => .dma (recvS k).sem

theorem ownSemFacts : Pipeline.OwnSemFacts cfg0.spec osem := by decide

omit [FloatOps F] in
/-- All of them at zero is the local ones at zero and the remote copies' at zero. -/
theorem ownSems0_eq (c : Dev nD) :
    (Pipeline.ownSems0 (Ix := Unit) (Name := ℕ) (U := UU) (Lvl := ℕ) (Val := Elt F) (τ := τ) osem c : sProp 𝕄)
      = iprop(localSems c ∗ xferSems c) := by
  unfold Pipeline.ownSems0 localSems xferSems
  exact (bigSep_univ_sum _).trans (congrArg₂ BI.sep
    ((bigSep_univ_sum _).trans (congrArg (BI.sep _) (bigSep_univ_sum _))) (bigSep_univ_sum _))

omit [FloatOps F] in
/-- The barrier semaphore is the one semaphore the launch does not scope. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The seventeen cells of a device, by kind -/

theorem csem_injective : Function.Injective csem := by decide

theorem kcell_injective : Function.Injective (kcell : Dev nD × Fin 17 → GSem nD τ sig) := by
  rintro ⟨c, j⟩ ⟨c', j'⟩ h
  have h1 : c = c' := congrArg (fun g : GSem nD τ sig => g.1.1) h
  subst h1
  have h2 : j = j' := csem_injective (congrArg Prod.snd h)
  subst h2; rfl

/-- The indices of a device's cells: the barrier's, the eight send cells', the eight receive cells'. -/
def cix : Unit ⊕ (Fin 8 ⊕ Fin 8) → Fin 17
  | .inl _ => 0
  | .inr (.inl k) => sIx k
  | .inr (.inr k) => rIx k
theorem cix_bijective : Function.Bijective cix := by decide
def cixE : Unit ⊕ (Fin 8 ⊕ Fin 8) ≃ Fin 17 := Equiv.ofBijective cix cix_bijective

omit [FloatOps F] in
theorem bigSep_fin17 (Φ : Fin 17 → sProp 𝕄) :
    bigSep Finset.univ Φ
      = iprop(Φ 0 ∗ (bigSep Finset.univ fun k : Fin 8 => Φ (sIx k)) ∗ (bigSep Finset.univ fun k : Fin 8 => Φ (rIx k))) := by
  rw [bigSep_univ_equiv cixE Φ, bigSep_univ_sum, bigSep_univ_sum, bigSep_univ_of_subsingleton ()]
  rfl

omit [FloatOps F] in
/-- Something held for each of a device's cells is held for its barrier cell, its send cells and its receive cells. -/
theorem bigSep_cells (c : Dev nD) (Ψ : GSem nD τ sig → sProp 𝕄) :
    (bigSep Finset.univ fun j : Fin 17 => Ψ (kcell (c, j)))
      = iprop(Ψ (barCell c) ∗ (bigSep Finset.univ fun k : Fin 8 => Ψ (sendCell c k)) ∗ (bigSep Finset.univ fun k : Fin 8 => Ψ (recvCell c k))) := by
  refine (bigSep_fin17 (fun j => Ψ (kcell (c, j)))).trans ?_
  show iprop(Ψ (kcell (c, 0)) ∗ (bigSep Finset.univ fun k : Fin 8 => Ψ (kcell (c, sIx k))) ∗ (bigSep Finset.univ fun k : Fin 8 => Ψ (kcell (c, rIx k)))) = _
  rw [show (fun k : Fin 8 => Ψ (kcell (c, sIx k))) = fun k => Ψ (sendCell c k) from funext fun k => congrArg Ψ (kcell_send c k),
    show (fun k : Fin 8 => Ψ (kcell (c, rIx k))) = fun k => Ψ (recvCell c k) from funext fun k => congrArg Ψ (kcell_recv c k)]
  rfl

/-! ## Funding the cells -/

def ringCells : Finset (GSem nD τ sig) := Finset.univ.map ⟨kcell, kcell_injective⟩

/-- One duty token a cell: the one duty of its one round. -/
abbrev tokOf (ck : Dev nD × Fin 17) : GSem nD τ sig × ℕ × Unit := (kcell ck, 0, ())
theorem tokOf_injective : Function.Injective (tokOf : Dev nD × Fin 17 → GSem nD τ sig × ℕ × Unit) :=
  fun a b h => kcell_injective (congrArg Prod.fst h)
def ringToks : Finset (GSem nD τ sig × ℕ × Unit) := Finset.univ.map ⟨tokOf, tokOf_injective⟩

def u₀ : UU :=
  (initOf (Pipeline.cells cfgs cellOf_inj) (Pipeline.launchToks cfgs cellOf_inj), (initOf ringCells ringToks, 1))

/-- What the launch element deals device `c`: each of its cells' round state at counter zero, its position at round 0
    of each with the fact that the round is reached, and each cell's duty token. -/
def G (c : Dev nD) : sProp 𝕄 :=
  iprop((bigSep Finset.univ fun j : Fin 17 => roundState ER (sched m) (kcell (c, j)) 0)
    ∗ (bigSep Finset.univ fun j : Fin 17 => iprop(atPos ER (kcell (c, j)) 0 ∅ 0 ∗ reached ER (kcell (c, j)) 0))
    ∗ (bigSep Finset.univ fun j : Fin 17 => dutyTok ER (kcell (c, j)) 0 ()))

/-- What the global step makes of it: the ghost state the body starts from, and the local copies' semaphores. -/
def G' (c : Dev nD) : sProp 𝕄 := iprop((∃ K, ghost m K c) ∗ localSems c)

omit [FloatOps F] in
theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 17 => Φ (kcell (c, j)) := by
    unfold ringCells; rw [bigSep_map, bigSep_univ_prod]; rfl
  have hT : bigSep ringToks (fun x => (dutyTok ER x.1 x.2.1 x.2.2 : sProp 𝕄))
      = bigSep Finset.univ fun c : Dev nD => bigSep Finset.univ fun j : Fin 17 => dutyTok ER (kcell (c, j)) 0 () := by
    unfold ringToks; rw [bigSep_map, bigSep_univ_prod]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The seventeen counters of a device's cells: its remote copies' sixteen and its barrier's. -/
theorem sems0_eq (c : Dev nD) :
    iprop(xferSems c ∗ semVal (barCell c) 0) ⊢ (bigSep Finset.univ fun j : Fin 17 => semVal (kcell (c, j)) 0 : sProp 𝕄) := by
  rw [bigSep_cells c fun g => semVal g 0]
  unfold xferSems
  iintro ⟨⟨HS, HV⟩, HB⟩
  isplitl [HB]; · iexact HB
  isplitl [HS] <;> iassumption

omit [FloatOps F] in
/-- A device's counters at zero and its cells' round states make the cells' invariants; the local copies' semaphores stay. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 17 => iprop(∃ κ : ℕ, cellInv ER (sched m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ())
          ∗ localSems c) := by
  unfold G
  rw [ownSems0_eq, unscopedSems0_eq]
  iintro ⟨⟨Hloc, Hx⟩, Hus, Hst, Hat, Htok⟩
  ihave Hv := (sems0_eq (F := F) c) $$ [Hx Hus]
  · isplitl [Hx] <;> iassumption
  imod (show iprop((bigSep Finset.univ fun j : Fin 17 => semVal (kcell (c, j)) 0) ∗ bigSep Finset.univ fun j : Fin 17 => roundState ER (sched m) (kcell (c, j)) 0)
      ⊢ (|={Set.univ}=> bigSep Finset.univ fun j : Fin 17 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## Dealing the tokens; the ghost state of every device -/

omit [FloatOps F] in
/-- A device's barrier token and its receive tokens go to its peer, which pays those duties; its send tokens stay. -/
theorem toks_around :
    (bigSep Finset.univ fun c : Dev nD => bigSep Finset.univ fun j : Fin 17 => (dutyTok ER (kcell (c, j)) 0 () : sProp 𝕄))
      ⊢ bigSep Finset.univ fun c : Dev nD => payToks c := by
  unfold payToks
  rw [bigSep_congr (s := Finset.univ) (fun (c : Dev nD) _ => bigSep_cells c fun g => (dutyTok ER g 0 () : sProp 𝕄)),
    bigSep_sep', bigSep_sep', bigSep_sep', bigSep_sep',
    bigSep_univ_equiv swap (fun c : Dev nD => (dutyTok ER (barCell c) 0 () : sProp 𝕄)),
    bigSep_univ_equiv swap (fun c : Dev nD => bigSep Finset.univ fun k : Fin 8 => (dutyTok ER (recvCell c k) 0 () : sProp 𝕄))]
  iintro ⟨H1, H2, H3⟩
  isplitl [H1]; · iexact H1
  isplitl [H3]; · iexact H3
  iexact H2

omit [FloatOps F] in
theorem ghost_intro (K : Dev nD × Fin 17 → ℕ) (c : Dev nD) :
    iprop(records m K ∗ (positions c ∗ payToks c ∗ localSems c)) ⊢ G' m c := by
  unfold G' ghost
  iintro ⟨#HR, Hp, Ht, Hl⟩
  isplitr [Hl]
  · iexists K
    isplitr; · iexact HR
    isplitl [Hp] <;> iassumption
  · iexact Hl

omit [FloatOps F] in
theorem regroup :
    (bigSep Finset.univ fun c : Dev nD => iprop((bigSep Finset.univ fun j : Fin 17 => iprop(∃ κ : ℕ, cellInv ER (sched m) κ (kcell (c, j))))
          ∗ (bigSep Finset.univ fun j : Fin 17 => iprop(atPos ER (kcell (c, j)) 0 ∅ 0 ∗ reached ER (kcell (c, j)) 0))
          ∗ (bigSep Finset.univ fun j : Fin 17 => dutyTok ER (kcell (c, j)) 0 ())
          ∗ localSems c) : sProp 𝕄)
      ⊢ bigSep Finset.univ (G' m) := by
  rw [bigSep_sep', bigSep_sep', bigSep_sep',
    ← bigSep_univ_prod (fun ck : Dev nD × Fin 17 => iprop(∃ κ : ℕ, cellInv ER (sched m) κ (kcell ck))),
    bigSep_congr (s := Finset.univ) (fun (c : Dev nD) _ => bigSep_sep' Finset.univ (fun j : Fin 17 => (atPos ER (kcell (c, j)) 0 ∅ 0 : sProp 𝕄)) (fun j => reached ER (kcell (c, j)) 0)),
    bigSep_sep', ← bigSep_univ_prod (fun ck : Dev nD × Fin 17 => (reached ER (kcell ck) 0 : sProp 𝕄))]
  have hpos : (bigSep Finset.univ fun c : Dev nD => iprop(positions c ∗ payToks c ∗ localSems c) : sProp 𝕄)
      = iprop((bigSep Finset.univ fun c : Dev nD => bigSep Finset.univ fun j : Fin 17 => (atPos ER (kcell (c, j)) 0 ∅ 0 : sProp 𝕄))
          ∗ bigSep Finset.univ payToks ∗ bigSep Finset.univ localSems) := by
    rw [bigSep_sep', bigSep_sep']
    exact congrArg (fun X : sProp 𝕄 => iprop(X ∗ bigSep Finset.univ payToks ∗ bigSep Finset.univ localSems))
      (bigSep_congr fun c _ => (bigSep_cells c fun g => (atPos ER g 0 ∅ 0 : sProp 𝕄)).symm)
  iintro ⟨HI, ⟨Hat, #HR⟩, Htok, Hloc⟩
  ihave HK := (BI.bigSep_exists_pi Finset.univ (fun (ck : Dev nD × Fin 17) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · rw [hpos]
    isplitl [Hat]; · iexact Hat
    isplitl [Htk]; · iexact Htk
    iexact Hloc

omit [FloatOps F] in
/-- The global step: the own and the unscoped semaphores of every device at once. -/
theorem glob :
    (bigSep Finset.univ fun c => iprop(Pipeline.ownSems0 (Ix := Unit) (Name := ℕ) (U := UU) (Lvl := ℕ) (Val := Elt F) (τ := τ) osem c ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-! ## The launch credit -/

omit [FloatOps F] in
theorem owedFrom_peel (c : Dev nD) (j : ℕ) (h : j < 8) :
    owedFrom c j = owedFrom c (j + 1) + tallyAt (recvCell (peer c) ⟨j, h⟩) () N := by
  rw [owedFrom, dif_pos h]
omit [FloatOps F] in
theorem owedFrom_eight (c : Dev nD) : owedFrom c 8 = 0 := by
  rw [owedFrom, dif_neg (by omega)]

omit [FloatOps F] in
/-- What a device owes its peer's receive cells at launch: a chunk's credit to each. -/
theorem owedFrom_zero (c : Dev nD) : owedFrom c 0 = ∑ k : Fin 8, tallyAt (recvCell (peer c) k) () N := by
  rw [owedFrom_peel c 0 (by omega), owedFrom_peel c 1 (by omega), owedFrom_peel c 2 (by omega), owedFrom_peel c 3 (by omega),
    owedFrom_peel c 4 (by omega), owedFrom_peel c 5 (by omega), owedFrom_peel c 6 (by omega), owedFrom_peel c 7 (by omega),
    owedFrom_eight, Fin.sum_univ_eight, zero_add]
  show tallyAt (recvCell (peer c) 7) () N + tallyAt (recvCell (peer c) 6) () N + tallyAt (recvCell (peer c) 5) () N
      + tallyAt (recvCell (peer c) 4) () N + tallyAt (recvCell (peer c) 3) () N + tallyAt (recvCell (peer c) 2) () N
      + tallyAt (recvCell (peer c) 1) () N + tallyAt (recvCell (peer c) 0) () N = _
  ac_rfl

omit [FloatOps F] in
/-- The launch credit of a device: what its peer owes its cells — a unit on its barrier cell, a chunk's credit on each
    receive cell. -/
theorem creds_intro (c : Dev nD) : (Pipeline.launchCred O₀ c : sProp 𝕄) ⊢ creds c := by
  have hO : (O₀ : Dev nD → CellTallies nD τ sig Unit)
      = fun d => (∑ k : Fin 8, tallyAt (recvCell (peer d) k) () N) + tallyAt (barCell (peer d)) () 1 :=
    funext fun d => by unfold O₀; rw [owedFrom_zero]
  rw [hO, Pipeline.launchCred_add (fun d => ∑ k : Fin 8, tallyAt (recvCell (peer d) k) () N) (fun d => tallyAt (barCell (peer d)) () 1) c,
    Pipeline.launchCred_sum Finset.univ (fun (k : Fin 8) (d : Dev nD) => tallyAt (recvCell (peer d) k) () N) c]
  unfold creds
  iintro ⟨HN, H1⟩
  isplitl [H1]
  · iapply (Pipeline.launchCred_tallyAt (SemLoc.reg barS) peer peer peer_peer peer_peer () 1 c); iexact H1
  · iapply (show (bigSep Finset.univ fun k : Fin 8 => Pipeline.launchCred (fun d : Dev nD => tallyAt (recvCell (peer d) k) () N) c : sProp 𝕄)
        ⊢ bigSep Finset.univ fun k : Fin 8 => cred (tallyAt (recvCell c k) () N) from
      bigSep_mono fun (k : Fin 8) _ => Pipeline.launchCred_tallyAt (SemLoc.dma (recvS k).sem) peer peer peer_peer peer_peer () N c)
    iexact HN

/-! ## The launch theorem's side conditions -/

/-- What a device holds between the launch and the first point, besides the scoped buffers: the start and its two arrays. -/
def X (c : Dev nD) : sProp 𝕄 :=
  iprop(start m c ∗ (((c : Thread nD τ).loc main_arg0) ↦{fullShare} xAt m c)
    ∗ (((c : Thread nD τ).loc main_v1) ↦{fullShare} m ((c : Thread nD τ).loc main_v1)))
/-- What it holds of its arrays after the last point. -/
def Y (c : Dev nD) : sProp 𝕄 :=
  iprop((((c : Thread nD τ).loc main_arg0) ↦{fullShare} xAt m c) ∗ (((c : Thread nD τ).loc main_v1) ↦{fullShare} want m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Hv⟩, Hlev, Hcr, -, Hg, Hloc⟩
  ihave Hc := (creds_intro (F := F) c) $$ Hcr
  imodintro
  unfold X start
  isplitl
  · isplitl [Hg Hc Hlev Hloc]
    · isplitl [Hg]; · iexact Hg
      isplitl [Hc]; · iexact Hc
      isplitl [Hlev]; · iexact Hlev
      iexact Hloc
    isplitl [Hx]; · iexact Hx
    iexact Hv
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X scratch
  iintro ⟨⟨Hs, Hx, Hv⟩, -, Hr⟩
  isplitl [Hs]; · iexact Hs
  isplitl [Hx]; · iexact Hx
  isplitl [Hv]; · iexact Hv
  iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq]
  unfold Φ₁ Y scratch
  iintro ⟨Hx, Hv, Hr, Hl, Hxf⟩
  isplitl [Hx Hv]
  · isplitl [Hx] <;> iassumption
  isplitl [Hl Hxf]
  · isplitl [Hl] <;> iassumption
  iexact Hr

/-- No staged window: the pipeline itself waits on nothing. -/
theorem waits (c : Dev nD) : (levAts L lv : sProp 𝕄) ⊢ Pipeline.cellsWaits cfgs (dats m) () 0 c :=
  Pipeline.cellsWaits_intro cfgs (dats m) () 0 c fun w _ _ => w.elim0

/-- The body obligation of the one point, from the body's own statement: no window, so nothing staged is handed over. -/
theorem body_obligation (hbody : SoundBody m) (c : Dev nD) :
    BodyObligation (dats (F := F) m 0 c) (defs₀ (F := F)) 𝒱₀ () Set.univ := fun t => by
  rw [fin_N t]
  have hW (Φ : Fin cfg0.W → sProp 𝕄) : bigSep Finset.univ Φ = iprop(emp) := rfl
  rw [hW, hW]
  show iprop(Φ₀ m c ∗ (dats m 0 c).owesAt () t₀.castSucc ∗ emp)
    ⊢ wp frame (wpE (defs₀ (F := F)) 𝒱₀ c none) Set.univ (theBody (F := F))
        (fun _ => iprop(Φ₁ m c ∗ (dats m 0 c).owesAt () t₀.succ ∗ emp))
  iintro ⟨HΦ, HO, -⟩
  iapply (hbody c fun _ => iprop(Φ₁ m c ∗ (dats m 0 c).owesAt () t₀.succ ∗ emp))
  unfold bodyPre bodyPost
  isplitl [HΦ HO]
  · isplitl [HΦ] <;> iassumption
  · iintro ⟨H1, H2⟩
    isplitl [H1]; · iexact H1
    isplitl [H2]; · iexact H2
    iempintro

/-! ## The run -/

/-- What the final memory of a device must read: its result exchanged, its input as launched. -/
def QY (c : Dev nD) (s : MemSt nD τ sig (Elt F)) : Prop :=
  s.mem ((c : Thread nD τ).loc main_v1) = want m c ∧ s.mem ((c : Thread nD τ).loc main_arg0) = xAt m c

set_option maxRecDepth 8000 in
/-- At the compiled mesh of sixteen devices, for any float values, from any memory with zero counters: given that each
    device's body runs from its start to its end state, every weakly fair execution of @main — each device signalling
    its peer's barrier semaphore, exchanging eight chunks with it and moving its own eight — terminates, and every final
    state has each device's result array at the exchanged contents and its input unchanged. -/
theorem run_main (hbody : SoundBody m) :
    θ_run (defs (F := F)) (onTc (τ := τ) (main (F := F))) ⟨m, fun _ => 0, ρ⟩
      (fun r => ∀ c : Dev nD,
        r.2.mem ((c.tc : Thread nD τ).loc main_v1) = want m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m hbody c).loose) (hne := fun w => w.elim0) (harr := arr_whole0) (hstage := stage_whole0)
    (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H2 := (own_pair_emb embR _ _) $$ HX
      icases H2 with ⟨HR, -⟩
      imod (fund_ring m) $$ HR with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m) (hout := phi1_exit m)
    (QY := QY m)
    (hY := fun c s' => by
      unfold Y
      iintro ⟨⟨Hx, Hv⟩, -, HSI⟩
      icombine HSI Hx gives %hx
      icombine HSI Hv gives %hv
      imodintro
      isplitr; · ipureintro; exact ⟨Buf.eq_of_forall_mem_univ hv, Buf.eq_of_forall_mem_univ hx⟩
      iexact HSI)
    (hQ := fun _ h c => (h c).2.2)

/-- info: 'Cert.Kernel.Xchg.run_main' depends on axioms: [propext, Classical.choice, Quot.sound] -/
#guard_msgs in #print axioms run_main

end Cert.Kernel.Xchg

end
-- ==== Proof.lean ====
/-
  The certificate of the exchange on the mesh's `y` axis: sixteen devices, each holding half of the rows of a
  16384 × 2048 array, end holding half of its columns — which is the whole array again, so the reference, which returns
  its argument, agrees with it block by block.

  Each device keeps the rows it already has (its own columns of them, copied chunk by chunk through a two-slot buffer
  into its result) and receives the other rows from its peer, the device at the other `y` coordinate (eight remote
  copies from the peer's staging buffer, after a handshake on the barrier semaphore that hands the peer the chunks of
  the result it will write). The run of the kernel on all devices — every weakly fair execution terminates, nothing
  faults, each device's result is the exchanged array of its own and its peer's blocks, the inputs unchanged — is proved
  once, generically in the float instance: per device the body's run (Body), the protocol's launch over all devices
  (Launch). At the ideal instance the exchanged arrays are the result layout's blocks of the whole array (Blocks),
  which with the reference's run (RefRun) gives the algebraic claim; at the bit-exact instance the same run, its values
  dropped, is the word-level program's frame.
-/
import proofs.«900643_g7700000000000644_dist_a2a_v7x_xyz2x2x4_y_m8192_n1024_f32_1_alg».proof.Proof.Assemble
import proofs.«900643_g7700000000000644_dist_a2a_v7x_xyz2x2x4_y_m8192_n1024_f32_1_alg».proof.Proof.KernelIdeal.Body
import proofs.«900643_g7700000000000644_dist_a2a_v7x_xyz2x2x4_y_m8192_n1024_f32_1_alg».proof.Proof.KernelIdeal.Launch
import proofs.«900643_g7700000000000644_dist_a2a_v7x_xyz2x2x4_y_m8192_n1024_f32_1_alg».proof.Proof.Kernel.Body
import proofs.«900643_g7700000000000644_dist_a2a_v7x_xyz2x2x4_y_m8192_n1024_f32_1_alg».proof.Proof.Kernel.Launch

noncomputable section

namespace Cert.Proof

open Idealize.ShloMosaic Idealize.SL.Sem

/-- The idealized kernel's run on all devices: each result array ends as the exchanged array, the inputs unchanged. -/
theorem run_ideal : Cert.Proof.Assemble.RunI :=
  fun m ρ => Cert.KernelIdeal.Xchg.run_main m ρ (Cert.KernelIdeal.Xchg.sound_body m)

/-- The word-level kernel's frame: the same run at the bit-exact instance, the values dropped. -/
theorem frame_bits : Cert.frame_Kernel := fun m ρ _ =>
  (θ_run (Cert.Kernel.defs (F := Bits)) _ _).mono (fun _ h c => (h c).2)
    (Cert.Kernel.Xchg.run_main (F := Bits) m ρ (Cert.Kernel.Xchg.sound_body m))

theorem claim : Cert.Claim := Cert.Proof.Assemble.claim run_ideal frame_bits

end Cert.Proof

end
